-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v107)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v107) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x49152x32 : Shape := ⟨3, ![16, 49152, 32]⟩
abbrev S393216 : Shape := ⟨1, ![393216]⟩
abbrev S32x1x5 : Shape := ⟨3, ![32, 1, 5]⟩
abbrev S64x32 : Shape := ⟨2, ![64, 32]⟩
abbrev S1x1x64 : Shape := ⟨3, ![1, 1, 64]⟩
abbrev S_ : Shape := ⟨0, ![]⟩

class Facts : Prop where
  bcast_S_S16x49152x32 : S_.BroadcastsInDim S16x49152x32 (![] : Fin 0 → Fin S16x49152x32.rank)
  reducesTo_S16x49152x32_S_d0_1_2 : S16x49152x32.ReducesTo [0, 1, 2] S_
  h_S_ : 0 < S_.numel
  bcast_S_S393216 : S_.BroadcastsInDim S393216 (![] : Fin 0 → Fin S393216.rank)
  reducesTo_S393216_S_d0 : S393216.ReducesTo [0] S_
  bcast_S_S32x1x5 : S_.BroadcastsInDim S32x1x5 (![] : Fin 0 → Fin S32x1x5.rank)
  reducesTo_S32x1x5_S_d0_1_2 : S32x1x5.ReducesTo [0, 1, 2] S_
  bcast_S_S64x32 : S_.BroadcastsInDim S64x32 (![] : Fin 0 → Fin S64x32.rank)
  reducesTo_S64x32_S_d0_1 : S64x32.ReducesTo [0, 1] S_
  bcast_S_S1x1x64 : S_.BroadcastsInDim S1x1x64 (![] : Fin 0 → Fin S1x1x64.rank)
  reducesTo_S1x1x64_S_d0_1_2 : S1x1x64.ReducesTo [0, 1, 2] S_

variable [Facts]

def fn_part1 {F : FTy → Type} [FloatOps F] (main_arg4 : FVec F S1x1x64 .f32) (main_v13 : IVec S_ 1) (main_v16 : IVec S64x32 1) : IVec S_ 1 :=
  let main_c_5 : IVec S_ 1 := constantI S_ 1 1#1
  let main_v17 : IVec S_ 1 := (fun x v => Host.reduce IntOp.andi x v reducesTo_S64x32_S_d0_1 h_S_) main_v16 main_c_5
  let main_v18 : IVec S_ 1 := andi main_v13 main_v17
  let main_v19 : FVec F S1x1x64 .f32 := Host.absf main_arg4
  let main_cst_6 : FVec F S_ .f32 := constant S_ .f32 0x7F800000#32
  let main_v20 : FVec F S1x1x64 .f32 := broadcastInDim S1x1x64 ![] bcast_S_S1x1x64 main_cst_6
  let main_v21 : IVec S1x1x64 1 := cmpf .olt main_v19 main_v20
  let main_c_7 : IVec S_ 1 := constantI S_ 1 1#1
  let main_v22 : IVec S_ 1 := (fun x v => Host.reduce IntOp.andi x v reducesTo_S1x1x64_S_d0_1_2 h_S_) main_v21 main_c_7
  let main_v23 : IVec S_ 1 := andi main_v18 main_v22
  main_v23

def fn {F : FTy → Type} [FloatOps F] (main_arg0 : FVec F S16x49152x32 .f32) (main_arg1 : FVec F S393216 .f32) (main_arg2 : FVec F S32x1x5 .f32) (main_arg3 : FVec F S64x32 .f32) (main_arg4 : FVec F S1x1x64 .f32) (main_arg5 : IVec S393216 32) (main_arg6 : IVec S393216 32) : IVec S_ 1 :=
  let main_v0 : FVec F S16x49152x32 .f32 := Host.absf main_arg0
  let main_cst : FVec F S_ .f32 := constant S_ .f32 0x7F800000#32
  let main_v1 : FVec F S16x49152x32 .f32 := broadcastInDim S16x49152x32 ![] bcast_S_S16x49152x32 main_cst
  let main_v2 : IVec S16x49152x32 1 := cmpf .olt main_v0 main_v1
  let main_c : IVec S_ 1 := constantI S_ 1 1#1
  let main_v3 : IVec S_ 1 := (fun x v => Host.reduce IntOp.andi x v reducesTo_S16x49152x32_S_d0_1_2 h_S_) main_v2 main_c
  let main_v4 : FVec F S393216 .f32 := Host.absf main_arg1
  let main_cst_0 : FVec F S_ .f32 := constant S_ .f32 0x7F800000#32
  let main_v5 : FVec F S393216 .f32 := broadcastInDim S393216 ![] bcast_S_S393216 main_cst_0
  let main_v6 : IVec S393216 1 := cmpf .olt main_v4 main_v5
  let main_c_1 : IVec S_ 1 := constantI S_ 1 1#1
  let main_v7 : IVec S_ 1 := (fun x v => Host.reduce IntOp.andi x v reducesTo_S393216_S_d0 h_S_) main_v6 main_c_1
  let main_v8 : IVec S_ 1 := andi main_v3 main_v7
  let main_v9 : FVec F S32x1x5 .f32 := Host.absf main_arg2
  let main_cst_2 : FVec F S_ .f32 := constant S_ .f32 0x7F800000#32
  let main_v10 : FVec F S32x1x5 .f32 := broadcastInDim S32x1x5 ![] bcast_S_S32x1x5 main_cst_2
  let main_v11 : IVec S32x1x5 1 := cmpf .olt main_v9 main_v10
  let main_c_3 : IVec S_ 1 := constantI S_ 1 1#1
  let main_v12 : IVec S_ 1 := (fun x v => Host.reduce IntOp.andi x v reducesTo_S32x1x5_S_d0_1_2 h_S_) main_v11 main_c_3
  let main_v13 : IVec S_ 1 := andi main_v8 main_v12
  let main_v14 : FVec F S64x32 .f32 := Host.absf main_arg3
  let main_cst_4 : FVec F S_ .f32 := constant S_ .f32 0x7F800000#32
  let main_v15 : FVec F S64x32 .f32 := broadcastInDim S64x32 ![] bcast_S_S64x32 main_cst_4
  let main_v16 : IVec S64x32 1 := cmpf .olt main_v14 main_v15
  fn_part1 (F := F) main_arg4 main_v13 main_v16
-- ==== Kernel.lean ====
abbrev S16x49152x32 : Shape := ⟨3, ![16, 49152, 32]⟩
abbrev S393216 : Shape := ⟨1, ![393216]⟩
abbrev S32x1x5 : Shape := ⟨3, ![32, 1, 5]⟩
abbrev S64x32 : Shape := ⟨2, ![64, 32]⟩
abbrev S1x1x64 : Shape := ⟨3, ![1, 1, 64]⟩
abbrev S393216x1 : Shape := ⟨2, ![393216, 1]⟩
abbrev S_ : Shape := ⟨0, ![]⟩
abbrev S16x393216x32 : Shape := ⟨3, ![16, 393216, 32]⟩
abbrev S1x393216x1 : Shape := ⟨3, ![1, 393216, 1]⟩
abbrev S49152x32 : Shape := ⟨2, ![49152, 32]⟩
abbrev S32x5 : Shape := ⟨2, ![32, 5]⟩
abbrev S32x1 : Shape := ⟨2, ![32, 1]⟩
abbrev S32 : Shape := ⟨1, ![32]⟩
abbrev S1x32 : Shape := ⟨2, ![1, 32]⟩
abbrev S32x64 : Shape := ⟨2, ![32, 64]⟩
abbrev S1x32x64 : Shape := ⟨3, ![1, 32, 64]⟩
abbrev S5x32x64 : Shape := ⟨3, ![5, 32, 64]⟩
abbrev S64 : Shape := ⟨1, ![64]⟩
abbrev S16x49152x64 : Shape := ⟨3, ![16, 49152, 64]⟩
abbrev S1x8192x32 : Shape := ⟨3, ![1, 8192, 32]⟩
abbrev S1x8192x64 : Shape := ⟨3, ![1, 8192, 64]⟩
abbrev S8192x64 : Shape := ⟨2, ![8192, 64]⟩
abbrev S8192x32 : Shape := ⟨2, ![8192, 32]⟩
abbrev S1x64 : Shape := ⟨2, ![1, 64]⟩

abbrev nBuf : Space → Nat
  | .hbm => 130
  | .vmem => 14
  | .smem => 0
  | _ => 0

abbrev hbmTy0_0 (i : Nat) : BufTy := match i % 128 with
  | 0 => ⟨S16x49152x32, .f32⟩
  | 1 => ⟨S393216, .f32⟩
  | 2 => ⟨S32x1x5, .f32⟩
  | 3 => ⟨S64x32, .f32⟩
  | 4 => ⟨S1x1x64, .f32⟩
  | 5 => ⟨S393216, .i32⟩
  | 6 => ⟨S393216, .i32⟩
  | 7 => ⟨S393216x1, .f32⟩
  | 8 => ⟨S_, .i32⟩
  | 9 => ⟨S393216, .i32⟩
  | 10 => ⟨S393216, .i1⟩
  | 11 => ⟨S_, .i32⟩
  | 12 => ⟨S393216, .i32⟩
  | 13 => ⟨S393216, .i32⟩
  | 14 => ⟨S393216, .i32⟩
  | 15 => ⟨S393216x1, .i32⟩
  | 16 => ⟨S16x393216x32, .f32⟩
  | 17 => ⟨S1x393216x1, .f32⟩
  | 18 => ⟨S16x393216x32, .f32⟩
  | 19 => ⟨S16x393216x32, .f32⟩
  | 20 => ⟨S_, .f32⟩
  | 21 => ⟨S49152x32, .f32⟩
  | 22 => ⟨S393216x1, .i32⟩
  | 23 => ⟨S16x49152x32, .f32⟩
  | 24 => ⟨S16x49152x32, .f32⟩
  | 25 => ⟨S393216x1, .f32⟩
  | 26 => ⟨S_, .i32⟩
  | 27 => ⟨S393216, .i32⟩
  | 28 => ⟨S393216, .i1⟩
  | 29 => ⟨S_, .i32⟩
  | 30 => ⟨S393216, .i32⟩
  | 31 => ⟨S393216, .i32⟩
  | 32 => ⟨S393216, .i32⟩
  | 33 => ⟨S393216x1, .i32⟩
  | 34 => ⟨S16x393216x32, .f32⟩
  | 35 => ⟨S1x393216x1, .f32⟩
  | 36 => ⟨S16x393216x32, .f32⟩
  | 37 => ⟨S16x393216x32, .f32⟩
  | 38 => ⟨S_, .f32⟩
  | 39 => ⟨S49152x32, .f32⟩
  | 40 => ⟨S393216x1, .i32⟩
  | 41 => ⟨S16x49152x32, .f32⟩
  | 42 => ⟨S16x49152x32, .f32⟩
  | 43 => ⟨S_, .f32⟩
  | 44 => ⟨S16x49152x32, .f32⟩
  | 45 => ⟨S16x49152x32, .f32⟩
  | 46 => ⟨S16x49152x32, .f32⟩
  | 47 => ⟨S393216x1, .f32⟩
  | 48 => ⟨S_, .i32⟩
  | 49 => ⟨S393216, .i32⟩
  | 50 => ⟨S393216, .i1⟩
  | 51 => ⟨S_, .i32⟩
  | 52 => ⟨S393216, .i32⟩
  | 53 => ⟨S393216, .i32⟩
  | 54 => ⟨S393216, .i32⟩
  | 55 => ⟨S393216x1, .i32⟩
  | 56 => ⟨S16x393216x32, .f32⟩
  | 57 => ⟨S1x393216x1, .f32⟩
  | 58 => ⟨S16x393216x32, .f32⟩
  | 59 => ⟨S16x393216x32, .f32⟩
  | 60 => ⟨S_, .f32⟩
  | 61 => ⟨S49152x32, .f32⟩
  | 62 => ⟨S393216x1, .i32⟩
  | 63 => ⟨S16x49152x32, .f32⟩
  | 64 => ⟨S16x49152x32, .f32⟩
  | 65 => ⟨S_, .f32⟩
  | 66 => ⟨S16x49152x32, .f32⟩
  | 67 => ⟨S16x49152x32, .f32⟩
  | 68 => ⟨S16x49152x32, .f32⟩
  | 69 => ⟨S393216x1, .f32⟩
  | 70 => ⟨S_, .i32⟩
  | 71 => ⟨S393216, .i32⟩
  | 72 => ⟨S393216, .i1⟩
  | 73 => ⟨S_, .i32⟩
  | 74 => ⟨S393216, .i32⟩
  | 75 => ⟨S393216, .i32⟩
  | 76 => ⟨S393216, .i32⟩
  | 77 => ⟨S393216x1, .i32⟩
  | 78 => ⟨S16x393216x32, .f32⟩
  | 79 => ⟨S1x393216x1, .f32⟩
  | 80 => ⟨S16x393216x32, .f32⟩
  | 81 => ⟨S16x393216x32, .f32⟩
  | 82 => ⟨S_, .f32⟩
  | 83 => ⟨S49152x32, .f32⟩
  | 84 => ⟨S393216x1, .i32⟩
  | 85 => ⟨S16x49152x32, .f32⟩
  | 86 => ⟨S16x49152x32, .f32⟩
  | 87 => ⟨S_, .f32⟩
  | 88 => ⟨S16x49152x32, .f32⟩
  | 89 => ⟨S16x49152x32, .f32⟩
  | 90 => ⟨S16x49152x32, .f32⟩
  | 91 => ⟨S32x5, .f32⟩
  | 92 => ⟨S32x1, .f32⟩
  | 93 => ⟨S32, .f32⟩
  | 94 => ⟨S1x32, .f32⟩
  | 95 => ⟨S64x32, .f32⟩
  | 96 => ⟨S64x32, .f32⟩
  | 97 => ⟨S32x64, .f32⟩
  | 98 => ⟨S32x1, .f32⟩
  | 99 => ⟨S32, .f32⟩
  | 100 => ⟨S1x32, .f32⟩
  | 101 => ⟨S64x32, .f32⟩
  | 102 => ⟨S64x32, .f32⟩
  | 103 => ⟨S32x64, .f32⟩
  | 104 => ⟨S32x1, .f32⟩
  | 105 => ⟨S32, .f32⟩
  | 106 => ⟨S1x32, .f32⟩
  | 107 => ⟨S64x32, .f32⟩
  | 108 => ⟨S64x32, .f32⟩
  | 109 => ⟨S32x64, .f32⟩
  | 110 => ⟨S32x1, .f32⟩
  | 111 => ⟨S32, .f32⟩
  | 112 => ⟨S1x32, .f32⟩
  | 113 => ⟨S64x32, .f32⟩
  | 114 => ⟨S64x32, .f32⟩
  | 115 => ⟨S32x64, .f32⟩
  | 116 => ⟨S32x1, .f32⟩
  | 117 => ⟨S32, .f32⟩
  | 118 => ⟨S1x32, .f32⟩
  | 119 => ⟨S64x32, .f32⟩
  | 120 => ⟨S64x32, .f32⟩
  | 121 => ⟨S32x64, .f32⟩
  | 122 => ⟨S1x32x64, .f32⟩
  | 123 => ⟨S1x32x64, .f32⟩
  | 124 => ⟨S1x32x64, .f32⟩
  | 125 => ⟨S1x32x64, .f32⟩
  | 126 => ⟨S1x32x64, .f32⟩
  | 127 => ⟨S5x32x64, .f32⟩
  | _ => ⟨S16x49152x32, .f32⟩

abbrev hbmTy0_1 (i : Nat) : BufTy := match i % 128 with
  | 0 => ⟨S64, .f32⟩
  | 1 => ⟨S16x49152x64, .f32⟩
  | _ => ⟨S16x49152x32, .f32⟩

abbrev hbmTy (i : Nat) : BufTy := match i / 128 with
  | 0 => hbmTy0_0 i
  | 1 => hbmTy0_1 i
  | _ => ⟨S16x49152x32, .f32⟩

abbrev bufTy : (tb : Table) → Fin (tcTables nBuf tb) → BufTy
  | .hbm, ⟨i, _⟩ => hbmTy i
  | .local _ .vmem, ⟨0, _⟩ => ⟨S1x8192x32, .f32⟩
  | .local _ .vmem, ⟨1, _⟩ => ⟨S1x8192x32, .f32⟩
  | .local _ .vmem, ⟨2, _⟩ => ⟨S1x8192x32, .f32⟩
  | .local _ .vmem, ⟨3, _⟩ => ⟨S1x8192x32, .f32⟩
  | .local _ .vmem, ⟨4, _⟩ => ⟨S1x8192x32, .f32⟩
  | .local _ .vmem, ⟨5, _⟩ => ⟨S1x8192x32, .f32⟩
  | .local _ .vmem, ⟨6, _⟩ => ⟨S1x8192x32, .f32⟩
  | .local _ .vmem, ⟨7, _⟩ => ⟨S1x8192x32, .f32⟩
  | .local _ .vmem, ⟨8, _⟩ => ⟨S1x8192x32, .f32⟩
  | .local _ .vmem, ⟨9, _⟩ => ⟨S1x8192x32, .f32⟩
  | .local _ .vmem, ⟨10, _⟩ => ⟨S5x32x64, .f32⟩
  | .local _ .vmem, ⟨11, _⟩ => ⟨S64, .f32⟩
  | .local _ .vmem, ⟨12, _⟩ => ⟨S1x8192x64, .f32⟩
  | .local _ .vmem, ⟨13, _⟩ => ⟨S1x8192x64, .f32⟩
  | _, _ => ⟨S16x49152x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_c_1 : Ref sig .tc := ⟨.hbm, 26, rfl⟩
abbrev main_v16 : Ref sig .tc := ⟨.hbm, 27, rfl⟩
abbrev main_v17 : Ref sig .tc := ⟨.hbm, 28, rfl⟩
abbrev main_c_2 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_3 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_4 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_c_5 : Ref sig .tc := ⟨.hbm, 48, rfl⟩
abbrev main_v34 : Ref sig .tc := ⟨.hbm, 49, rfl⟩
abbrev main_v35 : Ref sig .tc := ⟨.hbm, 50, rfl⟩
abbrev main_c_6 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_7 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_cst_8 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_c_9 : Ref sig .tc := ⟨.hbm, 70, rfl⟩
abbrev main_v52 : Ref sig .tc := ⟨.hbm, 71, rfl⟩
abbrev main_v53 : Ref sig .tc := ⟨.hbm, 72, rfl⟩
abbrev main_c_10 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_cst_11 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_cst_12 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩
abbrev main_v102 : Ref sig .tc := ⟨.hbm, 124, rfl⟩
abbrev main_v103 : Ref sig .tc := ⟨.hbm, 125, rfl⟩
abbrev main_v104 : Ref sig .tc := ⟨.hbm, 126, rfl⟩
abbrev main_v105 : Ref sig .tc := ⟨.hbm, 127, rfl⟩
abbrev main_v106 : Ref sig .tc := ⟨.hbm, 128, rfl⟩
abbrev main_v107 : Ref sig .tc := ⟨.hbm, 129, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![16, 6], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x8192x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8192x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8192x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8192x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8192x32 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S5x32x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x8192x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

class Facts₀ : Prop where
  bcast_S393216_S393216x1_0 : S393216.BroadcastsInDim S393216x1 (![0] : Fin 1 → Fin S393216x1.rank)
  bcast_S_S393216 : S_.BroadcastsInDim S393216 (![] : Fin 0 → Fin S393216.rank)
  bcast_S393216x1_S1x393216x1_1_2 : S393216x1.BroadcastsInDim S1x393216x1 (![1, 2] : Fin 2 → Fin S1x393216x1.rank)
  bcast_S1x393216x1_S16x393216x32_0_1_2 : S1x393216x1.BroadcastsInDim S16x393216x32 (![0, 1, 2] : Fin 3 → Fin S16x393216x32.rank)
  bcast_S_S49152x32 : S_.BroadcastsInDim S49152x32 (![] : Fin 0 → Fin S49152x32.rank)
  bcast_S49152x32_S16x49152x32_1_2 : S49152x32.BroadcastsInDim S16x49152x32 (![1, 2] : Fin 2 → Fin S16x49152x32.rank)
  bcast_S_S16x49152x32 : S_.BroadcastsInDim S16x49152x32 (![] : Fin 0 → Fin S16x49152x32.rank)
  shapeCasts_S32x1x5_S32x5 : S32x1x5.ShapeCasts S32x5
  slices_S32x5_S32x1_0_0 : S32x5.Slices ![0, 0] S32x1
  shapeCasts_S32x1_S32 : S32x1.ShapeCasts S32
  bcast_S32_S1x32_1 : S32.BroadcastsInDim S1x32 (![1] : Fin 1 → Fin S1x32.rank)
  bcast_S1x32_S64x32_0_1 : S1x32.BroadcastsInDim S64x32 (![0, 1] : Fin 2 → Fin S64x32.rank)
  transposes_S64x32_S32x64_1_0 : S64x32.Transposes [1, 0] S32x64
  slices_S32x5_S32x1_0_1 : S32x5.Slices ![0, 1] S32x1
  slices_S32x5_S32x1_0_2 : S32x5.Slices ![0, 2] S32x1
  slices_S32x5_S32x1_0_3 : S32x5.Slices ![0, 3] S32x1
  slices_S32x5_S32x1_0_4 : S32x5.Slices ![0, 4] S32x1
  bcast_S32x64_S1x32x64_1_2 : S32x64.BroadcastsInDim S1x32x64 (![1, 2] : Fin 2 → Fin S1x32x64.rank)
  concatenates_S1x32x64_S1x32x64_S1x32x64_S1x32x64_S1x32x64_S5x32x64_d0 : Shape.Concatenates [S1x32x64, S1x32x64, S1x32x64, S1x32x64, S1x32x64] S5x32x64 0
  shapeCasts_S1x1x64_S64 : S1x1x64.ShapeCasts S64
  inb_S1x8192x32_S1x8192x32_0_0_0 : ∀ a, (![0, 0, 0] : Fin 3 → Nat) a + S1x8192x32.size a ≤ S1x8192x32.size a
  h_S1x8192x32 : 0 < S1x8192x32.numel
  shapeCasts_S1x8192x32_S8192x32 : S1x8192x32.ShapeCasts S8192x32
  bitsLt_bf16_f32 : FTy.bits .bf16 < FTy.bits .f32
  inb_S5x32x64_S1x32x64_0_0_0 : ∀ a, (![0, 0, 0] : Fin 3 → Nat) a + S1x32x64.size a ≤ S5x32x64.size a
  h_S1x32x64 : 0 < S1x32x64.numel
  shapeCasts_S1x32x64_S32x64 : S1x32x64.ShapeCasts S32x64
  inb_S5x32x64_S1x32x64_1_0_0 : ∀ a, (![1, 0, 0] : Fin 3 → Nat) a + S1x32x64.size a ≤ S5x32x64.size a
  inb_S5x32x64_S1x32x64_2_0_0 : ∀ a, (![2, 0, 0] : Fin 3 → Nat) a + S1x32x64.size a ≤ S5x32x64.size a
  inb_S5x32x64_S1x32x64_3_0_0 : ∀ a, (![3, 0, 0] : Fin 3 → Nat) a + S1x32x64.size a ≤ S5x32x64.size a
  inb_S5x32x64_S1x32x64_4_0_0 : ∀ a, (![4, 0, 0] : Fin 3 → Nat) a + S1x32x64.size a ≤ S5x32x64.size a
  inb_S64_S64_0 : ∀ a, (![0] : Fin 1 → Nat) a + S64.size a ≤ S64.size a
  h_S64 : 0 < S64.numel
  shapeCasts_S64_S64 : S64.ShapeCasts S64
  shapeCasts_S64_S1x64 : S64.ShapeCasts S1x64
  broadcasts_S1x64_S8192x64 : S1x64.Broadcasts S8192x64
  inb_S1x8192x64_S1x8192x64_0_0_0 : ∀ a, (![0, 0, 0] : Fin 3 → Nat) a + S1x8192x64.size a ≤ S1x8192x64.size a
  h_S1x8192x64 : 0 < S1x8192x64.numel
  shapeCasts_S1x8192x64_S8192x64 : S1x8192x64.ShapeCasts S8192x64
  shapeCasts_S8192x64_S1x8192x64 : S8192x64.ShapeCasts S1x8192x64
  gather_S16x49152x32_S393216x1_S16x393216x32_02_1_n_n_1_1_16132_wf : GatherDims.WF S16x49152x32 S393216x1 S16x393216x32 [0, 2] [1] [] [1] [] 1 ![16, 1, 32]
  scatter_S16x49152x32_S393216x1_S16x393216x32_02_1_1_1_wf : ScatterDims.WF S16x49152x32 S393216x1 S16x393216x32 [0, 2] [1] [1] 1
  dot_S8192x32_S32x64_S8192x64_1_0_0_1_n_n_wf : DotDims.WF S8192x32 S32x64 S8192x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x8192x32.size a ≤ S16x49152x32.size a
  hwx0_0 : ∀ i : grid0.Coords, EltTy.bits .f32 = 32 ∨ (Rect.block (s := S16x49152x32) S1x8192x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x8192x32.size a ≤ S16x49152x32.size a
  hwx0_1 : ∀ i : grid0.Coords, EltTy.bits .f32 = 32 ∨ (Rect.block (s := S16x49152x32) S1x8192x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8192x32.size a ≤ S16x49152x32.size a
  hwx0_2 : ∀ i : grid0.Coords, EltTy.bits .f32 = 32 ∨ (Rect.block (s := S16x49152x32) S1x8192x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x8192x32.size a ≤ S16x49152x32.size a
  hwx0_3 : ∀ i : grid0.Coords, EltTy.bits .f32 = 32 ∨ (Rect.block (s := S16x49152x32) S1x8192x32.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x8192x32.size a ≤ S16x49152x32.size a
  hwx0_4 : ∀ i : grid0.Coords, EltTy.bits .f32 = 32 ∨ (Rect.block (s := S16x49152x32) S1x8192x32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S5x32x64.size a ≤ S5x32x64.size a
  hwx0_5 : ∀ i : grid0.Coords, EltTy.bits .f32 = 32 ∨ (Rect.block (s := S5x32x64) S5x32x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64.size a ≤ S64.size a
  hwx0_6 : ∀ i : grid0.Coords, EltTy.bits .f32 = 32 ∨ (Rect.block (s := S64) S64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x8192x64.size a ≤ S16x49152x64.size a
  hwx0_7 : ∀ i : grid0.Coords, EltTy.bits .f32 = 32 ∨ (Rect.block (s := S16x49152x64) S1x8192x64.size (cc0_transform_7 i) (hinb0_7 i)).WholeWords (EltTy.packing .f32)

variable [Facts₀]

def gather_S16x49152x32_S393216x1_S16x393216x32_02_1_n_n_1_1_16132 : GatherDims S16x49152x32 S393216x1 S16x393216x32 where
  offsetDims := [0, 2]
  collapsedSliceDims := [1]
  operandBatchingDims := []
  startIndicesBatchingDims := []
  startIndexMap := [1]
  indexVectorDim := 1
  sliceSizes := ![16, 1, 32]
  wf := gather_S16x49152x32_S393216x1_S16x393216x32_02_1_n_n_1_1_16132_wf
def scatter_S16x49152x32_S393216x1_S16x393216x32_02_1_1_1 : ScatterDims S16x49152x32 S393216x1 S16x393216x32 where
  updateWindowDims := [0, 2]
  insertedWindowDims := [1]
  scatterDimsToOperandDims := [1]
  indexVectorDim := 1
  wf := scatter_S16x49152x32_S393216x1_S16x393216x32_02_1_1_1_wf
def dot_S8192x32_S32x64_S8192x64_1_0_0_1_n_n : DotDims S8192x32 S32x64 S8192x64 where
  lhsContracting := [1]
  rhsContracting := [0]
  lhsNonContracting := [0]
  rhsNonContracting := [1]
  lhsBatch := []
  rhsBatch := []
  wf := dot_S8192x32_S32x64_S8192x64_1_0_0_1_n_n_wf

abbrev win0_0 : Pipeline.Window sig grid0 :=
  Pipeline.Window.ofSpec (Memref.whole main_arg0) S1x8192x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S1x8192x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v32) S1x8192x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v50) S1x8192x32.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v68) S1x8192x32.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v105) S5x32x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v106) S64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v107) S1x8192x64.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S16x49152x32 : Shape := ⟨3, ![16, 49152, 32]⟩
abbrev S393216 : Shape := ⟨1, ![393216]⟩
abbrev S32x1x5 : Shape := ⟨3, ![32, 1, 5]⟩
abbrev S64x32 : Shape := ⟨2, ![64, 32]⟩
abbrev S1x1x64 : Shape := ⟨3, ![1, 1, 64]⟩
abbrev S49152x16x32 : Shape := ⟨3, ![49152, 16, 32]⟩
abbrev S49152x512 : Shape := ⟨2, ![49152, 512]⟩
abbrev S393216x1 : Shape := ⟨2, ![393216, 1]⟩
abbrev S_ : Shape := ⟨0, ![]⟩
abbrev S393216x512 : Shape := ⟨2, ![393216, 512]⟩
abbrev S1x49152x512 : Shape := ⟨3, ![1, 49152, 512]⟩
abbrev S5x49152x512 : Shape := ⟨3, ![5, 49152, 512]⟩
abbrev S5x49152x16x32 : Shape := ⟨4, ![5, 49152, 16, 32]⟩
abbrev S32x5x16x49152 : Shape := ⟨4, ![32, 5, 16, 49152]⟩
abbrev S32x5x786432 : Shape := ⟨3, ![32, 5, 786432]⟩
abbrev S32x1x786432 : Shape := ⟨3, ![32, 1, 786432]⟩
abbrev S32x786432 : Shape := ⟨2, ![32, 786432]⟩
abbrev S64x786432 : Shape := ⟨2, ![64, 786432]⟩
abbrev S786432x64 : Shape := ⟨2, ![786432, 64]⟩
abbrev S16x49152x64 : Shape := ⟨3, ![16, 49152, 64]⟩

abbrev nBuf : Space → Nat
  | .hbm => 104
  | .vmem => 0
  | .smem => 0
  | _ => 0

abbrev bufTy : (tb : Table) → Fin (tcTables nBuf tb) → BufTy
  | .hbm, ⟨0, _⟩ => ⟨S16x49152x32, .f32⟩
  | .hbm, ⟨1, _⟩ => ⟨S393216, .f32⟩
  | .hbm, ⟨2, _⟩ => ⟨S32x1x5, .f32⟩
  | .hbm, ⟨3, _⟩ => ⟨S64x32, .f32⟩
  | .hbm, ⟨4, _⟩ => ⟨S1x1x64, .f32⟩
  | .hbm, ⟨5, _⟩ => ⟨S393216, .i32⟩
  | .hbm, ⟨6, _⟩ => ⟨S393216, .i32⟩
  | .hbm, ⟨7, _⟩ => ⟨S49152x16x32, .f32⟩
  | .hbm, ⟨8, _⟩ => ⟨S49152x512, .f32⟩
  | .hbm, ⟨9, _⟩ => ⟨S393216x1, .f32⟩
  | .hbm, ⟨10, _⟩ => ⟨S_, .i32⟩
  | .hbm, ⟨11, _⟩ => ⟨S393216, .i32⟩
  | .hbm, ⟨12, _⟩ => ⟨S393216, .i1⟩
  | .hbm, ⟨13, _⟩ => ⟨S_, .i32⟩
  | .hbm, ⟨14, _⟩ => ⟨S393216, .i32⟩
  | .hbm, ⟨15, _⟩ => ⟨S393216, .i32⟩
  | .hbm, ⟨16, _⟩ => ⟨S393216, .i32⟩
  | .hbm, ⟨17, _⟩ => ⟨S393216x1, .i32⟩
  | .hbm, ⟨18, _⟩ => ⟨S393216x512, .f32⟩
  | .hbm, ⟨19, _⟩ => ⟨S393216x512, .f32⟩
  | .hbm, ⟨20, _⟩ => ⟨S393216x512, .f32⟩
  | .hbm, ⟨21, _⟩ => ⟨S_, .f32⟩
  | .hbm, ⟨22, _⟩ => ⟨S49152x512, .f32⟩
  | .hbm, ⟨23, _⟩ => ⟨S393216x1, .i32⟩
  | .hbm, ⟨24, _⟩ => ⟨S49152x512, .f32⟩
  | .hbm, ⟨25, _⟩ => ⟨S393216x1, .f32⟩
  | .hbm, ⟨26, _⟩ => ⟨S_, .i32⟩
  | .hbm, ⟨27, _⟩ => ⟨S393216, .i32⟩
  | .hbm, ⟨28, _⟩ => ⟨S393216, .i1⟩
  | .hbm, ⟨29, _⟩ => ⟨S_, .i32⟩
  | .hbm, ⟨30, _⟩ => ⟨S393216, .i32⟩
  | .hbm, ⟨31, _⟩ => ⟨S393216, .i32⟩
  | .hbm, ⟨32, _⟩ => ⟨S393216, .i32⟩
  | .hbm, ⟨33, _⟩ => ⟨S393216x1, .i32⟩
  | .hbm, ⟨34, _⟩ => ⟨S393216x512, .f32⟩
  | .hbm, ⟨35, _⟩ => ⟨S393216x512, .f32⟩
  | .hbm, ⟨36, _⟩ => ⟨S393216x512, .f32⟩
  | .hbm, ⟨37, _⟩ => ⟨S_, .f32⟩
  | .hbm, ⟨38, _⟩ => ⟨S49152x512, .f32⟩
  | .hbm, ⟨39, _⟩ => ⟨S393216x1, .i32⟩
  | .hbm, ⟨40, _⟩ => ⟨S49152x512, .f32⟩
  | .hbm, ⟨41, _⟩ => ⟨S_, .f32⟩
  | .hbm, ⟨42, _⟩ => ⟨S49152x512, .f32⟩
  | .hbm, ⟨43, _⟩ => ⟨S49152x512, .f32⟩
  | .hbm, ⟨44, _⟩ => ⟨S49152x512, .f32⟩
  | .hbm, ⟨45, _⟩ => ⟨S393216x1, .f32⟩
  | .hbm, ⟨46, _⟩ => ⟨S_, .i32⟩
  | .hbm, ⟨47, _⟩ => ⟨S393216, .i32⟩
  | .hbm, ⟨48, _⟩ => ⟨S393216, .i1⟩
  | .hbm, ⟨49, _⟩ => ⟨S_, .i32⟩
  | .hbm, ⟨50, _⟩ => ⟨S393216, .i32⟩
  | .hbm, ⟨51, _⟩ => ⟨S393216, .i32⟩
  | .hbm, ⟨52, _⟩ => ⟨S393216, .i32⟩
  | .hbm, ⟨53, _⟩ => ⟨S393216x1, .i32⟩
  | .hbm, ⟨54, _⟩ => ⟨S393216x512, .f32⟩
  | .hbm, ⟨55, _⟩ => ⟨S393216x512, .f32⟩
  | .hbm, ⟨56, _⟩ => ⟨S393216x512, .f32⟩
  | .hbm, ⟨57, _⟩ => ⟨S_, .f32⟩
  | .hbm, ⟨58, _⟩ => ⟨S49152x512, .f32⟩
  | .hbm, ⟨59, _⟩ => ⟨S393216x1, .i32⟩
  | .hbm, ⟨60, _⟩ => ⟨S49152x512, .f32⟩
  | .hbm, ⟨61, _⟩ => ⟨S_, .f32⟩
  | .hbm, ⟨62, _⟩ => ⟨S49152x512, .f32⟩
  | .hbm, ⟨63, _⟩ => ⟨S49152x512, .f32⟩
  | .hbm, ⟨64, _⟩ => ⟨S49152x512, .f32⟩
  | .hbm, ⟨65, _⟩ => ⟨S393216x1, .f32⟩
  | .hbm, ⟨66, _⟩ => ⟨S_, .i32⟩
  | .hbm, ⟨67, _⟩ => ⟨S393216, .i32⟩
  | .hbm, ⟨68, _⟩ => ⟨S393216, .i1⟩
  | .hbm, ⟨69, _⟩ => ⟨S_, .i32⟩
  | .hbm, ⟨70, _⟩ => ⟨S393216, .i32⟩
  | .hbm, ⟨71, _⟩ => ⟨S393216, .i32⟩
  | .hbm, ⟨72, _⟩ => ⟨S393216, .i32⟩
  | .hbm, ⟨73, _⟩ => ⟨S393216x1, .i32⟩
  | .hbm, ⟨74, _⟩ => ⟨S393216x512, .f32⟩
  | .hbm, ⟨75, _⟩ => ⟨S393216x512, .f32⟩
  | .hbm, ⟨76, _⟩ => ⟨S393216x512, .f32⟩
  | .hbm, ⟨77, _⟩ => ⟨S_, .f32⟩
  | .hbm, ⟨78, _⟩ => ⟨S49152x512, .f32⟩
  | .hbm, ⟨79, _⟩ => ⟨S393216x1, .i32⟩
  | .hbm, ⟨80, _⟩ => ⟨S49152x512, .f32⟩
  | .hbm, ⟨81, _⟩ => ⟨S_, .f32⟩
  | .hbm, ⟨82, _⟩ => ⟨S49152x512, .f32⟩
  | .hbm, ⟨83, _⟩ => ⟨S49152x512, .f32⟩
  | .hbm, ⟨84, _⟩ => ⟨S49152x512, .f32⟩
  | .hbm, ⟨85, _⟩ => ⟨S1x49152x512, .f32⟩
  | .hbm, ⟨86, _⟩ => ⟨S1x49152x512, .f32⟩
  | .hbm, ⟨87, _⟩ => ⟨S1x49152x512, .f32⟩
  | .hbm, ⟨88, _⟩ => ⟨S1x49152x512, .f32⟩
  | .hbm, ⟨89, _⟩ => ⟨S1x49152x512, .f32⟩
  | .hbm, ⟨90, _⟩ => ⟨S5x49152x512, .f32⟩
  | .hbm, ⟨91, _⟩ => ⟨S5x49152x16x32, .f32⟩
  | .hbm, ⟨92, _⟩ => ⟨S32x5x16x49152, .f32⟩
  | .hbm, ⟨93, _⟩ => ⟨S32x5x786432, .f32⟩
  | .hbm, ⟨94, _⟩ => ⟨S32x1x786432, .f32⟩
  | .hbm, ⟨95, _⟩ => ⟨S32x786432, .f32⟩
  | .hbm, ⟨96, _⟩ => ⟨S64x786432, .f32⟩
  | .hbm, ⟨97, _⟩ => ⟨S786432x64, .f32⟩
  | .hbm, ⟨98, _⟩ => ⟨S16x49152x64, .f32⟩
  | .hbm, ⟨99, _⟩ => ⟨S16x49152x64, .f32⟩
  | .hbm, ⟨100, _⟩ => ⟨S16x49152x64, .f32⟩
  | .hbm, ⟨101, _⟩ => ⟨S_, .f32⟩
  | .hbm, ⟨102, _⟩ => ⟨S16x49152x64, .f32⟩
  | .hbm, ⟨103, _⟩ => ⟨S16x49152x64, .f32⟩
  | _, _ => ⟨S16x49152x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_v3 : Ref sig .tc := ⟨.hbm, 11, rfl⟩
abbrev main_v4 : Ref sig .tc := ⟨.hbm, 12, rfl⟩
abbrev main_c_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_c_1 : Ref sig .tc := ⟨.hbm, 26, rfl⟩
abbrev main_v16 : Ref sig .tc := ⟨.hbm, 27, rfl⟩
abbrev main_v17 : Ref sig .tc := ⟨.hbm, 28, rfl⟩
abbrev main_c_2 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_3 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_4 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_c_5 : Ref sig .tc := ⟨.hbm, 46, rfl⟩
abbrev main_v32 : Ref sig .tc := ⟨.hbm, 47, rfl⟩
abbrev main_v33 : Ref sig .tc := ⟨.hbm, 48, rfl⟩
abbrev main_c_6 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_7 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_8 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_c_9 : Ref sig .tc := ⟨.hbm, 66, rfl⟩
abbrev main_v48 : Ref sig .tc := ⟨.hbm, 67, rfl⟩
abbrev main_v49 : Ref sig .tc := ⟨.hbm, 68, rfl⟩
abbrev main_c_10 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_cst_11 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_cst_12 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_call0_cst : Ref sig .tc := ⟨.hbm, 101, rfl⟩
abbrev main_call0_v0 : Ref sig .tc := ⟨.hbm, 102, rfl⟩
abbrev main_v79 : Ref sig .tc := ⟨.hbm, 103, rfl⟩

abbrev nD : Nat := 1
abbrev τ : Topo := Topo.v7x

variable {F : FTy → Type} [FloatOps F]

class Facts₀ : Prop where
  transposes_S16x49152x32_S49152x16x32_1_0_2 : S16x49152x32.Transposes [1, 0, 2] S49152x16x32
  shapeCasts_S49152x16x32_S49152x512 : S49152x16x32.ShapeCasts S49152x512
  bcast_S393216_S393216x1_0 : S393216.BroadcastsInDim S393216x1 (![0] : Fin 1 → Fin S393216x1.rank)
  bcast_S_S393216 : S_.BroadcastsInDim S393216 (![] : Fin 0 → Fin S393216.rank)
  bcast_S393216x1_S393216x512_0_1 : S393216x1.BroadcastsInDim S393216x512 (![0, 1] : Fin 2 → Fin S393216x512.rank)
  bcast_S_S49152x512 : S_.BroadcastsInDim S49152x512 (![] : Fin 0 → Fin S49152x512.rank)
  bcast_S49152x512_S1x49152x512_1_2 : S49152x512.BroadcastsInDim S1x49152x512 (![1, 2] : Fin 2 → Fin S1x49152x512.rank)
  concatenates_S1x49152x512_S1x49152x512_S1x49152x512_S1x49152x512_S1x49152x512_S5x49152x512_d0 : Shape.Concatenates [S1x49152x512, S1x49152x512, S1x49152x512, S1x49152x512, S1x49152x512] S5x49152x512 0
  shapeCasts_S5x49152x512_S5x49152x16x32 : S5x49152x512.ShapeCasts S5x49152x16x32
  transposes_S5x49152x16x32_S32x5x16x49152_3_0_2_1 : S5x49152x16x32.Transposes [3, 0, 2, 1] S32x5x16x49152
  shapeCasts_S32x5x16x49152_S32x5x786432 : S32x5x16x49152.ShapeCasts S32x5x786432
  shapeCasts_S32x1x786432_S32x786432 : S32x1x786432.ShapeCasts S32x786432
  transposes_S64x786432_S786432x64_1_0 : S64x786432.Transposes [1, 0] S786432x64
  shapeCasts_S786432x64_S16x49152x64 : S786432x64.ShapeCasts S16x49152x64
  bcast_S1x1x64_S16x49152x64_0_1_2 : S1x1x64.BroadcastsInDim S16x49152x64 (![0, 1, 2] : Fin 3 → Fin S16x49152x64.rank)
  bcast_S_S16x49152x64 : S_.BroadcastsInDim S16x49152x64 (![] : Fin 0 → Fin S16x49152x64.rank)
  gather_S49152x512_S393216x1_S393216x512_1_0_n_n_0_1_1512_wf : GatherDims.WF S49152x512 S393216x1 S393216x512 [1] [0] [] [0] [] 1 ![1, 512]
  scatter_S49152x512_S393216x1_S393216x512_1_0_0_1_wf : ScatterDims.WF S49152x512 S393216x1 S393216x512 [1] [0] [0] 1
  dot_S32x1x5_S32x5x786432_S32x1x786432_2_1_1_2_0_0_wf : DotDims.WF S32x1x5 S32x5x786432 S32x1x786432 [2] [1] [1] [2] [0] [0]
  dot_S64x32_S32x786432_S64x786432_1_0_0_1_n_n_wf : DotDims.WF S64x32 S32x786432 S64x786432 [1] [0] [0] [1] [] []

variable [Facts₀]

def gather_S49152x512_S393216x1_S393216x512_1_0_n_n_0_1_1512 : GatherDims S49152x512 S393216x1 S393216x512 where
  offsetDims := [1]
  collapsedSliceDims := [0]
  operandBatchingDims := []
  startIndicesBatchingDims := []
  startIndexMap := [0]
  indexVectorDim := 1
  sliceSizes := ![1, 512]
  wf := gather_S49152x512_S393216x1_S393216x512_1_0_n_n_0_1_1512_wf
def scatter_S49152x512_S393216x1_S393216x512_1_0_0_1 : ScatterDims S49152x512 S393216x1 S393216x512 where
  updateWindowDims := [1]
  insertedWindowDims := [0]
  scatterDimsToOperandDims := [0]
  indexVectorDim := 1
  wf := scatter_S49152x512_S393216x1_S393216x512_1_0_0_1_wf
def dot_S32x1x5_S32x5x786432_S32x1x786432_2_1_1_2_0_0 : DotDims S32x1x5 S32x5x786432 S32x1x786432 where
  lhsContracting := [2]
  rhsContracting := [1]
  lhsNonContracting := [1]
  rhsNonContracting := [2]
  lhsBatch := [0]
  rhsBatch := [0]
  wf := dot_S32x1x5_S32x5x786432_S32x1x786432_2_1_1_2_0_0_wf
def dot_S64x32_S32x786432_S64x786432_1_0_0_1_n_n : DotDims S64x32 S32x786432 S64x786432 where
  lhsContracting := [1]
  rhsContracting := [0]
  lhsNonContracting := [0]
  rhsNonContracting := [1]
  lhsBatch := []
  rhsBatch := []
  wf := dot_S64x32_S32x786432_S64x786432_1_0_0_1_n_n_wf

class Facts : Prop extends Facts₀ where

variable [Facts]
-- ==== Proof.Spec.lean ====
/-
  The mathematics of the certificate, with no program in sight.

  A graph convolution by Chebyshev terms.  The graph is a list of 393216 weighted edges over 49152 nodes: edge `e`
  has a value `ev e`, a row `row e` (the node it adds into, an integer that may lie outside the node range, in which
  case the edge adds nothing) and a column `col e` (the node it reads, always a node).  One application of the
  sparse operator to a signal `v` of 16 batches × 49152 nodes × 32 channels is

      (L v) n r f = ∑ over the edges e with row e = r of  ev e · v n (col e) f .

  The Chebyshev terms are T₀ = x, T₁ = L x, T_{k+1} = 2 · L T_k − T_{k−1} (five of them), and the result is

      out n r o = max ( ∑_k ∑_f T_k n r f · (pk o f · dk f k)  +  b o ) 0 .

  Two arrangements of the inner double sum appear: the one above (five products of a row of T_k with a 32×64 matrix
  whose entries are the products pk o f · dk f k, added up) and the nested one ∑_f pk o f · (∑_k dk f k · T_k n r f)
  (a depthwise contraction over k followed by a pointwise one over f).  They agree when every factor is a real number
  (distributivity, and the exchange of two finite sums); on the extended reals they need not.
-/
import Idealize.ShloMosaic.PureOps.Ideal
import Idealize.ShloMosaic.Lib.ValueIdx

noncomputable section

namespace Cert.ChebSpec

open Idealize.ShloMosaic Idealize.ShloMosaic.ValueIdx

/-! ## The arrays' shapes -/

abbrev SX : Shape := ⟨3, ![16, 49152, 32]⟩
abbrev SE : Shape := ⟨1, ![393216]⟩
abbrev SD : Shape := ⟨3, ![32, 1, 5]⟩
abbrev SP : Shape := ⟨2, ![64, 32]⟩
abbrev SB : Shape := ⟨3, ![1, 1, 64]⟩
abbrev SO : Shape := ⟨3, ![16, 49152, 64]⟩
abbrev SW : Shape := ⟨3, ![5, 32, 64]⟩
abbrev S64 : Shape := ⟨1, ![64]⟩

/-- A signal: batch, node, channel. -/
abbrev Sig3 := Fin 16 → Fin 49152 → Fin 32 → EReal

/-! ## The edge list read off the index words -/

/-- A column word after the wrap of a negative index by the node count (what indexing with a negative number means). -/
def wrapWord (w : BitVec 32) : BitVec 32 :=
  Scalar.select (IntOp.cmpi .slt w 0#32) (IntOp.addi w 49152#32) w

/-- The node a column word addresses: the word read as a signed integer and clamped into the node range. -/
def nodeOf (w : BitVec 32) : Fin 49152 := ⟨min w.toInt.toNat 49151, by omega⟩

/-- Edge `e`'s column node, from the raw column words. -/
def colOf (cols : SE.Idx → BitVec 32) (e : Fin 393216) : Fin 49152 := nodeOf (wrapWord (cols (ix1 e)))

/-- Edge `e`'s row, from the raw row words: a signed integer, not clamped. -/
def rowOf (rows : SE.Idx → BitVec 32) (e : Fin 393216) : Int := (rows (ix1 e)).toInt

/-! ## The sparse operator and the Chebyshev terms -/

/-- One application of the sparse operator. -/
def L (ev : Fin 393216 → EReal) (row : Fin 393216 → Int) (col : Fin 393216 → Fin 49152) (v : Sig3) : Sig3 :=
  fun n r f => ∑ e ∈ Finset.univ.filter (fun e : Fin 393216 => row e = (r.val : Int)), ev e * v n (col e) f

/-- The number two, as the programs write it (the same word on both sides: never evaluated). -/
def two : EReal := Ideal.ofBits .f32 0x40000000#32

/-- One step of the recursion: 2 · L a − b. -/
def step (ev : Fin 393216 → EReal) (row : Fin 393216 → Int) (col : Fin 393216 → Fin 49152) (a b : Sig3) : Sig3 :=
  fun n r f => two * L ev row col a n r f - b n r f

/-- The five Chebyshev terms of `x`. -/
def cheb (ev : Fin 393216 → EReal) (row : Fin 393216 → Int) (col : Fin 393216 → Fin 49152) (x : Sig3) : Fin 5 → Sig3 :=
  let t1 := L ev row col x
  let t2 := step ev row col t1 x
  let t3 := step ev row col t2 t1
  let t4 := step ev row col t3 t2
  ![x, t1, t2, t3, t4]

/-! ## The two arrangements of the result -/

/-- Products with the combined weights, added over the terms and the channels. -/
def G (t : Fin 5 → Sig3) (pk : Fin 64 → Fin 32 → EReal) (dk : Fin 32 → Fin 5 → EReal) (b : Fin 64 → EReal) :
    Fin 16 → Fin 49152 → Fin 64 → EReal :=
  fun n r o => max ((∑ k : Fin 5, ∑ f : Fin 32, t k n r f * (pk o f * dk f k)) + b o) 0

/-- Depthwise over the terms, then pointwise over the channels. -/
def GN (t : Fin 5 → Sig3) (pk : Fin 64 → Fin 32 → EReal) (dk : Fin 32 → Fin 5 → EReal) (b : Fin 64 → EReal) :
    Fin 16 → Fin 49152 → Fin 64 → EReal :=
  fun n r o => max ((∑ f : Fin 32, pk o f * ∑ k : Fin 5, dk f k * t k n r f) + b o) 0

/-! ## From the argument arrays -/

/-- An array of the signal's shape as a signal. -/
def sig3 (v : SX.Idx → EReal) : Sig3 := fun n r f => v (ix3 n r f)

/-- The Chebyshev terms of the argument arrays. -/
def terms (x : SX.Idx → EReal) (ev : SE.Idx → EReal) (rows cols : SE.Idx → BitVec 32) : Fin 5 → Sig3 :=
  cheb (fun e => ev (ix1 e)) (rowOf rows) (colOf cols) (sig3 x)

/-- THE RESULT both programs compute, as one function of the seven argument arrays. -/
def out (x : SX.Idx → EReal) (ev : SE.Idx → EReal) (dk : SD.Idx → EReal) (pk : SP.Idx → EReal) (b : SB.Idx → EReal)
    (rows cols : SE.Idx → BitVec 32) : SO.Idx → EReal :=
  fun i => G (terms x ev rows cols) (fun o f => pk (ix2 o f)) (fun f k => dk (ix3 f 0 k)) (fun o => b (ix3 0 0 o))
    (i 0) (i 1) (i 2)

/-- The same in the nested arrangement. -/
def outN (x : SX.Idx → EReal) (ev : SE.Idx → EReal) (dk : SD.Idx → EReal) (pk : SP.Idx → EReal) (b : SB.Idx → EReal)
    (rows cols : SE.Idx → BitVec 32) : SO.Idx → EReal :=
  fun i => GN (terms x ev rows cols) (fun o f => pk (ix2 o f)) (fun f k => dk (ix3 f 0 k)) (fun o => b (ix3 0 0 o))
    (i 0) (i 1) (i 2)

/-- What the kernel region computes from the seven arrays it is launched on: five signals, the stacked weight
    matrices [term, channel, output] and the bias row. -/
def conv (t0 t1 t2 t3 t4 : SX.Idx → EReal) (w : SW.Idx → EReal) (bias : S64.Idx → EReal) : SO.Idx → EReal :=
  fun i => max ((∑ k : Fin 5, ∑ f : Fin 32,
      (![t0, t1, t2, t3, t4] k) (ix3 (i 0) (i 1) f) * w (ix3 k f (i 2))) + bias (ix1 (i 2))) 0

/-- Every entry of an array is a real number. -/
def AllReal {s : Shape} (v : s.Idx → EReal) : Prop := ∀ i, v i ≠ ⊤ ∧ v i ≠ ⊥

end Cert.ChebSpec

end
-- ==== Proof.KFrame.lean ====
/-
  The frame of the convolution kernel's program: @main is 122 host operations and then one pipelined region over a
  16 × 6 grid.  At grid point (n, j) the region's body loads the blocks [n, 8192·j … 8192·(j+1), :] of the five
  Chebyshev terms, the whole stacked weights [5, 32, 64] and the whole bias row, and stores one whole block of the
  result; it keeps nothing between points and touches nothing else.  So the run terminates without a fault, the
  argument arrays end as they began, and the result array ends holding, block by block, what the body stores.
-/
import proofs.«112941_j24421184045264_1_alg».proof.Proof.Gen.KernelIdeal.Launch
import proofs.«112941_j24421184045264_1_alg».proof.Proof.Gen.KernelIdeal.Skeleton
import proofs.«112941_j24421184045264_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.KF

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch memory after the host operations. -/
abbrev V (c : Dev nD) (b : Ref sig .tc) : Buf (Elt F) ((c : Thread nD τ).loc b) :=
  StableHlo.after hostOps0 (fun b => m (c, b)) b

/-- No host operation allocates. -/
theorem hostOps0_fresh : (hostOps0 : List (HloOp τ sig (Elt F))).Forall fun op => op.fresh = ∅ := by
  simp only [List.Forall]; repeat' constructor

/-- @main is the host operations and then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation writes argument 0. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes,
      StableHlo.ternary_writes, StableHlo.quaternary_writes, StableHlo.reshape_writes, StableHlo.binaryIndexed_writes,
      StableHlo.nary_writes, Finset.mem_singleton]
    repeat' apply And.intro
    all_goals exact StableHlo.devRef_ne_of_ne (by decide)))
/-- No host operation writes argument 1. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes,
      StableHlo.ternary_writes, StableHlo.quaternary_writes, StableHlo.reshape_writes, StableHlo.binaryIndexed_writes,
      StableHlo.nary_writes, Finset.mem_singleton]
    repeat' apply And.intro
    all_goals exact StableHlo.devRef_ne_of_ne (by decide)))
/-- No host operation writes argument 2. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes,
      StableHlo.ternary_writes, StableHlo.quaternary_writes, StableHlo.reshape_writes, StableHlo.binaryIndexed_writes,
      StableHlo.nary_writes, Finset.mem_singleton]
    repeat' apply And.intro
    all_goals exact StableHlo.devRef_ne_of_ne (by decide)))
/-- No host operation writes argument 3. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes,
      StableHlo.ternary_writes, StableHlo.quaternary_writes, StableHlo.reshape_writes, StableHlo.binaryIndexed_writes,
      StableHlo.nary_writes, Finset.mem_singleton]
    repeat' apply And.intro
    all_goals exact StableHlo.devRef_ne_of_ne (by decide)))
/-- No host operation writes argument 4. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nullary_writes, StableHlo.unary_writes, StableHlo.binary_writes,
      StableHlo.ternary_writes, StableHlo.quaternary_writes, StableHlo.reshape_writes, StableHlo.binaryIndexed_writes,
      StableHlo.nary_writes, Finset.mem_singleton]
    repeat' apply And.intro
    all_goals exact StableHlo.devRef_ne_of_ne (by decide)))
/-- No host operation writes argument 5. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nullary_writes, StableHlo.unary_writes, StableHlo.binary_writes,
      StableHlo.ternary_writes, StableHlo.quaternary_writes, StableHlo.reshape_writes, StableHlo.binaryIndexed_writes,
      StableHlo.nary_writes, Finset.mem_singleton]
    repeat' apply And.intro
    all_goals exact StableHlo.devRef_ne_of_ne (by decide)))
/-- No host operation writes argument 6. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nullary_writes, StableHlo.unary_writes, StableHlo.binary_writes,
      StableHlo.ternary_writes, StableHlo.quaternary_writes, StableHlo.reshape_writes, StableHlo.binaryIndexed_writes,
      StableHlo.nary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from a frame run -/

theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c)⟩) h

/-! ## The body's accesses -/

abbrev r0_x : Rect S1x8192x32 := Rect.unit (s := S1x8192x32) ![0, 0, 0] S1x8192x32.size inb_S1x8192x32_S1x8192x32_0_0_0
abbrev r0_w0 : Rect S5x32x64 := Rect.unit (s := S5x32x64) ![0, 0, 0] S1x32x64.size inb_S5x32x64_S1x32x64_0_0_0
abbrev r0_w1 : Rect S5x32x64 := Rect.unit (s := S5x32x64) ![1, 0, 0] S1x32x64.size inb_S5x32x64_S1x32x64_1_0_0
abbrev r0_w2 : Rect S5x32x64 := Rect.unit (s := S5x32x64) ![2, 0, 0] S1x32x64.size inb_S5x32x64_S1x32x64_2_0_0
abbrev r0_w3 : Rect S5x32x64 := Rect.unit (s := S5x32x64) ![3, 0, 0] S1x32x64.size inb_S5x32x64_S1x32x64_3_0_0
abbrev r0_w4 : Rect S5x32x64 := Rect.unit (s := S5x32x64) ![4, 0, 0] S1x32x64.size inb_S5x32x64_S1x32x64_4_0_0
abbrev r0_b : Rect S64 := Rect.unit (s := S64) ![0] S64.size inb_S64_S64_0
abbrev r0_o : Rect S1x8192x64 := Rect.unit (s := S1x8192x64) ![0, 0, 0] S1x8192x64.size inb_S1x8192x64_S1x8192x64_0_0_0

/-! ## What the body leaves in the output window's buffer -/

/-- The value the body stores, from the blocks it loads: five row blocks, the stacked weights, the bias row. -/
def stored (x0 x1 x2 x3 x4 : Vec F S1x8192x32 .f32) (w : Vec F S5x32x64 .f32) (b : Vec F S64 .f32) : FVec F S1x8192x64 .f32 :=
  k0_pay1 (k0_pay2 (View.ld x0 r0_x) (View.ld w r0_w0) (View.ld x1 r0_x) (View.ld w r0_w1) (View.ld x2 r0_x) (View.ld w r0_w2))
    (k0_pay3 (View.ld x3 r0_x)) (k0_pay4 (View.ld w r0_w3)) (View.ld x4 r0_x) (View.ld w r0_w4) (View.ld b r0_b)

/-- Window 7's staging buffer after the body: its one store, which covers it. -/
def out0_7 (x0 x1 x2 x3 x4 : Vec F S1x8192x32 .f32) (w : Vec F S5x32x64 .f32) (b : Vec F S64 .f32) : Vec F S1x8192x64 .f32 :=
  View.canon [⟨r0_o, stored x0 x1 x2 x3 x4 w b⟩]

theorem cover0_7 (p0 : Vec F S1x8192x64 .f32) (y : S1x8192x64.Idx) :
    ∃ pc ∈ ([⟨r0_o, p0⟩] : List (View.Piece (Elt F) S1x8192x64 .f32)), y ∈ pc.1.set :=
  View.cover_of_tiled [⟨r0_o, p0⟩] S1x8192x64.size (by rfl) y

/-! ## The body's triple -/

set_option maxHeartbeats 1000000 in
theorem sound_kernel (c : Dev nD) (E : Set ℕ) (i : grid0.Coords)
    (arg2 : Memref sig .tc .vmem S1x8192x32 .f32) (harg2 : arg2.IsWhole) (arg3 : Memref sig .tc .vmem S1x8192x32 .f32) (harg3 : arg3.IsWhole)
    (arg4 : Memref sig .tc .vmem S1x8192x32 .f32) (harg4 : arg4.IsWhole) (arg5 : Memref sig .tc .vmem S1x8192x32 .f32) (harg5 : arg5.IsWhole)
    (arg6 : Memref sig .tc .vmem S1x8192x32 .f32) (harg6 : arg6.IsWhole) (arg7 : Memref sig .tc .vmem S5x32x64 .f32) (harg7 : arg7.IsWhole)
    (arg8 : Memref sig .tc .vmem S64 .f32) (harg8 : arg8.IsWhole) (arg9 : Memref sig .tc .vmem S1x8192x64 .f32) (harg9 : arg9.IsWhole)
    (x0 x1 x2 x3 x4 : Vec F S1x8192x32 .f32) (w : Vec F S5x32x64 .f32) (b : Vec F S64 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare w
        ∗ owns (c : Thread nD τ) arg8 fullShare b ∗ (∃ d, owns (c : Thread nD τ) arg9 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare w
            ∗ owns (c : Thread nD τ) arg8 fullShare b ∗ owns (c : Thread nD τ) arg9 fullShare (out0_7 x0 x1 x2 x3 x4 w b)) -∗ K ⟨⟩))
      ⊢ wp frame (wpE (defs₀ (F := F)) Variants.none c none) E
          (cc0_kernel i arg2 harg2 arg3 harg3 arg4 harg4 arg5 harg5 arg6 harg6 arg7 harg7 arg8 harg8 arg9 harg9) K := by
  simp only [cc0_kernel_eq_skeleton]; unfold cc0_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover0_7 _)

/-! ## The pipeline's proof data -/

/-- The proof data of the pipeline on core `c`: the arrays as the region finds them; after the body at point `t`
    each input's buffer at its block and the output's at what the body stores of the input blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => out0_7 (iblk m c 0 t) (iblk m c 1 t) (iblk m c 2 t) (iblk m c 3 t) (iblk m c 4 t) (iblk m c 5 t) (iblk m c 6 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t
    = out0_7 (iblk m c 0 t) (iblk m c 1 t) (iblk m c 2 t) (iblk m c 3 t) (iblk m c 4 t) (iblk m c 5 t) (iblk m c 6 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## The body obligation -/

/-- What the body is called with at point `t`: the invariant, the core's debts and each window's current buffer. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- What the body returns at point `t`. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point: the inputs' buffers hold their blocks, so the body's triple applies; the invariant and the
    core's debts pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ _ _ _ _ _ _ _ _ _ _ _ _ _ _ _ _ _ (iblk m c 0 t) (iblk m c 1 t) (iblk m c 2 t) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and every final state has every array of the pipeline at what
    the proof data says and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame claim, at any instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

end Cert.KernelIdeal.KF

end
-- ==== Proof.KFrameBits.lean ====
/-
  The frame of the convolution kernel's program: @main is 122 host operations and then one pipelined region over a
  16 × 6 grid.  At grid point (n, j) the region's body loads the blocks [n, 8192·j … 8192·(j+1), :] of the five
  Chebyshev terms, the whole stacked weights [5, 32, 64] and the whole bias row, and stores one whole block of the
  result; it keeps nothing between points and touches nothing else.  So the run terminates without a fault, the
  argument arrays end as they began, and the result array ends holding, block by block, what the body stores.
-/
import proofs.«112941_j24421184045264_1_alg».proof.Proof.Gen.Kernel.Launch
import proofs.«112941_j24421184045264_1_alg».proof.Proof.Gen.Kernel.Skeleton
import proofs.«112941_j24421184045264_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.KF

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch memory after the host operations. -/
abbrev V (c : Dev nD) (b : Ref sig .tc) : Buf (Elt F) ((c : Thread nD τ).loc b) :=
  StableHlo.after hostOps0 (fun b => m (c, b)) b

/-- No host operation allocates. -/
theorem hostOps0_fresh : (hostOps0 : List (HloOp τ sig (Elt F))).Forall fun op => op.fresh = ∅ := by
  simp only [List.Forall]; repeat' constructor

/-- @main is the host operations and then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation writes argument 0. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes,
      StableHlo.ternary_writes, StableHlo.quaternary_writes, StableHlo.reshape_writes, StableHlo.binaryIndexed_writes,
      StableHlo.nary_writes, Finset.mem_singleton]
    repeat' apply And.intro
    all_goals exact StableHlo.devRef_ne_of_ne (by decide)))
/-- No host operation writes argument 1. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes,
      StableHlo.ternary_writes, StableHlo.quaternary_writes, StableHlo.reshape_writes, StableHlo.binaryIndexed_writes,
      StableHlo.nary_writes, Finset.mem_singleton]
    repeat' apply And.intro
    all_goals exact StableHlo.devRef_ne_of_ne (by decide)))
/-- No host operation writes argument 2. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes,
      StableHlo.ternary_writes, StableHlo.quaternary_writes, StableHlo.reshape_writes, StableHlo.binaryIndexed_writes,
      StableHlo.nary_writes, Finset.mem_singleton]
    repeat' apply And.intro
    all_goals exact StableHlo.devRef_ne_of_ne (by decide)))
/-- No host operation writes argument 3. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes,
      StableHlo.ternary_writes, StableHlo.quaternary_writes, StableHlo.reshape_writes, StableHlo.binaryIndexed_writes,
      StableHlo.nary_writes, Finset.mem_singleton]
    repeat' apply And.intro
    all_goals exact StableHlo.devRef_ne_of_ne (by decide)))
/-- No host operation writes argument 4. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nullary_writes, StableHlo.unary_writes, StableHlo.binary_writes,
      StableHlo.ternary_writes, StableHlo.quaternary_writes, StableHlo.reshape_writes, StableHlo.binaryIndexed_writes,
      StableHlo.nary_writes, Finset.mem_singleton]
    repeat' apply And.intro
    all_goals exact StableHlo.devRef_ne_of_ne (by decide)))
/-- No host operation writes argument 5. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nullary_writes, StableHlo.unary_writes, StableHlo.binary_writes,
      StableHlo.ternary_writes, StableHlo.quaternary_writes, StableHlo.reshape_writes, StableHlo.binaryIndexed_writes,
      StableHlo.nary_writes, Finset.mem_singleton]
    repeat' apply And.intro
    all_goals exact StableHlo.devRef_ne_of_ne (by decide)))
/-- No host operation writes argument 6. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nullary_writes, StableHlo.unary_writes, StableHlo.binary_writes,
      StableHlo.ternary_writes, StableHlo.quaternary_writes, StableHlo.reshape_writes, StableHlo.binaryIndexed_writes,
      StableHlo.nary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from a frame run -/

theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c)⟩) h

/-! ## The body's accesses -/

abbrev r0_x : Rect S1x8192x32 := Rect.unit (s := S1x8192x32) ![0, 0, 0] S1x8192x32.size inb_S1x8192x32_S1x8192x32_0_0_0
abbrev r0_w0 : Rect S5x32x64 := Rect.unit (s := S5x32x64) ![0, 0, 0] S1x32x64.size inb_S5x32x64_S1x32x64_0_0_0
abbrev r0_w1 : Rect S5x32x64 := Rect.unit (s := S5x32x64) ![1, 0, 0] S1x32x64.size inb_S5x32x64_S1x32x64_1_0_0
abbrev r0_w2 : Rect S5x32x64 := Rect.unit (s := S5x32x64) ![2, 0, 0] S1x32x64.size inb_S5x32x64_S1x32x64_2_0_0
abbrev r0_w3 : Rect S5x32x64 := Rect.unit (s := S5x32x64) ![3, 0, 0] S1x32x64.size inb_S5x32x64_S1x32x64_3_0_0
abbrev r0_w4 : Rect S5x32x64 := Rect.unit (s := S5x32x64) ![4, 0, 0] S1x32x64.size inb_S5x32x64_S1x32x64_4_0_0
abbrev r0_b : Rect S64 := Rect.unit (s := S64) ![0] S64.size inb_S64_S64_0
abbrev r0_o : Rect S1x8192x64 := Rect.unit (s := S1x8192x64) ![0, 0, 0] S1x8192x64.size inb_S1x8192x64_S1x8192x64_0_0_0

/-! ## What the body leaves in the output window's buffer -/

/-- The value the body stores, from the blocks it loads: five row blocks, the stacked weights, the bias row. -/
def stored (x0 x1 x2 x3 x4 : Vec F S1x8192x32 .f32) (w : Vec F S5x32x64 .f32) (b : Vec F S64 .f32) : FVec F S1x8192x64 .f32 :=
  k0_pay1 (k0_pay2 (View.ld x0 r0_x) (View.ld w r0_w0) (View.ld x1 r0_x) (View.ld w r0_w1) (View.ld x2 r0_x) (View.ld w r0_w2))
    (k0_pay3 (View.ld x3 r0_x)) (k0_pay4 (View.ld w r0_w3)) (View.ld x4 r0_x) (View.ld w r0_w4) (View.ld b r0_b)

/-- Window 7's staging buffer after the body: its one store, which covers it. -/
def out0_7 (x0 x1 x2 x3 x4 : Vec F S1x8192x32 .f32) (w : Vec F S5x32x64 .f32) (b : Vec F S64 .f32) : Vec F S1x8192x64 .f32 :=
  View.canon [⟨r0_o, stored x0 x1 x2 x3 x4 w b⟩]

theorem cover0_7 (p0 : Vec F S1x8192x64 .f32) (y : S1x8192x64.Idx) :
    ∃ pc ∈ ([⟨r0_o, p0⟩] : List (View.Piece (Elt F) S1x8192x64 .f32)), y ∈ pc.1.set :=
  View.cover_of_tiled [⟨r0_o, p0⟩] S1x8192x64.size (by rfl) y

/-! ## The body's triple -/

set_option maxHeartbeats 1000000 in
theorem sound_kernel (c : Dev nD) (E : Set ℕ) (i : grid0.Coords)
    (arg2 : Memref sig .tc .vmem S1x8192x32 .f32) (harg2 : arg2.IsWhole) (arg3 : Memref sig .tc .vmem S1x8192x32 .f32) (harg3 : arg3.IsWhole)
    (arg4 : Memref sig .tc .vmem S1x8192x32 .f32) (harg4 : arg4.IsWhole) (arg5 : Memref sig .tc .vmem S1x8192x32 .f32) (harg5 : arg5.IsWhole)
    (arg6 : Memref sig .tc .vmem S1x8192x32 .f32) (harg6 : arg6.IsWhole) (arg7 : Memref sig .tc .vmem S5x32x64 .f32) (harg7 : arg7.IsWhole)
    (arg8 : Memref sig .tc .vmem S64 .f32) (harg8 : arg8.IsWhole) (arg9 : Memref sig .tc .vmem S1x8192x64 .f32) (harg9 : arg9.IsWhole)
    (x0 x1 x2 x3 x4 : Vec F S1x8192x32 .f32) (w : Vec F S5x32x64 .f32) (b : Vec F S64 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare w
        ∗ owns (c : Thread nD τ) arg8 fullShare b ∗ (∃ d, owns (c : Thread nD τ) arg9 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare w
            ∗ owns (c : Thread nD τ) arg8 fullShare b ∗ owns (c : Thread nD τ) arg9 fullShare (out0_7 x0 x1 x2 x3 x4 w b)) -∗ K ⟨⟩))
      ⊢ wp frame (wpE (defs₀ (F := F)) Variants.none c none) E
          (cc0_kernel i arg2 harg2 arg3 harg3 arg4 harg4 arg5 harg5 arg6 harg6 arg7 harg7 arg8 harg8 arg9 harg9) K := by
  simp only [cc0_kernel_eq_skeleton]; unfold cc0_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover0_7 _)

/-! ## The pipeline's proof data -/

/-- The proof data of the pipeline on core `c`: the arrays as the region finds them; after the body at point `t`
    each input's buffer at its block and the output's at what the body stores of the input blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => out0_7 (iblk m c 0 t) (iblk m c 1 t) (iblk m c 2 t) (iblk m c 3 t) (iblk m c 4 t) (iblk m c 5 t) (iblk m c 6 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t
    = out0_7 (iblk m c 0 t) (iblk m c 1 t) (iblk m c 2 t) (iblk m c 3 t) (iblk m c 4 t) (iblk m c 5 t) (iblk m c 6 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## The body obligation -/

/-- What the body is called with at point `t`: the invariant, the core's debts and each window's current buffer. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- What the body returns at point `t`. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point: the inputs' buffers hold their blocks, so the body's triple applies; the invariant and the
    core's debts pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ _ _ _ _ _ _ _ _ _ _ _ _ _ _ _ _ _ (iblk m c 0 t) (iblk m c 1 t) (iblk m c 2 t) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and every final state has every array of the pipeline at what
    the proof data says and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame claim, at any instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

end Cert.Kernel.KF

end
-- ==== Proof.GSK.lean ====
/-
  The kernel program's gather and scatter-add, read at an index.

  Its signals are laid out [batch, node, channel] and the edge axis replaces the node axis: the gather picks, for
  edge e, the node row its start word addresses (read signed, clamped into the node range) in every batch and
  channel; the scatter-add adds the update's edge row e into the node row its start word names (read signed, NOT
  clamped: an edge whose word is outside the node range adds nothing).
-/
import proofs.«112941_j24421184045264_1_alg».proof.Proof.Gen.KernelIdeal
import Idealize.ShloMosaic.PureOps.Ideal.Laws
import Idealize.ShloMosaic.Lib.ValueIdx
import Mathlib.Algebra.BigOperators.Group.Finset.Basic

noncomputable section

namespace Cert.KernelIdeal.GS

open Cert.KernelIdeal Idealize.ShloMosaic Idealize.ShloMosaic.ValueIdx

/-- The gather's dimension record, under a short name. -/
private abbrev gDims := gather_S16x49152x32_S393216x1_S16x393216x32_02_1_n_n_1_1_16132
/-- The scatter's dimension record, under a short name. -/
private abbrev sDims := scatter_S16x49152x32_S393216x1_S16x393216x32_02_1_1_1

/-- The gather at (n, e, f): the operand at batch n, channel f and the node edge e's start word addresses. -/
theorem gather_apply {α : Type} (t : S16x49152x32.Idx → α) (ci : IVec S393216x1 32) (n : Fin 16) (e : Fin 393216) (f : Fin 32) :
    Host.gather gather_S16x49152x32_S393216x1_S16x393216x32_02_1_n_n_1_1_16132 t ci (ix3 n e f)
      = t (ix3 n (⟨min (ci (ix2 e (0 : Fin 1))).toInt.toNat 49151, by omega⟩ : Fin 49152) f) := by
  unfold Host.gather
  congr 1
  funext a
  refine Fin.ext ?_
  -- The operand index, axis by axis: clamped start + batching coordinate + offset coordinate.
  match a with
  | ⟨0, _⟩ =>
    -- Axis 0 (batch) is an offset axis, the first of the operand's kept axes: no start, the result's coordinate 0.
    show gDims.start (ix3 n e f) ci 0 + gDims.batchCoord (ix3 n e f) 0 + gDims.offCoord (ix3 n e f) 0 = n.val
    rw [GatherDims.batchCoord_eq_zero _ _ _ List.not_mem_nil]
    unfold GatherDims.start
    rw [dif_neg (show (0 : Fin 3) ∉ gDims.startIndexMap by decide)]
    unfold GatherDims.offCoord
    rw [dif_pos (show (0 : Fin 3) ∈ gDims.sKept by decide), Nat.zero_add]
    rfl
  | ⟨1, _⟩ =>
    -- Axis 1 (node) is collapsed and is the start index map's one axis: the clamped start word, no offset.
    show gDims.start (ix3 n e f) ci 1 + gDims.batchCoord (ix3 n e f) 1 + gDims.offCoord (ix3 n e f) 1 = _
    rw [GatherDims.batchCoord_eq_zero _ _ _ List.not_mem_nil,
      GatherDims.offCoord_eq_zero _ _ _ (show (1 : Fin 3) ∉ gDims.sKept by decide)]
    simp only [Nat.add_zero]
    unfold GatherDims.start
    rw [dif_pos (show (1 : Fin 3) ∈ gDims.startIndexMap by decide)]
    -- The start word is read at [e, 0]: the result's one batch coordinate, and component 0 on the index vector's axis.
    have hsi : gDims.siIdx (ix3 n e f) ⟨List.idxOf (1 : Fin 3) gDims.startIndexMap,
        List.idxOf_lt_length_iff.2 (show (1 : Fin 3) ∈ gDims.startIndexMap by decide)⟩ = ix2 e (0 : Fin 1) := by
      funext b; refine Fin.ext ?_
      match b with
      | ⟨0, _⟩ => rfl
      | ⟨1, _⟩ => rfl
    rw [hsi]
    rfl
  | ⟨2, _⟩ =>
    -- Axis 2 (channel) is an offset axis, the second of the operand's kept axes: no start, the result's coordinate 2.
    show gDims.start (ix3 n e f) ci 2 + gDims.batchCoord (ix3 n e f) 2 + gDims.offCoord (ix3 n e f) 2 = f.val
    rw [GatherDims.batchCoord_eq_zero _ _ _ List.not_mem_nil]
    unfold GatherDims.start
    rw [dif_neg (show (2 : Fin 3) ∉ gDims.startIndexMap by decide)]
    unfold GatherDims.offCoord
    rw [dif_pos (show (2 : Fin 3) ∈ gDims.sKept by decide), Nat.zero_add]
    rfl

/-- For any scatter dimension numbers: update index j lands at operand index i exactly when, on every operand axis,
    the start (read signed) plus the window coordinate is i's coordinate. -/
private theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  constructor
  · intro h
    split at h
    · rename_i hh
      have h1 := Option.some.inj h
      intro a
      have ha := congrArg Fin.val (congrFun h1 a)
      have := hh a
      simp only at ha
      omega
    · exact absurd h (by simp)
  · intro h
    have hh : ∀ a, 0 ≤ d.start j idx a + d.window j a ∧ d.start j idx a + d.window j a < s.size a := by
      intro a; have := h a; have := (i a).isLt; omega
    rw [dif_pos hh]
    congr 1
    funext a; apply Fin.ext
    show (d.start j idx a + d.window j a).toNat = (i a).val
    have := h a; omega

/-! The scatter's start and window coordinate on each of the operand's three axes: the node axis (1) is the one the
    scatter indices address and is an inserted axis; the batch (0) and channel (2) axes are the window's. -/

private theorem start0 (ri : IVec S393216x1 32) (j : S16x393216x32.Idx) : sDims.start j ri 0 = 0 := by
  unfold ScatterDims.start
  rw [dif_neg (show (0 : Fin 3) ∉ sDims.scatterDimsToOperandDims by decide)]

private theorem start2 (ri : IVec S393216x1 32) (j : S16x393216x32.Idx) : sDims.start j ri 2 = 0 := by
  unfold ScatterDims.start
  rw [dif_neg (show (2 : Fin 3) ∉ sDims.scatterDimsToOperandDims by decide)]

/-- On the node axis the start is the word at [e, 0], read signed. -/
private theorem start1 (ri : IVec S393216x1 32) (n : Fin 16) (e : Fin 393216) (f : Fin 32) :
    sDims.start (ix3 n e f) ri 1 = (ri (ix2 e (0 : Fin 1))).toInt := by
  unfold ScatterDims.start
  rw [dif_pos (show (1 : Fin 3) ∈ sDims.scatterDimsToOperandDims by decide)]
  have hsi : sDims.siIdx (ix3 n e f) ⟨List.idxOf (1 : Fin 3) sDims.scatterDimsToOperandDims,
      List.idxOf_lt_length_iff.2 (show (1 : Fin 3) ∈ sDims.scatterDimsToOperandDims by decide)⟩ = ix2 e (0 : Fin 1) := by
    funext b; refine Fin.ext ?_
    match b with
    | ⟨0, _⟩ => rfl
    | ⟨1, _⟩ => rfl
  rw [hsi]

private theorem window0 (n : Fin 16) (e : Fin 393216) (f : Fin 32) : sDims.window (ix3 n e f) 0 = n.val := by
  unfold ScatterDims.window
  rw [dif_pos (show (0 : Fin 3) ∈ sDims.sKept by decide)]
  rfl

private theorem window1 (j : S16x393216x32.Idx) : sDims.window j 1 = 0 := by
  unfold ScatterDims.window
  rw [dif_neg (show (1 : Fin 3) ∉ sDims.sKept by decide)]

private theorem window2 (n : Fin 16) (e : Fin 393216) (f : Fin 32) : sDims.window (ix3 n e f) 2 = f.val := by
  unfold ScatterDims.window
  rw [dif_pos (show (2 : Fin 3) ∈ sDims.sKept by decide)]
  rfl

/-- The update entry (n', e, f') lands at (n, r, f) exactly when n' = n, f' = f and edge e's word read signed is r. -/
private theorem lands_iff (ri : IVec S393216x1 32) (n' : Fin 16) (e : Fin 393216) (f' : Fin 32) (n : Fin 16) (r : Fin 49152)
    (f : Fin 32) :
    sDims.resultIdx? (ix3 n' e f') ri = some (ix3 n r f)
      ↔ n' = n ∧ f' = f ∧ (ri (ix2 e (0 : Fin 1))).toInt = (r.val : Int) := by
  rw [resultIdx?_eq_some_iff]
  constructor
  · intro h
    have h0 := h 0
    have h1 := h 1
    have h2 := h 2
    rw [start0, window0] at h0
    rw [start1, window1] at h1
    rw [start2, window2] at h2
    have e0 : ((ix3 n r f : S16x49152x32.Idx) 0).val = n.val := rfl
    have e1 : ((ix3 n r f : S16x49152x32.Idx) 1).val = r.val := rfl
    have e2 : ((ix3 n r f : S16x49152x32.Idx) 2).val = f.val := rfl
    rw [e0] at h0; rw [e1] at h1; rw [e2] at h2
    refine ⟨Fin.ext (by omega), Fin.ext (by omega), by omega⟩
  · rintro ⟨rfl, rfl, h1⟩ a
    match a with
    | ⟨0, _⟩ =>
      show sDims.start (ix3 n' e f') ri 0 + (sDims.window (ix3 n' e f') 0 : Int) = (n'.val : Int)
      rw [start0, window0]; omega
    | ⟨1, _⟩ =>
      show sDims.start (ix3 n' e f') ri 1 + (sDims.window (ix3 n' e f') 1 : Int) = (r.val : Int)
      rw [start1, window1]; omega
    | ⟨2, _⟩ =>
      show sDims.start (ix3 n' e f') ri 2 + (sDims.window (ix3 n' e f') 2 : Int) = (f'.val : Int)
      rw [start2, window2]; omega

/-- The scatter-add at (n, r, f), on the extended reals: the operand's entry plus the sum, over the edges whose start
    word read signed is r, of the update's entry (n, e, f). -/
theorem scatterAdd_apply (z : FVec Ideal S16x49152x32 .f32) (ri : IVec S393216x1 32) (u : FVec Ideal S16x393216x32 .f32)
    (n : Fin 16) (r : Fin 49152) (f : Fin 32) :
    Host.scatterAdd (F := Ideal) scatter_S16x49152x32_S393216x1_S16x393216x32_02_1_1_1 z ri u (ix3 n r f)
      = z (ix3 n r f) + ∑ e ∈ Finset.univ.filter (fun e : Fin 393216 => (ri (ix2 e (0 : Fin 1))).toInt = (r.val : Int)), u (ix3 n e f) := by
  unfold Host.scatterAdd
  rw [Ideal.hostScatterAdd_def]
  unfold Ideal.hostScatterAdd
  refine congrArg (fun s => z (ix3 n r f) + s) ?_
  -- The update entries landing at (n, r, f) are the (n, e, f) with e's word r: re-index their sum by the edge coordinate.
  refine Finset.sum_nbij' (fun j => (j 1 : Fin 393216)) (fun e => ix3 n e f) ?_ ?_ ?_ ?_ ?_
  · intro j hj
    obtain ⟨a, b, c, rfl⟩ : ∃ a b c, j = ix3 a b c := ⟨_, _, _, eq_ix3 j⟩
    have hj' := (Finset.mem_filter.1 hj).2
    exact Finset.mem_filter.2 ⟨Finset.mem_univ _, ((lands_iff ri a b c n r f).1 hj').2.2⟩
  · intro e he
    have he' := (Finset.mem_filter.1 he).2
    exact Finset.mem_filter.2 ⟨Finset.mem_univ _, (lands_iff ri n e f n r f).2 ⟨rfl, rfl, he'⟩⟩
  · intro j hj
    obtain ⟨a, b, c, rfl⟩ : ∃ a b c, j = ix3 a b c := ⟨_, _, _, eq_ix3 j⟩
    obtain ⟨rfl, rfl, _⟩ := (lands_iff ri a b c n r f).1 (Finset.mem_filter.1 hj).2
    rfl
  · intro e he
    rfl
  · intro j hj
    obtain ⟨a, b, c, rfl⟩ : ∃ a b c, j = ix3 a b c := ⟨_, _, _, eq_ix3 j⟩
    obtain ⟨rfl, rfl, _⟩ := (lands_iff ri a b c n r f).1 (Finset.mem_filter.1 hj).2
    rfl

end Cert.KernelIdeal.GS

end
-- ==== Proof.KHost.lean ====
/-
  What the kernel region finds in the seven arrays it is launched on, as functions of the program's arguments.

  The host operations before the region build the Chebyshev terms T₁ … T₄ of the signal by four rounds of
  gather (at the wrapped, clamped column nodes), product with the edge values, scatter-add (into the row nodes) and,
  from the second round on, 2 · (…) − (the term before the last); the stacked weights w[k, f, o] = pk[o, f] · dk[f, 0, k]
  by slicing, broadcasting, multiplying, transposing and stacking; and the bias row by a reshape.
-/
import proofs.«112941_j24421184045264_1_alg».proof.Proof.KFrame
import proofs.«112941_j24421184045264_1_alg».proof.Proof.GSK
import proofs.«112941_j24421184045264_1_alg».proof.Proof.Spec
import Idealize.ShloMosaic.Lib.StableHlo.Run
import Idealize.ShloMosaic.Lib.ValueIdx
import Idealize.ShloMosaic.Lib.Pipeline.Value
import Idealize.ShloMosaic.Lib.ValueLayout

noncomputable section

namespace Cert.KernelIdeal.KH

open Cert.KernelIdeal Cert.KernelIdeal.Gen Idealize.ShloMosaic Idealize.ShloMosaic.TcCoe Idealize.ShloMosaic.ValueIdx Idealize.SL.Sem

variable (m : (ℓ : Loc nD τ sig) → Buf (Elt Ideal) ℓ)

/-- The launch memory's argument arrays on core `c`, each at its literal type. -/
abbrev a0 (c : Dev nD) : FVec Ideal S16x49152x32 .f32 := m ((c : Thread nD τ).loc main_arg0)
abbrev a1 (c : Dev nD) : FVec Ideal S393216 .f32 := m ((c : Thread nD τ).loc main_arg1)
abbrev a2 (c : Dev nD) : FVec Ideal S32x1x5 .f32 := m ((c : Thread nD τ).loc main_arg2)
abbrev a3 (c : Dev nD) : FVec Ideal S64x32 .f32 := m ((c : Thread nD τ).loc main_arg3)
abbrev a4 (c : Dev nD) : FVec Ideal S1x1x64 .f32 := m ((c : Thread nD τ).loc main_arg4)
abbrev a5 (c : Dev nD) : IVec S393216 32 := m ((c : Thread nD τ).loc main_arg5)
abbrev a6 (c : Dev nD) : IVec S393216 32 := m ((c : Thread nD τ).loc main_arg6)

/-- The Chebyshev terms of the launch memory's arguments on core `c`. -/
abbrev T (c : Dev nD) : Fin 5 → ChebSpec.Sig3 :=
  ChebSpec.terms (a0 m c) (a1 m c) (a5 m c) (a6 m c)

/-! ## The operations as small named functions -/

section Ops
variable {F : FTy → Type} [FloatOps F]

/-- The column words with a negative one wrapped by the node count, as a one-column array of start indices. -/
private def ci (x6 : IVec S393216 32) : IVec S393216x1 32 :=
  broadcastInDim S393216x1 ![0] bcast_S393216_S393216x1_0
    (select (cmpi .slt x6 (broadcastInDim S393216 ![] bcast_S_S393216 (constantI S_ 32 0#32)))
      (addi x6 (broadcastInDim S393216 ![] bcast_S_S393216 (constantI S_ 32 49152#32))) x6)

/-- The row words as a one-column array of start indices. -/
private def ri (x5 : IVec S393216 32) : IVec S393216x1 32 :=
  broadcastInDim S393216x1 ![0] bcast_S393216_S393216x1_0 x5

/-- The edge values spread over every batch and channel. -/
private def evB (x1 : FVec F S393216 .f32) : FVec F S16x393216x32 .f32 :=
  broadcastInDim S16x393216x32 ![0, 1, 2] bcast_S1x393216x1_S16x393216x32_0_1_2
    (broadcastInDim S1x393216x1 ![1, 2] bcast_S393216x1_S1x393216x1_1_2
      (broadcastInDim S393216x1 ![0] bcast_S393216_S393216x1_0 x1))

/-- The all-zero signal the scatter-add starts from. -/
private def zeros : FVec F S16x49152x32 .f32 :=
  broadcastInDim S16x49152x32 ![1, 2] bcast_S49152x32_S16x49152x32_1_2
    (broadcastInDim S49152x32 ![] bcast_S_S49152x32 (constant (F := F) S_ .f32 0x00000000#32))

/-- The all-two signal. -/
private def twos : FVec F S16x49152x32 .f32 :=
  broadcastInDim S16x49152x32 ![] bcast_S_S16x49152x32 (constant (F := F) S_ .f32 0x40000000#32)

/-- One application of the sparse operator, as the program computes it. -/
private def spmm (x1 : FVec F S393216 .f32) (x5 x6 : IVec S393216 32) (v : FVec F S16x49152x32 .f32) : FVec F S16x49152x32 .f32 :=
  Host.scatterAdd scatter_S16x49152x32_S393216x1_S16x393216x32_02_1_1_1 zeros (ri x5)
    (mulf (evB x1) (Host.gather gather_S16x49152x32_S393216x1_S16x393216x32_02_1_n_n_1_1_16132 v (ci x6)))

/-- One step of the recursion, as the program computes it. -/
private def nextT (x1 : FVec F S393216 .f32) (x5 x6 : IVec S393216 32) (a b : FVec F S16x49152x32 .f32) : FVec F S16x49152x32 .f32 :=
  subf (mulf twos (spmm x1 x5 x6 a)) b

end Ops

section Weights
variable {F : FTy → Type} [FloatOps F]

/-- Column `o` of the depthwise weights times the pointwise weights, transposed to [channel, output] with a leading unit axis:
    one of the five stacked matrices. -/
private def wpiece (x2 : FVec F S32x1x5 .f32) (x3 : FVec F S64x32 .f32) (o : Nat) (h : S32x5.Slices ![0, o] S32x1) : FVec F S1x32x64 .f32 :=
  broadcastInDim S1x32x64 ![1, 2] bcast_S32x64_S1x32x64_1_2
    (transpose S32x64 [1, 0]
      (mulf x3 (broadcastInDim S64x32 ![0, 1] bcast_S1x32_S64x32_0_1 (broadcastInDim S1x32 ![1] bcast_S32_S1x32_1
        (shapeCast S32 (extractStridedSlice S32x1 ![0, o] (shapeCast S32x5 x2 shapeCasts_S32x1x5_S32x5) h) shapeCasts_S32x1_S32))))
      transposes_S64x32_S32x64_1_0)

/-- The five matrices, in order. -/
private def wlist (x2 : FVec F S32x1x5 .f32) (x3 : FVec F S64x32 .f32) : List ((s : Shape) × (s.Idx → F .f32)) :=
  [⟨S1x32x64, wpiece x2 x3 0 slices_S32x5_S32x1_0_0⟩, ⟨S1x32x64, wpiece x2 x3 1 slices_S32x5_S32x1_0_1⟩,
    ⟨S1x32x64, wpiece x2 x3 2 slices_S32x5_S32x1_0_2⟩, ⟨S1x32x64, wpiece x2 x3 3 slices_S32x5_S32x1_0_3⟩,
    ⟨S1x32x64, wpiece x2 x3 4 slices_S32x5_S32x1_0_4⟩]

/-- The five matrices stacked along a new leading axis. -/
private def wstack (x2 : FVec F S32x1x5 .f32) (x3 : FVec F S64x32 .f32) : FVec F S5x32x64 .f32 :=
  concatenate S5x32x64 0 (wlist x2 x3) concatenates_S1x32x64_S1x32x64_S1x32x64_S1x32x64_S1x32x64_S5x32x64_d0

/-- The bias as a row. -/
private def biasRow (x4 : FVec F S1x1x64 .f32) : FVec F S64 .f32 := shapeCast S64 x4 shapeCasts_S1x1x64_S64

end Weights

/-! ## The small functions read at an index -/

section Reads

/-- The row start indices are the row words. -/
private theorem ri_apply (x5 : IVec S393216 32) (e : Fin 393216) : ri x5 (ix2 e (0 : Fin 1)) = x5 (ix1 e) := by
  unfold ri
  exact broadcastInDim_apply _ bcast_S393216_S393216x1_0 x5 (ix2 e (0 : Fin 1)) (ix1 e) (fun a => match a with
    | ⟨0, _⟩ => rfl)

/-- The column start indices are the wrapped column words. -/
private theorem ci_apply (x6 : IVec S393216 32) (e : Fin 393216) :
    ci x6 (ix2 e (0 : Fin 1)) = ChebSpec.wrapWord (x6 (ix1 e)) := by
  unfold ci
  refine (broadcastInDim_apply _ bcast_S393216_S393216x1_0 _ (ix2 e (0 : Fin 1)) (ix1 e) (fun a => match a with
    | ⟨0, _⟩ => rfl)).trans ?_
  rfl

/-- The spread edge values read the edge's value. -/
private theorem evB_apply (x1 : FVec Ideal S393216 .f32) (n : Fin 16) (e : Fin 393216) (f : Fin 32) :
    evB x1 (ix3 n e f) = x1 (ix1 e) := by
  unfold evB
  refine (broadcastInDim_apply _ bcast_S1x393216x1_S16x393216x32_0_1_2 _ (ix3 n e f) (ix3 (0 : Fin 1) e (0 : Fin 1)) (fun a => match a with
    | ⟨0, _⟩ => rfl
    | ⟨1, _⟩ => rfl
    | ⟨2, _⟩ => rfl)).trans ?_
  refine (broadcastInDim_apply _ bcast_S393216x1_S1x393216x1_1_2 _ (ix3 (0 : Fin 1) e (0 : Fin 1)) (ix2 e (0 : Fin 1)) (fun a => match a with
    | ⟨0, _⟩ => rfl
    | ⟨1, _⟩ => rfl)).trans ?_
  exact broadcastInDim_apply _ bcast_S393216_S393216x1_0 x1 (ix2 e (0 : Fin 1)) (ix1 e) (fun a => match a with
    | ⟨0, _⟩ => rfl)

/-- The all-zero signal is zero everywhere. -/
private theorem zeros_apply (i : S16x49152x32.Idx) : zeros (F := Ideal) i = 0 := by
  unfold zeros
  obtain ⟨n, r, f, rfl⟩ : ∃ n r f, i = ix3 n r f := ⟨_, _, _, eq_ix3 i⟩
  refine (broadcastInDim_apply _ bcast_S49152x32_S16x49152x32_1_2 _ (ix3 n r f) (ix2 r f) (fun a => match a with
    | ⟨0, _⟩ => rfl
    | ⟨1, _⟩ => rfl)).trans ?_
  refine (broadcastInDim_apply _ bcast_S_S49152x32 _ (ix2 r f) ix0 (fun a => a.elim0)).trans ?_
  exact Ideal.ofBits_zero_f32

/-- The all-two signal is two everywhere. -/
private theorem twos_apply (i : S16x49152x32.Idx) : twos (F := Ideal) i = ChebSpec.two := by
  unfold twos
  exact broadcastInDim_apply _ bcast_S_S16x49152x32 _ i ix0 (fun a => a.elim0)

/-- One application of the sparse operator, as the program computes it, is the operator. -/
private theorem spmm_apply (x1 : FVec Ideal S393216 .f32) (x5 x6 : IVec S393216 32) (v : FVec Ideal S16x49152x32 .f32)
    (n : Fin 16) (r : Fin 49152) (f : Fin 32) :
    spmm x1 x5 x6 v (ix3 n r f)
      = ChebSpec.L (fun e => x1 (ix1 e)) (ChebSpec.rowOf x5) (ChebSpec.colOf x6) (ChebSpec.sig3 v) n r f := by
  unfold spmm
  rw [GS.scatterAdd_apply, zeros_apply, zero_add]
  simp only [ri_apply, mulf_apply, evB_apply, GS.gather_apply, ci_apply]
  rfl

/-- As signals. -/
private theorem sig3_spmm (x1 : FVec Ideal S393216 .f32) (x5 x6 : IVec S393216 32) (v : FVec Ideal S16x49152x32 .f32) :
    ChebSpec.sig3 (spmm x1 x5 x6 v)
      = ChebSpec.L (fun e => x1 (ix1 e)) (ChebSpec.rowOf x5) (ChebSpec.colOf x6) (ChebSpec.sig3 v) := by
  funext n r f
  exact spmm_apply x1 x5 x6 v n r f

/-- One step of the recursion, as the program computes it, is the step. -/
private theorem sig3_nextT (x1 : FVec Ideal S393216 .f32) (x5 x6 : IVec S393216 32) (a b : FVec Ideal S16x49152x32 .f32) :
    ChebSpec.sig3 (nextT x1 x5 x6 a b)
      = ChebSpec.step (fun e => x1 (ix1 e)) (ChebSpec.rowOf x5) (ChebSpec.colOf x6) (ChebSpec.sig3 a) (ChebSpec.sig3 b) := by
  funext n r f
  show nextT x1 x5 x6 a b (ix3 n r f) = _
  unfold nextT
  rw [subf_apply, mulf_apply, twos_apply, spmm_apply]
  rfl

end Reads

section WeightReads

/-- One stacked matrix at (0, f, q): the pointwise weight (q, f) times the depthwise weight (f, 0, o). -/
private theorem wpiece_apply (x2 : FVec Ideal S32x1x5 .f32) (x3 : FVec Ideal S64x32 .f32) (o : Nat) (h : S32x5.Slices ![0, o] S32x1)
    (ko : Fin 5) (hko : ko.val = o) (f : Fin 32) (q : Fin 64) :
    wpiece x2 x3 o h (ix3 (0 : Fin 1) f q) = x3 (ix2 q f) * x2 (ix3 f (0 : Fin 1) ko) := by
  unfold wpiece
  refine (broadcastInDim_apply _ bcast_S32x64_S1x32x64_1_2 _ (ix3 (0 : Fin 1) f q) (ix2 f q) (fun a => match a with
    | ⟨0, _⟩ => rfl
    | ⟨1, _⟩ => rfl)).trans ?_
  rw [transpose_ix2_apply, mulf_apply]
  congr 1
  refine (broadcastInDim_apply _ bcast_S1x32_S64x32_0_1 _ (ix2 q f) (ix2 (0 : Fin 1) f) (fun a => match a with
    | ⟨0, _⟩ => rfl
    | ⟨1, _⟩ => rfl)).trans ?_
  refine (broadcastInDim_apply _ bcast_S32_S1x32_1 _ (ix2 (0 : Fin 1) f) (ix1 f) (fun a => match a with
    | ⟨0, _⟩ => rfl)).trans ?_
  refine (shapeCast_apply _ shapeCasts_S32x1_S32 (ix1 f) (ix2 f (0 : Fin 1)) (by
    rw [Shape.rowMajor_val_two, Shape.rowMajor_val_one]; show f.val * 1 + 0 = f.val; omega)).trans ?_
  refine (slice2_axis1_apply o _ h f (0 : Fin 1) ko (by rw [hko]; rfl)).trans ?_
  exact shapeCast_apply x2 shapeCasts_S32x1x5_S32x5 (ix2 f ko) (ix3 f (0 : Fin 1) ko) (by
    rw [Shape.rowMajor_val_three, Shape.rowMajor_val_two]; show (f.val * 1 + 0) * 5 + ko.val = f.val * 5 + ko.val; omega)

/-- The stacked weights at (k, f, q). -/
private theorem wstack_apply (x2 : FVec Ideal S32x1x5 .f32) (x3 : FVec Ideal S64x32 .f32) (k : Fin 5) (f : Fin 32) (q : Fin 64) :
    wstack x2 x3 (ix3 k f q) = x3 (ix2 q f) * x2 (ix3 f (0 : Fin 1) k) := by
  have piece : ∀ (kn : Nat) (hk : kn < 5) (o : Nat) (h : S32x5.Slices ![0, o] S32x1),
      (wlist x2 x3)[kn]'hk = ⟨S1x32x64, wpiece x2 x3 o h⟩ →
      k.val = kn → o = kn → wstack x2 x3 (ix3 k f q) = x3 (ix2 q f) * x2 (ix3 f (0 : Fin 1) k) := by
    intro kn hk o h hx hkn ho
    unfold wstack
    refine (concatenate_apply_piece 0 (wlist x2 x3) concatenates_S1x32x64_S1x32x64_S1x32x64_S1x32x64_S1x32x64_S5x32x64_d0 (ix3 k f q)
      kn hk S1x32x64 (wpiece x2 x3 o h) hx rfl kn ?_ (ix3 (0 : Fin 1) f q) ?_ ?_).trans ?_
    · interval_cases kn <;> rfl
    · intro b hb
      match b with
      | ⟨0, _⟩ => exact absurd rfl hb
      | ⟨1, _⟩ => rfl
      | ⟨2, _⟩ => rfl
    · show kn + 0 = k.val
      omega
    · exact wpiece_apply x2 x3 o h k (by omega) f q
  obtain ⟨kv, hkv⟩ := k
  interval_cases kv
  · exact piece 0 (by omega) 0 slices_S32x5_S32x1_0_0 rfl rfl rfl
  · exact piece 1 (by omega) 1 slices_S32x5_S32x1_0_1 rfl rfl rfl
  · exact piece 2 (by omega) 2 slices_S32x5_S32x1_0_2 rfl rfl rfl
  · exact piece 3 (by omega) 3 slices_S32x5_S32x1_0_3 rfl rfl rfl
  · exact piece 4 (by omega) 4 slices_S32x5_S32x1_0_4 rfl rfl rfl

/-- The bias row at o. -/
private theorem biasRow_apply (x4 : FVec Ideal S1x1x64 .f32) (o : Fin 64) :
    biasRow x4 (ix1 o) = x4 (ix3 (0 : Fin 1) (0 : Fin 1) o) := by
  unfold biasRow
  exact shapeCast_apply x4 shapeCasts_S1x1x64_S64 (ix1 o) (ix3 (0 : Fin 1) (0 : Fin 1) o) (by
    rw [Shape.rowMajor_val_three, Shape.rowMajor_val_one]; show (0 * 1 + 0) * 64 + o.val = o.val; omega)

end WeightReads

/-! ## The specification's terms, one by one -/

section Terms
variable (x : ChebSpec.SX.Idx → EReal) (ev : ChebSpec.SE.Idx → EReal) (rows cols : ChebSpec.SE.Idx → BitVec 32)

private theorem terms_zero : ChebSpec.terms x ev rows cols 0 = ChebSpec.sig3 x := rfl
private theorem terms_one : ChebSpec.terms x ev rows cols 1
    = ChebSpec.L (fun e => ev (ix1 e)) (ChebSpec.rowOf rows) (ChebSpec.colOf cols) (ChebSpec.sig3 x) := by
  unfold ChebSpec.terms ChebSpec.cheb
  simp only [Matrix.cons_val_one, Matrix.cons_val_zero, Matrix.head_cons]
private theorem terms_two : ChebSpec.terms x ev rows cols 2
    = ChebSpec.step (fun e => ev (ix1 e)) (ChebSpec.rowOf rows) (ChebSpec.colOf cols)
        (ChebSpec.terms x ev rows cols 1) (ChebSpec.sig3 x) := by
  unfold ChebSpec.terms ChebSpec.cheb
  simp only [Matrix.cons_val_two, Matrix.cons_val_one, Matrix.cons_val_zero, Matrix.head_cons, Matrix.tail_cons]
private theorem terms_three : ChebSpec.terms x ev rows cols 3
    = ChebSpec.step (fun e => ev (ix1 e)) (ChebSpec.rowOf rows) (ChebSpec.colOf cols)
        (ChebSpec.terms x ev rows cols 2) (ChebSpec.terms x ev rows cols 1) := by
  unfold ChebSpec.terms ChebSpec.cheb
  simp only [Matrix.cons_val_three, Matrix.cons_val_two, Matrix.cons_val_one, Matrix.cons_val_zero, Matrix.head_cons, Matrix.tail_cons]
private theorem terms_four : ChebSpec.terms x ev rows cols 4
    = ChebSpec.step (fun e => ev (ix1 e)) (ChebSpec.rowOf rows) (ChebSpec.colOf cols)
        (ChebSpec.terms x ev rows cols 3) (ChebSpec.terms x ev rows cols 2) := by
  unfold ChebSpec.terms ChebSpec.cheb
  simp only [Matrix.cons_val_four, Matrix.cons_val_three, Matrix.cons_val_two, Matrix.cons_val_one, Matrix.cons_val_zero, Matrix.head_cons, Matrix.tail_cons]

end Terms

/-! ## The host operations, stretch by stretch

The line is four rounds of the recursion (18, 22, 22 and 22 operations), the weights' stretch (37) and the bias' reshape;
what a stretch computes is read off it alone, from whatever contents it starts at, and a reference no operation of a stretch
writes keeps its contents across it. -/

section Fold

/-- Two lines run one after the other: the second from what the first leaves. -/
private theorem after_append {τ' : Topo} {sig' : RefSig} {Val : EltTy → Type} :
    ∀ (l₁ l₂ : List (HloOp τ' sig' Val)) (V : Valuation τ' sig' Val),
      StableHlo.after (l₁ ++ l₂) V = StableHlo.after l₂ (StableHlo.after l₁ V)
  | [], _, _ => rfl
  | op :: l₁, l₂, V => by
    rw [List.cons_append, StableHlo.after_cons, StableHlo.after_cons, after_append l₁ l₂]

/-- A five-operand operation's result, each operand's contents at its own reference. -/
private theorem nary5_result {τ' : Topo} {sig' : RefSig} {Val : EltTy → Type} {x a b c e y : Ref sig' .tc}
    (f : ((k : Fin 5) → ((![x, a, b, c, e] : Fin 5 → Ref sig' .tc) k).ty.Contents Val) → y.ty.Contents Val) (hxs hy)
    (F : Valuation τ' sig' Val) :
    (StableHlo.nary (τ := τ') ![x, a, b, c, e] y f hxs hy).result F (Proc.devRef .tc y)
      = f (Fin.cons (F (Proc.devRef .tc x)) (Fin.cons (F (Proc.devRef .tc a)) (Fin.cons (F (Proc.devRef .tc b))
          (Fin.cons (F (Proc.devRef .tc c)) (Fin.cons (F (Proc.devRef .tc e)) (fun i => i.elim0)))))) := by
  rw [StableHlo.nary_result]; congr 1; funext k; fin_cases k <;> rfl

/-- The same, stated so that it applies at any spelling of the result reference. -/
private theorem nary5_result' {τ' : Topo} {sig' : RefSig} {Val : EltTy → Type} {x a b c e y : Ref sig' .tc}
    (f : ((k : Fin 5) → ((![x, a, b, c, e] : Fin 5 → Ref sig' .tc) k).ty.Contents Val) → y.ty.Contents Val) (hxs hy)
    (F : Valuation τ' sig' Val) :
    (StableHlo.nary (τ := τ') ![x, a, b, c, e] y f hxs hy).result F (no_index (Proc.devRef .tc y))
      = f (Fin.cons (F (Proc.devRef .tc x)) (Fin.cons (F (Proc.devRef .tc a)) (Fin.cons (F (Proc.devRef .tc b))
          (Fin.cons (F (Proc.devRef .tc c)) (Fin.cons (F (Proc.devRef .tc e)) (fun i => i.elim0)))))) :=
  nary5_result f hxs hy F

/-- The host operations at the extended reals. -/
private abbrev ops : List (HloOp τ sig (Elt Ideal)) := hostOps0

/-- What is left of the line after the first round, the second, the third, the fourth, the weights. -/
private def t1 : List (HloOp τ sig (Elt Ideal)) := ops.drop 18
private def t2 : List (HloOp τ sig (Elt Ideal)) := t1.drop 22
private def t3 : List (HloOp τ sig (Elt Ideal)) := t2.drop 22
private def t4 : List (HloOp τ sig (Elt Ideal)) := t3.drop 22
private def t5 : List (HloOp τ sig (Elt Ideal)) := t4.drop 37
/-- The four rounds and the weights' stretch. -/
private def R1 : List (HloOp τ sig (Elt Ideal)) := ops.take 18
private def R2 : List (HloOp τ sig (Elt Ideal)) := t1.take 22
private def R3 : List (HloOp τ sig (Elt Ideal)) := t2.take 22
private def R4 : List (HloOp τ sig (Elt Ideal)) := t3.take 22
private def RW : List (HloOp τ sig (Elt Ideal)) := t4.take 37

private theorem ops_split : ops = R1 ++ (R2 ++ (R3 ++ (R4 ++ (RW ++ t5)))) := by
  unfold R1 R2 R3 R4 RW t5
  rw [List.take_append_drop]
  unfold t4
  rw [List.take_append_drop]
  unfold t3
  rw [List.take_append_drop]
  unfold t2
  rw [List.take_append_drop]
  unfold t1
  rw [List.take_append_drop]

/-! ### What each stretch computes -/

set_option maxRecDepth 16384 in
private theorem R1_v14 (X : Valuation τ sig (Elt Ideal)) :
    (StableHlo.after R1 X main_v14 : S16x49152x32.Idx → EReal)
      = spmm (F := Ideal) (X main_arg1) (X main_arg5) (X main_arg6) (X main_arg0) := by
  dsimp only [R1, ops, Gen.hostOps0, List.take]
  after_results_simp
  rfl

set_option maxRecDepth 16384 in
private theorem R2_v32 (X : Valuation τ sig (Elt Ideal)) :
    (StableHlo.after R2 X main_v32 : S16x49152x32.Idx → EReal)
      = nextT (F := Ideal) (X main_arg1) (X main_arg5) (X main_arg6) (X main_v14) (X main_arg0) := by
  dsimp only [R2, t1, ops, Gen.hostOps0, List.take, List.drop]
  after_results_simp
  rfl

set_option maxRecDepth 16384 in
private theorem R3_v50 (X : Valuation τ sig (Elt Ideal)) :
    (StableHlo.after R3 X main_v50 : S16x49152x32.Idx → EReal)
      = nextT (F := Ideal) (X main_arg1) (X main_arg5) (X main_arg6) (X main_v32) (X main_v14) := by
  dsimp only [R3, t2, t1, ops, Gen.hostOps0, List.take, List.drop]
  after_results_simp
  rfl

set_option maxRecDepth 16384 in
private theorem R4_v68 (X : Valuation τ sig (Elt Ideal)) :
    (StableHlo.after R4 X main_v68 : S16x49152x32.Idx → EReal)
      = nextT (F := Ideal) (X main_arg1) (X main_arg5) (X main_arg6) (X main_v50) (X main_v32) := by
  dsimp only [R4, t3, t2, t1, ops, Gen.hostOps0, List.take, List.drop]
  after_results_simp
  rfl

set_option maxRecDepth 16384 in
private theorem RW_v105 (X : Valuation τ sig (Elt Ideal)) :
    (StableHlo.after RW X main_v105 : S5x32x64.Idx → EReal) = wstack (F := Ideal) (X main_arg2) (X main_arg3) := by
  dsimp only [RW, t4, t3, t2, t1, ops, Gen.hostOps0, List.take, List.drop]
  simp (disch := decide) only [StableHlo.after_cons, StableHlo.after_nil, nary5_result', StableHlo.unary_result',
    StableHlo.binary_result', StableHlo.reshape_result', StableHlo.unary_result_ne', StableHlo.binary_result_ne',
    StableHlo.reshape_result_ne', StableHlo.nary_result_ne']
  rfl

set_option maxRecDepth 16384 in
private theorem t5_v106 (X : Valuation τ sig (Elt Ideal)) :
    (StableHlo.after t5 X main_v106 : S64.Idx → EReal) = biasRow (F := Ideal) (X main_arg4) := by
  dsimp only [t5, t4, t3, t2, t1, ops, Gen.hostOps0, List.drop]
  after_results_simp
  rfl

end Fold

/-! ## References carried across the stretches -/

section Carry

/-- The references each stretch writes. -/
private abbrev R1_W : List (Ref sig .tc) :=
  [
    main_v0, main_c, main_v1, main_v2, main_c_0, main_v3, main_v4, main_v5, main_v6, main_v7, main_v8, main_v9,
    main_v10, main_cst, main_v11, main_v12, main_v13, main_v14]
private abbrev R2_W : List (Ref sig .tc) :=
  [
    main_v15, main_c_1, main_v16, main_v17, main_c_2, main_v18, main_v19, main_v20, main_v21, main_v22, main_v23,
    main_v24, main_v25, main_cst_3, main_v26, main_v27, main_v28, main_v29, main_cst_4, main_v30, main_v31, main_v32]
private abbrev R3_W : List (Ref sig .tc) :=
  [
    main_v33, main_c_5, main_v34, main_v35, main_c_6, main_v36, main_v37, main_v38, main_v39, main_v40, main_v41,
    main_v42, main_v43, main_cst_7, main_v44, main_v45, main_v46, main_v47, main_cst_8, main_v48, main_v49, main_v50]
private abbrev R4_W : List (Ref sig .tc) :=
  [
    main_v51, main_c_9, main_v52, main_v53, main_c_10, main_v54, main_v55, main_v56, main_v57, main_v58, main_v59,
    main_v60, main_v61, main_cst_11, main_v62, main_v63, main_v64, main_v65, main_cst_12, main_v66, main_v67,
    main_v68]
private abbrev RW_W : List (Ref sig .tc) :=
  [
    main_v69, main_v70, main_v71, main_v72, main_v73, main_v74, main_v75, main_v76, main_v77, main_v78, main_v79,
    main_v80, main_v81, main_v82, main_v83, main_v84, main_v85, main_v86, main_v87, main_v88, main_v89, main_v90,
    main_v91, main_v92, main_v93, main_v94, main_v95, main_v96, main_v97, main_v98, main_v99, main_v100, main_v101,
    main_v102, main_v103, main_v104, main_v105]
private abbrev t5_W : List (Ref sig .tc) := [main_v106]

set_option maxRecDepth 16384 in
private theorem R1_writes : R1.Forall fun op => op.writes ⊆ (R1_W.map (Proc.devRef (τ := τ) .tc)).toFinset := by
  dsimp only [R1, ops, Gen.hostOps0, List.take]
  simp only [List.Forall, StableHlo.nullary_writes, StableHlo.unary_writes, StableHlo.binary_writes, StableHlo.ternary_writes,
    StableHlo.reshape_writes, StableHlo.nary_writes, Finset.singleton_subset_iff, List.mem_toFinset]
  repeat' apply And.intro
  all_goals exact List.mem_map_of_mem (by decide)
set_option maxRecDepth 16384 in
private theorem R2_writes : R2.Forall fun op => op.writes ⊆ (R2_W.map (Proc.devRef (τ := τ) .tc)).toFinset := by
  dsimp only [R2, t1, ops, Gen.hostOps0, List.take, List.drop]
  simp only [List.Forall, StableHlo.nullary_writes, StableHlo.unary_writes, StableHlo.binary_writes, StableHlo.ternary_writes,
    StableHlo.reshape_writes, StableHlo.nary_writes, Finset.singleton_subset_iff, List.mem_toFinset]
  repeat' apply And.intro
  all_goals exact List.mem_map_of_mem (by decide)
set_option maxRecDepth 16384 in
private theorem R3_writes : R3.Forall fun op => op.writes ⊆ (R3_W.map (Proc.devRef (τ := τ) .tc)).toFinset := by
  dsimp only [R3, t2, t1, ops, Gen.hostOps0, List.take, List.drop]
  simp only [List.Forall, StableHlo.nullary_writes, StableHlo.unary_writes, StableHlo.binary_writes, StableHlo.ternary_writes,
    StableHlo.reshape_writes, StableHlo.nary_writes, Finset.singleton_subset_iff, List.mem_toFinset]
  repeat' apply And.intro
  all_goals exact List.mem_map_of_mem (by decide)
set_option maxRecDepth 16384 in
private theorem R4_writes : R4.Forall fun op => op.writes ⊆ (R4_W.map (Proc.devRef (τ := τ) .tc)).toFinset := by
  dsimp only [R4, t3, t2, t1, ops, Gen.hostOps0, List.take, List.drop]
  simp only [List.Forall, StableHlo.nullary_writes, StableHlo.unary_writes, StableHlo.binary_writes, StableHlo.ternary_writes,
    StableHlo.reshape_writes, StableHlo.nary_writes, Finset.singleton_subset_iff, List.mem_toFinset]
  repeat' apply And.intro
  all_goals exact List.mem_map_of_mem (by decide)
set_option maxRecDepth 16384 in
private theorem RW_writes : RW.Forall fun op => op.writes ⊆ (RW_W.map (Proc.devRef (τ := τ) .tc)).toFinset := by
  dsimp only [RW, t4, t3, t2, t1, ops, Gen.hostOps0, List.take, List.drop]
  simp only [List.Forall, StableHlo.nullary_writes, StableHlo.unary_writes, StableHlo.binary_writes, StableHlo.ternary_writes,
    StableHlo.reshape_writes, StableHlo.nary_writes, Finset.singleton_subset_iff, List.mem_toFinset]
  repeat' apply And.intro
  all_goals exact List.mem_map_of_mem (by decide)
set_option maxRecDepth 16384 in
private theorem t5_writes : t5.Forall fun op => op.writes ⊆ (t5_W.map (Proc.devRef (τ := τ) .tc)).toFinset := by
  dsimp only [t5, t4, t3, t2, t1, ops, Gen.hostOps0, List.drop]
  simp only [List.Forall, StableHlo.nullary_writes, StableHlo.unary_writes, StableHlo.binary_writes, StableHlo.ternary_writes,
    StableHlo.reshape_writes, StableHlo.nary_writes, Finset.singleton_subset_iff, List.mem_toFinset]
  repeat' apply And.intro
  all_goals exact List.mem_map_of_mem (by decide)

/-- Core `c`'s launch contents, and what its buffers hold after each stretch. -/
private abbrev X0 (c : Dev nD) : Valuation τ sig (Elt Ideal) := fun b => m (c, b)
private def X1 (c : Dev nD) : Valuation τ sig (Elt Ideal) := StableHlo.after R1 (X0 m c)
private def X2 (c : Dev nD) : Valuation τ sig (Elt Ideal) := StableHlo.after R2 (X1 m c)
private def X3 (c : Dev nD) : Valuation τ sig (Elt Ideal) := StableHlo.after R3 (X2 m c)
private def X4 (c : Dev nD) : Valuation τ sig (Elt Ideal) := StableHlo.after R4 (X3 m c)
private def X5 (c : Dev nD) : Valuation τ sig (Elt Ideal) := StableHlo.after RW (X4 m c)

/-- What the region finds is what the last stretch leaves. -/
private theorem V_split (c : Dev nD) (b : Ref sig .tc) : KF.V m c b = StableHlo.after t5 (X5 m c) b := by
  show StableHlo.after ops (X0 m c) b = _
  rw [ops_split, after_append, after_append, after_append, after_append, after_append]
  rfl

private theorem X1_of (c : Dev nD) (r : Ref sig .tc) (h : r ∉ R1_W) : X1 m c r = X0 m c r := StableHlo.after_of_writes_sub R1 _ R1_writes h
private theorem X2_of (c : Dev nD) (r : Ref sig .tc) (h : r ∉ R2_W) : X2 m c r = X1 m c r := StableHlo.after_of_writes_sub R2 _ R2_writes h
private theorem X3_of (c : Dev nD) (r : Ref sig .tc) (h : r ∉ R3_W) : X3 m c r = X2 m c r := StableHlo.after_of_writes_sub R3 _ R3_writes h
private theorem X4_of (c : Dev nD) (r : Ref sig .tc) (h : r ∉ R4_W) : X4 m c r = X3 m c r := StableHlo.after_of_writes_sub R4 _ R4_writes h
private theorem X5_of (c : Dev nD) (r : Ref sig .tc) (h : r ∉ RW_W) : X5 m c r = X4 m c r := StableHlo.after_of_writes_sub RW _ RW_writes h
private theorem V_of (c : Dev nD) (r : Ref sig .tc) (h : r ∉ t5_W) : KF.V m c r = X5 m c r :=
  (V_split m c r).trans (StableHlo.after_of_writes_sub t5 _ t5_writes h)

/-- A reference no stretch so far has written still holds the launch contents. -/
private theorem X2_arg (c : Dev nD) (r : Ref sig .tc) (h1 : r ∉ R1_W) (h2 : r ∉ R2_W) : X2 m c r = X0 m c r :=
  (X2_of m c r h2).trans (X1_of m c r h1)
private theorem X3_arg (c : Dev nD) (r : Ref sig .tc) (h1 : r ∉ R1_W) (h2 : r ∉ R2_W) (h3 : r ∉ R3_W) : X3 m c r = X0 m c r :=
  (X3_of m c r h3).trans (X2_arg m c r h1 h2)
private theorem X4_arg (c : Dev nD) (r : Ref sig .tc) (h1 : r ∉ R1_W) (h2 : r ∉ R2_W) (h3 : r ∉ R3_W) (h4 : r ∉ R4_W) :
    X4 m c r = X0 m c r :=
  (X4_of m c r h4).trans (X3_arg m c r h1 h2 h3)
private theorem X5_arg (c : Dev nD) (r : Ref sig .tc) (h1 : r ∉ R1_W) (h2 : r ∉ R2_W) (h3 : r ∉ R3_W) (h4 : r ∉ R4_W) (h5 : r ∉ RW_W) :
    X5 m c r = X0 m c r :=
  (X5_of m c r h5).trans (X4_arg m c r h1 h2 h3 h4)

end Carry

/-! ## The seven arrays from the launch memory -/

section Assembly

/-- The four terms after the signal, as the program computes them from the launch memory's arguments. -/
private def P1 (c : Dev nD) : FVec Ideal S16x49152x32 .f32 := spmm (a1 m c) (a5 m c) (a6 m c) (a0 m c)
private def P2 (c : Dev nD) : FVec Ideal S16x49152x32 .f32 := nextT (a1 m c) (a5 m c) (a6 m c) (P1 m c) (a0 m c)
private def P3 (c : Dev nD) : FVec Ideal S16x49152x32 .f32 := nextT (a1 m c) (a5 m c) (a6 m c) (P2 m c) (P1 m c)
private def P4 (c : Dev nD) : FVec Ideal S16x49152x32 .f32 := nextT (a1 m c) (a5 m c) (a6 m c) (P3 m c) (P2 m c)

private theorem X1_v14 (c : Dev nD) : (X1 m c main_v14 : S16x49152x32.Idx → EReal) = P1 m c := R1_v14 (X0 m c)

private theorem X2_v32 (c : Dev nD) : (X2 m c main_v32 : S16x49152x32.Idx → EReal) = P2 m c := by
  unfold X2
  rw [R2_v32, X1_of m c main_arg1 (by decide), X1_of m c main_arg5 (by decide), X1_of m c main_arg6 (by decide), X1_of m c main_arg0 (by decide),
    X1_v14]
  rfl

private theorem X3_v50 (c : Dev nD) : (X3 m c main_v50 : S16x49152x32.Idx → EReal) = P3 m c := by
  unfold X3
  rw [R3_v50, X2_arg m c main_arg1 (by decide) (by decide), X2_arg m c main_arg5 (by decide) (by decide), X2_arg m c main_arg6 (by decide) (by decide),
    X2_v32, X2_of m c main_v14 (by decide), X1_v14]
  rfl

private theorem X4_v68 (c : Dev nD) : (X4 m c main_v68 : S16x49152x32.Idx → EReal) = P4 m c := by
  unfold X4
  rw [R4_v68, X3_arg m c main_arg1 (by decide) (by decide) (by decide), X3_arg m c main_arg5 (by decide) (by decide) (by decide),
    X3_arg m c main_arg6 (by decide) (by decide) (by decide), X3_v50, X3_of m c main_v32 (by decide), X2_v32]
  rfl

private theorem X5_v105 (c : Dev nD) : (X5 m c main_v105 : S5x32x64.Idx → EReal) = wstack (a2 m c) (a3 m c) := by
  unfold X5
  rw [RW_v105, X4_arg m c main_arg2 (by decide) (by decide) (by decide) (by decide), X4_arg m c main_arg3 (by decide) (by decide) (by decide) (by decide)]

private theorem V_v14_raw (c : Dev nD) : (KF.V m c main_v14 : S16x49152x32.Idx → EReal) = P1 m c :=
  (V_of m c main_v14 (by decide)).trans ((X5_of m c main_v14 (by decide)).trans ((X4_of m c main_v14 (by decide)).trans
    ((X3_of m c main_v14 (by decide)).trans ((X2_of m c main_v14 (by decide)).trans (X1_v14 m c)))))
private theorem V_v32_raw (c : Dev nD) : (KF.V m c main_v32 : S16x49152x32.Idx → EReal) = P2 m c :=
  (V_of m c main_v32 (by decide)).trans ((X5_of m c main_v32 (by decide)).trans ((X4_of m c main_v32 (by decide)).trans
    ((X3_of m c main_v32 (by decide)).trans (X2_v32 m c))))
private theorem V_v50_raw (c : Dev nD) : (KF.V m c main_v50 : S16x49152x32.Idx → EReal) = P3 m c :=
  (V_of m c main_v50 (by decide)).trans ((X5_of m c main_v50 (by decide)).trans ((X4_of m c main_v50 (by decide)).trans (X3_v50 m c)))
private theorem V_v68_raw (c : Dev nD) : (KF.V m c main_v68 : S16x49152x32.Idx → EReal) = P4 m c :=
  (V_of m c main_v68 (by decide)).trans ((X5_of m c main_v68 (by decide)).trans (X4_v68 m c))
private theorem V_v105_raw (c : Dev nD) : (KF.V m c main_v105 : S5x32x64.Idx → EReal) = wstack (a2 m c) (a3 m c) :=
  (V_of m c main_v105 (by decide)).trans (X5_v105 m c)
private theorem V_v106_raw (c : Dev nD) : (KF.V m c main_v106 : S64.Idx → EReal) = biasRow (a4 m c) := by
  rw [V_split, t5_v106, X5_arg m c main_arg4 (by decide) (by decide) (by decide) (by decide) (by decide)]

/-- The program's terms are the specification's. -/
private theorem sig3_P1 (c : Dev nD) : ChebSpec.sig3 (P1 m c) = T m c 1 := by
  unfold P1
  rw [sig3_spmm]
  exact (terms_one (a0 m c) (a1 m c) (a5 m c) (a6 m c)).symm
private theorem sig3_P2 (c : Dev nD) : ChebSpec.sig3 (P2 m c) = T m c 2 := by
  unfold P2
  rw [sig3_nextT, sig3_P1]
  exact (terms_two (a0 m c) (a1 m c) (a5 m c) (a6 m c)).symm
private theorem sig3_P3 (c : Dev nD) : ChebSpec.sig3 (P3 m c) = T m c 3 := by
  unfold P3
  rw [sig3_nextT, sig3_P2, sig3_P1]
  exact (terms_three (a0 m c) (a1 m c) (a5 m c) (a6 m c)).symm
private theorem sig3_P4 (c : Dev nD) : ChebSpec.sig3 (P4 m c) = T m c 4 := by
  unfold P4
  rw [sig3_nextT, sig3_P3, sig3_P2]
  exact (terms_four (a0 m c) (a1 m c) (a5 m c) (a6 m c)).symm

end Assembly

/-! ## The statements -/

theorem V_arg0 (c : Dev nD) (n : Fin 16) (r : Fin 49152) (f : Fin 32) : KF.V m c main_arg0 (ix3 n r f) = T m c 0 n r f := by
  rw [KF.V_main_arg0]
  rfl
theorem V_v14 (c : Dev nD) (n : Fin 16) (r : Fin 49152) (f : Fin 32) : KF.V m c main_v14 (ix3 n r f) = T m c 1 n r f :=
  (congrFun (V_v14_raw m c) (ix3 n r f)).trans (congrFun (congrFun (congrFun (sig3_P1 m c) n) r) f)
theorem V_v32 (c : Dev nD) (n : Fin 16) (r : Fin 49152) (f : Fin 32) : KF.V m c main_v32 (ix3 n r f) = T m c 2 n r f :=
  (congrFun (V_v32_raw m c) (ix3 n r f)).trans (congrFun (congrFun (congrFun (sig3_P2 m c) n) r) f)
theorem V_v50 (c : Dev nD) (n : Fin 16) (r : Fin 49152) (f : Fin 32) : KF.V m c main_v50 (ix3 n r f) = T m c 3 n r f :=
  (congrFun (V_v50_raw m c) (ix3 n r f)).trans (congrFun (congrFun (congrFun (sig3_P3 m c) n) r) f)
theorem V_v68 (c : Dev nD) (n : Fin 16) (r : Fin 49152) (f : Fin 32) : KF.V m c main_v68 (ix3 n r f) = T m c 4 n r f :=
  (congrFun (V_v68_raw m c) (ix3 n r f)).trans (congrFun (congrFun (congrFun (sig3_P4 m c) n) r) f)
/-- The stacked weights. -/
theorem V_v105 (c : Dev nD) (k : Fin 5) (f : Fin 32) (o : Fin 64) :
    KF.V m c main_v105 (ix3 k f o)
      = a3 m c (ix2 o f) * a2 m c (ix3 f (0 : Fin 1) k) :=
  (congrFun (V_v105_raw m c) (ix3 k f o)).trans (wstack_apply (a2 m c) (a3 m c) k f o)
/-- The bias row. -/
theorem V_v106 (c : Dev nD) (o : Fin 64) :
    KF.V m c main_v106 (ix1 o) = a4 m c (ix3 (0 : Fin 1) (0 : Fin 1) o) :=
  (congrFun (V_v106_raw m c) (ix1 o)).trans (biasRow_apply (a4 m c) o)

end Cert.KernelIdeal.KH

end
-- ==== Proof.KPayload.lean ====
/-
  What the kernel body stores, entry by entry, on the extended reals.

  The body adds up five products of a row block [8192, 32] of a Chebyshev term with a weight matrix [32, 64]
  (the changes of float format in between are the identity on the extended reals, each product starts from a zero
  accumulator), adds the bias row and takes the maximum with zero.  Entry (r, o) of the stored block is therefore
      max ( ∑_k ∑_f x_k[r, f] · w[k, f, o]  +  b[o] ) 0 .
-/
import proofs.«112941_j24421184045264_1_alg».proof.Proof.KFrame
import proofs.«112941_j24421184045264_1_alg».proof.Proof.Spec
import Idealize.ShloMosaic.PureOps.Ideal.Laws
import Idealize.ShloMosaic.Lib.ValueIdx
import Idealize.ShloMosaic.Lib.Pipeline.Value
import Idealize.ShloMosaic.Lib.ValueLayout

noncomputable section

namespace Cert.KernelIdeal.KP

open Cert.KernelIdeal Cert.KernelIdeal.Gen Idealize.ShloMosaic Idealize.ShloMosaic.ValueIdx

/-! ## The product's operand entries, axis by axis

The product contracts the left operand's axis 1 with the right operand's axis 0; there are no batch axes.  At output
entry i and contraction position q the left operand is read at (i 0, q) and the right one at (q, i 1). -/

private theorem lhs_mm_0 (i : S8192x64.Idx) (q : dot_S8192x32_S32x64_S8192x64_1_0_0_1_n_n.contr.Idx) :
    (dot_S8192x32_S32x64_S8192x64_1_0_0_1_n_n.lhsIdx i q 0).val = (i 0).val := by
  unfold DotDims.lhsIdx
  rw [dif_neg (show ¬(0 : Fin S8192x32.rank) ∈ dot_S8192x32_S32x64_S8192x64_1_0_0_1_n_n.lhsBatch by decide), dif_pos (show (0 : Fin S8192x32.rank) ∈ dot_S8192x32_S32x64_S8192x64_1_0_0_1_n_n.lhsNonContracting by decide)]
  rfl
private theorem lhs_mm_1 (i : S8192x64.Idx) (q : dot_S8192x32_S32x64_S8192x64_1_0_0_1_n_n.contr.Idx) :
    (dot_S8192x32_S32x64_S8192x64_1_0_0_1_n_n.lhsIdx i q 1).val = (q ⟨0, by decide⟩).val :=
  dot_S8192x32_S32x64_S8192x64_1_0_0_1_n_n.lhsIdx_val_of_single rfl i q
private theorem rhs_mm_0 (i : S8192x64.Idx) (q : dot_S8192x32_S32x64_S8192x64_1_0_0_1_n_n.contr.Idx) :
    (dot_S8192x32_S32x64_S8192x64_1_0_0_1_n_n.rhsIdx i q 0).val = (q ⟨0, by decide⟩).val :=
  dot_S8192x32_S32x64_S8192x64_1_0_0_1_n_n.rhsIdx_val_of_single rfl i q
private theorem rhs_mm_1 (i : S8192x64.Idx) (q : dot_S8192x32_S32x64_S8192x64_1_0_0_1_n_n.contr.Idx) :
    (dot_S8192x32_S32x64_S8192x64_1_0_0_1_n_n.rhsIdx i q 1).val = (i 1).val := by
  unfold DotDims.rhsIdx
  rw [dif_neg (show ¬(1 : Fin S32x64.rank) ∈ dot_S8192x32_S32x64_S8192x64_1_0_0_1_n_n.rhsBatch by decide), dif_pos (show (1 : Fin S32x64.rank) ∈ dot_S8192x32_S32x64_S8192x64_1_0_0_1_n_n.rhsNonContracting by decide)]
  rfl

/-- A product [8192, 32] × [32, 64] into the zero accumulator, at entry (r, o): the sum over the 32 channels of
    x[r, f] · w[f, o] (the sum over the one-axis contraction index, re-indexed by its coordinate). -/
private theorem mm_apply (x : FVec Ideal S8192x32 .bf16) (w : FVec Ideal S32x64 .bf16) (r : Fin 8192) (o : Fin 64) :
    matmul dot_S8192x32_S32x64_S8192x64_1_0_0_1_n_n none x w (constant (F := Ideal) S8192x64 .f32 0x00000000#32) (ix2 r o)
      = ∑ f : Fin 32, x (ix2 r f) * w (ix2 f o) := by
  simp only [matmul]
  rw [Ideal.matmul_constant_zero_apply, ← Equiv.sum_comp (ValueIdx.contrEquiv1 dot_S8192x32_S32x64_S8192x64_1_0_0_1_n_n 32 rfl rfl).symm]
  refine Finset.sum_congr rfl fun k _ => ?_
  have hk := ValueIdx.contrEquiv1_symm_val dot_S8192x32_S32x64_S8192x64_1_0_0_1_n_n 32 rfl rfl k
  have el : dot_S8192x32_S32x64_S8192x64_1_0_0_1_n_n.lhsIdx (ix2 r o) ((ValueIdx.contrEquiv1 dot_S8192x32_S32x64_S8192x64_1_0_0_1_n_n 32 rfl rfl).symm k) = ix2 r k := funext fun a => Fin.ext (by
    match a with
    | ⟨0, _⟩ => exact lhs_mm_0 _ _
    | ⟨1, _⟩ => exact (lhs_mm_1 _ _).trans hk)
  have er : dot_S8192x32_S32x64_S8192x64_1_0_0_1_n_n.rhsIdx (ix2 r o) ((ValueIdx.contrEquiv1 dot_S8192x32_S32x64_S8192x64_1_0_0_1_n_n 32 rfl rfl).symm k) = ix2 k o := funext fun a => Fin.ext (by
    match a with
    | ⟨0, _⟩ => exact (rhs_mm_0 _ _).trans hk
    | ⟨1, _⟩ => exact rhs_mm_1 _ _)
  rw [el, er]

/-! ## The loads -/

/-- The offsets (0, 0, 0) are zero on every axis. -/
private theorem hz3 : (![0, 0, 0] : Fin 3 → Nat) = fun _ => 0 :=
  funext fun a => match a with | ⟨0, _⟩ => rfl | ⟨1, _⟩ => rfl | ⟨2, _⟩ => rfl
/-- The offset (0) is zero on its one axis. -/
private theorem hz1 : (![0] : Fin 1 → Nat) = fun _ => 0 :=
  funext fun a => match a with | ⟨0, _⟩ => rfl

/-- A load of the slice at offsets (k, 0, 0) of extent [1, 32, 64] of the stacked weights reads, at (u, f, o), the
    weights at (k, f, o): on each axis the coordinate read is the offset plus the slice's coordinate, and the slice's
    leading coordinate is 0. -/
private theorem ld_w_apply (w : Vec Ideal S5x32x64 .f32) (off : Fin 3 → Nat) (inb : ∀ a, off a + S1x32x64.size a ≤ S5x32x64.size a)
    (k : Fin 5) (h0 : off 0 = k.val) (h1 : off 1 = 0) (h2 : off 2 = 0) (u : Fin 1) (f : Fin 32) (o : Fin 64) :
    View.ld (Val := Elt Ideal) w (Rect.unit (s := S5x32x64) off S1x32x64.size inb) (ix3 u f o) = w (ix3 k f o) := by
  show w ((Rect.unit (s := S5x32x64) off S1x32x64.size inb).idx (ix3 u f o)) = w (ix3 k f o)
  refine congrArg w (funext fun a => Fin.ext ?_)
  match a with
  | ⟨0, _⟩ => show off 0 + 1 * u.val = k.val; omega
  | ⟨1, _⟩ => show off 1 + 1 * f.val = f.val; omega
  | ⟨2, _⟩ => show off 2 + 1 * o.val = o.val; omega

/-! ## One term, and the whole entry -/

/-- One term of the stored block: the loaded row block [1, 8192, 32] read as a matrix [8192, 32], times the loaded
    slice k of the stacked weights read as a matrix [32, 64], into the zero accumulator (the changes of float format
    are the identity on the extended reals).  At (r, o) it is ∑_f x[0, r, f] · w[k, f, o]. -/
private theorem term_apply (x : Vec Ideal S1x8192x32 .f32) (w : Vec Ideal S5x32x64 .f32)
    (inbx : ∀ a, (![0, 0, 0] : Fin 3 → Nat) a + S1x8192x32.size a ≤ S1x8192x32.size a)
    (off : Fin 3 → Nat) (inb : ∀ a, off a + S1x32x64.size a ≤ S5x32x64.size a)
    (k : Fin 5) (h0 : off 0 = k.val) (h1 : off 1 = 0) (h2 : off 2 = 0)
    (sx : S1x8192x32.ShapeCasts S8192x32) (sw : S1x32x64.ShapeCasts S32x64) (bl : FTy.bits .bf16 < FTy.bits .f32)
    (r : Fin 8192) (o : Fin 64) :
    matmul dot_S8192x32_S32x64_S8192x64_1_0_0_1_n_n none
        (truncf .bf16 (shapeCast S8192x32 (View.ld (Val := Elt Ideal) x (Rect.unit (s := S1x8192x32) ![0, 0, 0] S1x8192x32.size inbx)) sx) bl)
        (truncf .bf16 (shapeCast S32x64 (View.ld (Val := Elt Ideal) w (Rect.unit (s := S5x32x64) off S1x32x64.size inb)) sw) bl)
        (constant (F := Ideal) S8192x64 .f32 0x00000000#32) (ix2 r o)
      = ∑ f : Fin 32, x (ix3 (0 : Fin 1) r f) * w (ix3 k f o) := by
  rw [mm_apply]
  refine Finset.sum_congr rfl fun f _ => ?_
  rw [truncf_apply, truncf_apply, shapeCast_1ab_ab_apply, shapeCast_1ab_ab_apply,
    View.ld_unit_zero (Val := Elt Ideal) (S := S1x8192x32) hz3, ld_w_apply w off inb k h0 h1 h2]

/-- The zero word is the number zero. -/
private theorem zero_word : (FloatOps.ofBits FTy.f32 0x00000000#32 : Ideal .f32) = 0 := Ideal.ofBits_zero_f32

/-- The output window's buffer after the body, at (0, r, o). -/
theorem out0_7_apply (x0 x1 x2 x3 x4 : FVec Ideal S1x8192x32 .f32) (w : FVec Ideal S5x32x64 .f32) (b : FVec Ideal S64 .f32)
    (r : Fin 8192) (o : Fin 64) :
    KF.out0_7 (F := Ideal) x0 x1 x2 x3 x4 w b (ix3 (0 : Fin 1) r o)
      = max ((∑ k : Fin 5, ∑ f : Fin 32, (![x0, x1, x2, x3, x4] k) (ix3 (0 : Fin 1) r f) * w (ix3 k f o)) + b (ix1 o)) 0 := by
  -- the one store covers the buffer, so the buffer holds the stored value
  unfold KF.out0_7
  rw [View.canon_unit_zero (Val := Elt Ideal) (S := S1x8192x64) hz3]
  unfold KF.stored Gen.k0_pay1 Gen.k0_pay2 Gen.k0_pay3 Gen.k0_pay4
  dsimp only
  -- the leading unit axis, then the pointwise maximum and additions, read at (r, o)
  rw [shapeCast_ab_1ab_apply]
  simp only [maximumf_apply, addf_apply, broadcast_apply]
  -- the five products
  rw [term_apply x0 w _ ![0, 0, 0] _ 0 rfl rfl rfl, term_apply x1 w _ ![1, 0, 0] _ 1 rfl rfl rfl,
    term_apply x2 w _ ![2, 0, 0] _ 2 rfl rfl rfl, term_apply x3 w _ ![3, 0, 0] _ 3 rfl rfl rfl,
    term_apply x4 w _ ![4, 0, 0] _ 4 rfl rfl rfl]
  -- the bias row [64] read as [1, 64] and copied down the 8192 rows
  rw [broadcastTo_apply _ _ (ix2 r o) (ix2 (0 : Fin 1) o) (fun a => match a with | ⟨0, _⟩ => rfl | ⟨1, _⟩ => rfl),
    shapeCast_a_1a_apply, shapeCast_self, View.ld_unit_zero (Val := Elt Ideal) (S := S64) hz1]
  -- the sum starts from zero; the five terms are the sum over k
  rw [zero_word, zero_add, Fin.sum_univ_five]
  rfl

end Cert.KernelIdeal.KP

end
-- ==== Proof.KFinal.lean ====
/-
  From the blocks to the array: the kernel program's run with its result array named.

  Grid point (n, j) writes back block [n, 8192·j … 8192·(j+1), :] of the result, which is the restriction to that
  block of ONE function of the seven arrays the region is launched on (the function `ChebSpec.conv`); the 96 blocks
  cover the array, so after the run the result array is that function.
-/
import proofs.«112941_j24421184045264_1_alg».proof.Proof.KFrame
import proofs.«112941_j24421184045264_1_alg».proof.Proof.KPayload
import proofs.«112941_j24421184045264_1_alg».proof.Proof.Spec
import Idealize.ShloMosaic.Lib.ValueIdx
import Idealize.ShloMosaic.Lib.Pipeline.Value

noncomputable section

namespace Cert.KernelIdeal.KV

open Cert.KernelIdeal Cert.KernelIdeal.Gen Idealize.ShloMosaic Idealize.ShloMosaic.TcCoe Idealize.ShloMosaic.ValueIdx Idealize.SL.Sem

variable (m : (ℓ : Loc nD τ sig) → Buf (Elt Ideal) ℓ) (ρ : Dev nD → PrngReg)

/-- The result array after the region, as one function of the arrays the region found. -/
def res (c : Dev nD) : ChebSpec.SO.Idx → EReal :=
  ChebSpec.conv (KF.V m c main_arg0) (KF.V m c main_v14) (KF.V m c main_v32) (KF.V m c main_v50) (KF.V m c main_v68)
    (KF.V m c main_v105) (KF.V m c main_v106)

/-- The index maps over the 96 grid points: the five signals' windows and the result's sit at block (t / 6, t % 6, 0);
    the weights' and the bias row's at block 0. -/
theorem idx_facts : ∀ t : Fin cfg0.N,
    (win0_0.index t (0 : Fin 3) = t.val / 6 ∧ win0_0.index t (1 : Fin 3) = t.val % 6 ∧ win0_0.index t (2 : Fin 3) = 0)
    ∧ (win0_1.index t (0 : Fin 3) = t.val / 6 ∧ win0_1.index t (1 : Fin 3) = t.val % 6 ∧ win0_1.index t (2 : Fin 3) = 0)
    ∧ (win0_2.index t (0 : Fin 3) = t.val / 6 ∧ win0_2.index t (1 : Fin 3) = t.val % 6 ∧ win0_2.index t (2 : Fin 3) = 0)
    ∧ (win0_3.index t (0 : Fin 3) = t.val / 6 ∧ win0_3.index t (1 : Fin 3) = t.val % 6 ∧ win0_3.index t (2 : Fin 3) = 0)
    ∧ (win0_4.index t (0 : Fin 3) = t.val / 6 ∧ win0_4.index t (1 : Fin 3) = t.val % 6 ∧ win0_4.index t (2 : Fin 3) = 0)
    ∧ (win0_5.index t (0 : Fin 3) = 0 ∧ win0_5.index t (1 : Fin 3) = 0 ∧ win0_5.index t (2 : Fin 3) = 0)
    ∧ win0_6.index t (0 : Fin 1) = 0
    ∧ (win0_7.index t (0 : Fin 3) = t.val / 6 ∧ win0_7.index t (1 : Fin 3) = t.val % 6 ∧ win0_7.index t (2 : Fin 3) = 0) :=
  (by decide +kernel : ∀ t : Fin grid0.N, _)

/-! ## The input blocks, read where the result's rectangle says -/

/-- Window 0's block at point `t`, read at (0, r, f): its array at (t / 6, 8192 · (t % 6) + r, f). -/
theorem iblk0_apply (c : Dev nD) (t : Fin cfg0.N) (x : S1x8192x32.Idx) (k : ChebSpec.SX.Idx)
    (hk0 : (k 0).val = t.val / 6) (hk1 : (k 1).val = 8192 * (t.val % 6) + (x 1).val) (hk2 : (k 2).val = (x 2).val) :
    (KF.iblk m c 0 t : Vec Ideal S1x8192x32 .f32) x = (KF.V m c main_arg0 : ChebSpec.SX.Idx → EReal) k := by
  obtain ⟨⟨e0, e1, e2⟩, -⟩ := idx_facts t
  have hx0 : (x 0).val < 1 := (x 0).isLt
  unfold KF.iblk
  rw [View.read_apply]
  show KF.V m c main_arg0 _ = KF.V m c main_arg0 _
  congr 1
  funext a
  apply Fin.ext
  match a with
  | ⟨0, _⟩ => show win0_0.index t (0 : Fin 3) * 1 + 1 * (x 0).val = (k 0).val; rw [e0, hk0]; omega
  | ⟨1, _⟩ => show win0_0.index t (1 : Fin 3) * 8192 + 1 * (x 1).val = (k 1).val; rw [e1, hk1]; omega
  | ⟨2, _⟩ => show win0_0.index t (2 : Fin 3) * 32 + 1 * (x 2).val = (k 2).val; rw [e2, hk2]; omega

/-- Window 1's block at point `t`, read at (0, r, f): its array at (t / 6, 8192 · (t % 6) + r, f). -/
theorem iblk1_apply (c : Dev nD) (t : Fin cfg0.N) (x : S1x8192x32.Idx) (k : ChebSpec.SX.Idx)
    (hk0 : (k 0).val = t.val / 6) (hk1 : (k 1).val = 8192 * (t.val % 6) + (x 1).val) (hk2 : (k 2).val = (x 2).val) :
    (KF.iblk m c 1 t : Vec Ideal S1x8192x32 .f32) x = (KF.V m c main_v14 : ChebSpec.SX.Idx → EReal) k := by
  obtain ⟨-, ⟨e0, e1, e2⟩, -⟩ := idx_facts t
  have hx0 : (x 0).val < 1 := (x 0).isLt
  unfold KF.iblk
  rw [View.read_apply]
  show KF.V m c main_v14 _ = KF.V m c main_v14 _
  congr 1
  funext a
  apply Fin.ext
  match a with
  | ⟨0, _⟩ => show win0_1.index t (0 : Fin 3) * 1 + 1 * (x 0).val = (k 0).val; rw [e0, hk0]; omega
  | ⟨1, _⟩ => show win0_1.index t (1 : Fin 3) * 8192 + 1 * (x 1).val = (k 1).val; rw [e1, hk1]; omega
  | ⟨2, _⟩ => show win0_1.index t (2 : Fin 3) * 32 + 1 * (x 2).val = (k 2).val; rw [e2, hk2]; omega

/-- Window 2's block at point `t`, read at (0, r, f): its array at (t / 6, 8192 · (t % 6) + r, f). -/
theorem iblk2_apply (c : Dev nD) (t : Fin cfg0.N) (x : S1x8192x32.Idx) (k : ChebSpec.SX.Idx)
    (hk0 : (k 0).val = t.val / 6) (hk1 : (k 1).val = 8192 * (t.val % 6) + (x 1).val) (hk2 : (k 2).val = (x 2).val) :
    (KF.iblk m c 2 t : Vec Ideal S1x8192x32 .f32) x = (KF.V m c main_v32 : ChebSpec.SX.Idx → EReal) k := by
  obtain ⟨-, -, ⟨e0, e1, e2⟩, -⟩ := idx_facts t
  have hx0 : (x 0).val < 1 := (x 0).isLt
  unfold KF.iblk
  rw [View.read_apply]
  show KF.V m c main_v32 _ = KF.V m c main_v32 _
  congr 1
  funext a
  apply Fin.ext
  match a with
  | ⟨0, _⟩ => show win0_2.index t (0 : Fin 3) * 1 + 1 * (x 0).val = (k 0).val; rw [e0, hk0]; omega
  | ⟨1, _⟩ => show win0_2.index t (1 : Fin 3) * 8192 + 1 * (x 1).val = (k 1).val; rw [e1, hk1]; omega
  | ⟨2, _⟩ => show win0_2.index t (2 : Fin 3) * 32 + 1 * (x 2).val = (k 2).val; rw [e2, hk2]; omega

/-- Window 3's block at point `t`, read at (0, r, f): its array at (t / 6, 8192 · (t % 6) + r, f). -/
theorem iblk3_apply (c : Dev nD) (t : Fin cfg0.N) (x : S1x8192x32.Idx) (k : ChebSpec.SX.Idx)
    (hk0 : (k 0).val = t.val / 6) (hk1 : (k 1).val = 8192 * (t.val % 6) + (x 1).val) (hk2 : (k 2).val = (x 2).val) :
    (KF.iblk m c 3 t : Vec Ideal S1x8192x32 .f32) x = (KF.V m c main_v50 : ChebSpec.SX.Idx → EReal) k := by
  obtain ⟨-, -, -, ⟨e0, e1, e2⟩, -⟩ := idx_facts t
  have hx0 : (x 0).val < 1 := (x 0).isLt
  unfold KF.iblk
  rw [View.read_apply]
  show KF.V m c main_v50 _ = KF.V m c main_v50 _
  congr 1
  funext a
  apply Fin.ext
  match a with
  | ⟨0, _⟩ => show win0_3.index t (0 : Fin 3) * 1 + 1 * (x 0).val = (k 0).val; rw [e0, hk0]; omega
  | ⟨1, _⟩ => show win0_3.index t (1 : Fin 3) * 8192 + 1 * (x 1).val = (k 1).val; rw [e1, hk1]; omega
  | ⟨2, _⟩ => show win0_3.index t (2 : Fin 3) * 32 + 1 * (x 2).val = (k 2).val; rw [e2, hk2]; omega

/-- Window 4's block at point `t`, read at (0, r, f): its array at (t / 6, 8192 · (t % 6) + r, f). -/
theorem iblk4_apply (c : Dev nD) (t : Fin cfg0.N) (x : S1x8192x32.Idx) (k : ChebSpec.SX.Idx)
    (hk0 : (k 0).val = t.val / 6) (hk1 : (k 1).val = 8192 * (t.val % 6) + (x 1).val) (hk2 : (k 2).val = (x 2).val) :
    (KF.iblk m c 4 t : Vec Ideal S1x8192x32 .f32) x = (KF.V m c main_v68 : ChebSpec.SX.Idx → EReal) k := by
  obtain ⟨-, -, -, -, ⟨e0, e1, e2⟩, -⟩ := idx_facts t
  have hx0 : (x 0).val < 1 := (x 0).isLt
  unfold KF.iblk
  rw [View.read_apply]
  show KF.V m c main_v68 _ = KF.V m c main_v68 _
  congr 1
  funext a
  apply Fin.ext
  match a with
  | ⟨0, _⟩ => show win0_4.index t (0 : Fin 3) * 1 + 1 * (x 0).val = (k 0).val; rw [e0, hk0]; omega
  | ⟨1, _⟩ => show win0_4.index t (1 : Fin 3) * 8192 + 1 * (x 1).val = (k 1).val; rw [e1, hk1]; omega
  | ⟨2, _⟩ => show win0_4.index t (2 : Fin 3) * 32 + 1 * (x 2).val = (k 2).val; rw [e2, hk2]; omega

/-- The weights' block is the whole array at every point. -/
theorem iblk5_apply (c : Dev nD) (t : Fin cfg0.N) (x : S5x32x64.Idx) :
    (KF.iblk m c 5 t : Vec Ideal S5x32x64 .f32) x = (KF.V m c main_v105 : ChebSpec.SW.Idx → EReal) x := by
  obtain ⟨-, -, -, -, -, ⟨e0, e1, e2⟩, -⟩ := idx_facts t
  unfold KF.iblk
  rw [View.read_apply]
  show KF.V m c main_v105 _ = KF.V m c main_v105 _
  congr 1
  funext a
  apply Fin.ext
  match a with
  | ⟨0, _⟩ => show win0_5.index t (0 : Fin 3) * 5 + 1 * (x 0).val = (x 0).val; rw [e0]; omega
  | ⟨1, _⟩ => show win0_5.index t (1 : Fin 3) * 32 + 1 * (x 1).val = (x 1).val; rw [e1]; omega
  | ⟨2, _⟩ => show win0_5.index t (2 : Fin 3) * 64 + 1 * (x 2).val = (x 2).val; rw [e2]; omega

/-- The bias row's block is the whole row at every point. -/
theorem iblk6_apply (c : Dev nD) (t : Fin cfg0.N) (x : S64.Idx) :
    (KF.iblk m c 6 t : Vec Ideal S64 .f32) x = (KF.V m c main_v106 : ChebSpec.S64.Idx → EReal) x := by
  obtain ⟨-, -, -, -, -, -, e0, -⟩ := idx_facts t
  unfold KF.iblk
  rw [View.read_apply]
  show KF.V m c main_v106 _ = KF.V m c main_v106 _
  congr 1
  funext a
  apply Fin.ext
  match a with
  | ⟨0, _⟩ => show win0_6.index t (0 : Fin 1) * 64 + 1 * (x 0).val = (x 0).val; rw [e0]; omega

/-! ## One stored entry -/

/-- What the body stores at (0, r, o), when row `r` of its five signal blocks is row `R` of batch `n` of five arrays and
    its weights and bias row are the arrays `W` and `B`, is the convolution of those arrays at (n, R, o). -/
theorem stored_eq_conv (x0 x1 x2 x3 x4 : FVec Ideal S1x8192x32 .f32) (w : FVec Ideal S5x32x64 .f32) (b : FVec Ideal S64 .f32)
    (T0 T1 T2 T3 T4 : ChebSpec.SX.Idx → EReal) (W : ChebSpec.SW.Idx → EReal) (B : ChebSpec.S64.Idx → EReal)
    (n : Fin 16) (R : Fin 49152) (r : Fin 8192) (o : Fin 64)
    (h0 : ∀ f : Fin 32, x0 (ix3 (0 : Fin 1) r f) = T0 (ix3 n R f))
    (h1 : ∀ f : Fin 32, x1 (ix3 (0 : Fin 1) r f) = T1 (ix3 n R f))
    (h2 : ∀ f : Fin 32, x2 (ix3 (0 : Fin 1) r f) = T2 (ix3 n R f))
    (h3 : ∀ f : Fin 32, x3 (ix3 (0 : Fin 1) r f) = T3 (ix3 n R f))
    (h4 : ∀ f : Fin 32, x4 (ix3 (0 : Fin 1) r f) = T4 (ix3 n R f))
    (hw : ∀ (k : Fin 5) (f : Fin 32), w (ix3 k f o) = W (ix3 k f o))
    (hb : b (ix1 o) = B (ix1 o)) :
    KF.out0_7 (F := Ideal) x0 x1 x2 x3 x4 w b (ix3 (0 : Fin 1) r o)
      = ChebSpec.conv T0 T1 T2 T3 T4 W B (ix3 n R o) := by
  rw [KP.out0_7_apply]
  unfold ChebSpec.conv
  show max ((∑ k : Fin 5, ∑ f : Fin 32, (![x0, x1, x2, x3, x4] k) (ix3 (0 : Fin 1) r f) * w (ix3 k f o)) + b (ix1 o)) 0
     = max ((∑ k : Fin 5, ∑ f : Fin 32, (![T0, T1, T2, T3, T4] k) (ix3 n R f) * W (ix3 k f o)) + B (ix1 o)) 0
  rw [hb]
  congr 2
  refine Finset.sum_congr rfl fun k _ => Finset.sum_congr rfl fun f _ => ?_
  rw [hw k f]
  congr 1
  match k with
  | ⟨0, _⟩ => exact h0 f
  | ⟨1, _⟩ => exact h1 f
  | ⟨2, _⟩ => exact h2 f
  | ⟨3, _⟩ => exact h3 f
  | ⟨4, _⟩ => exact h4 f

/-! ## What each point writes back -/

/-- WHAT POINT `t` WRITES BACK is block `t` of the result function of the arrays as the region finds them. -/
theorem flushed_eq (c : Dev nD) (t : Fin cfg0.N) :
    (KF.dats m 0 c).flushed 7 t = ((cfg0.win 7).blk t).view.read (Elt Ideal) (res m c) := by
  show (cfg0.win 7).cut (grid0.coords t) ((KF.dats m 0 c).after 7 t) = _
  rw [KF.after0_7]
  obtain ⟨-, -, -, -, -, -, -, e0, e1, e2⟩ := idx_facts t
  funext j
  have hj0 : (j 0).val < 1 := (j 0).isLt
  have hj1 : (j 1).val < 8192 := (j 1).isLt
  have hj2 : (j 2).val < 64 := (j 2).isLt
  have ht : t.val < 96 := N_0 ▸ t.isLt
  have hL : (cfg0.win 7).xinj (grid0.coords t) j = (ix3 (0 : Fin 1) (⟨(j 1).val, hj1⟩ : Fin 8192) (⟨(j 2).val, hj2⟩ : Fin 64) : S1x8192x64.Idx) := by
    funext a; apply Fin.ext
    match a with
    | ⟨0, _⟩ => show (j 0).val = 0; omega
    | ⟨1, _⟩ => rfl
    | ⟨2, _⟩ => rfl
  have hR : ((cfg0.win 7).blk t).view.emb j
      = (ix3 (⟨t.val / 6, by omega⟩ : Fin 16) (⟨8192 * (t.val % 6) + (j 1).val, by omega⟩ : Fin 49152) (⟨(j 2).val, hj2⟩ : Fin 64) : S16x49152x64.Idx) := by
    funext a; apply Fin.ext
    match a with
    | ⟨0, _⟩ => show win0_7.index t (0 : Fin 3) * 1 + 1 * (j 0).val = t.val / 6; rw [e0]; omega
    | ⟨1, _⟩ => show win0_7.index t (1 : Fin 3) * 8192 + 1 * (j 1).val = 8192 * (t.val % 6) + (j 1).val; rw [e1]; omega
    | ⟨2, _⟩ => show win0_7.index t (2 : Fin 3) * 64 + 1 * (j 2).val = (j 2).val; rw [e2]; omega
  show KF.out0_7 (F := Ideal) _ _ _ _ _ _ _ ((cfg0.win 7).xinj (grid0.coords t) j) = res m c (((cfg0.win 7).blk t).view.emb j)
  rw [hL, hR]
  unfold res
  exact stored_eq_conv _ _ _ _ _ _ _ _ _ _ _ _ _ _ _ _ _ _
    (fun f => iblk0_apply m c t _ _ rfl rfl rfl) (fun f => iblk1_apply m c t _ _ rfl rfl rfl)
    (fun f => iblk2_apply m c t _ _ rfl rfl rfl) (fun f => iblk3_apply m c t _ _ rfl rfl rfl)
    (fun f => iblk4_apply m c t _ _ rfl rfl rfl) (fun k f => iblk5_apply m c t _) (iblk6_apply m c t _)

/-! ## The blocks cover the array -/

/-- An index of the result array is in point `t`'s block iff each coordinate is in the block's range on its axis. -/
theorem mem_blk (t : Fin cfg0.N) (i : S16x49152x64.Idx) :
    i ∈ ((cfg0.win 7).blk t).view.set ↔ ∀ a : Fin 3, win0_7.index t a * S1x8192x64.size a ≤ (i a).val ∧ (i a).val < win0_7.index t a * S1x8192x64.size a + S1x8192x64.size a := by
  show i ∈ ((View.whole main_v107).slice (win0_7.rect t)).set ↔ _
  rw [View.set_slice_whole, Rect.mem_set_unit]
  exact Iff.rfl

/-- Row `r` of batch `n` is in the block of point 6 · n + r / 8192. -/
theorem cover (i : S16x49152x64.Idx) : ∃ t : Fin cfg0.N, (cfg0.win 7).flush t = true ∧ i ∈ ((cfg0.win 7).blk t).view.set := by
  have hi0 : (i 0).val < 16 := (i 0).isLt
  have hi1 : (i 1).val < 49152 := (i 1).isLt
  have hi2 : (i 2).val < 64 := (i 2).isLt
  have hN : 6 * (i 0).val + (i 1).val / 8192 < cfg0.N := by rw [show cfg0.N = 96 from N_0]; omega
  refine ⟨⟨6 * (i 0).val + (i 1).val / 8192, hN⟩, flush0_7 _, ?_⟩
  obtain ⟨-, -, -, -, -, -, -, e0, e1, e2⟩ := idx_facts ⟨6 * (i 0).val + (i 1).val / 8192, hN⟩
  rw [mem_blk]
  intro a
  match a with
  | ⟨0, _⟩ =>
    show win0_7.index _ (0 : Fin 3) * 1 ≤ (i 0).val ∧ (i 0).val < win0_7.index _ (0 : Fin 3) * 1 + 1
    rw [e0]; show (6 * (i 0).val + (i 1).val / 8192) / 6 * 1 ≤ (i 0).val ∧ (i 0).val < (6 * (i 0).val + (i 1).val / 8192) / 6 * 1 + 1; omega
  | ⟨1, _⟩ =>
    show win0_7.index _ (1 : Fin 3) * 8192 ≤ (i 1).val ∧ (i 1).val < win0_7.index _ (1 : Fin 3) * 8192 + 8192
    rw [e1]; show (6 * (i 0).val + (i 1).val / 8192) % 6 * 8192 ≤ (i 1).val ∧ (i 1).val < (6 * (i 0).val + (i 1).val / 8192) % 6 * 8192 + 8192; omega
  | ⟨2, _⟩ =>
    show win0_7.index _ (2 : Fin 3) * 64 ≤ (i 2).val ∧ (i 2).val < win0_7.index _ (2 : Fin 3) * 64 + 64
    rw [e2]; omega

/-! ## The array after the run -/

/-- THE RESULT ARRAY after the run is the result function of the arrays the region found. -/
theorem final (c : Dev nD) : (KF.dats m 0 c).arrAt 7 cfg0.N = res m c :=
  (KF.dats m 0 c).arrAt_eq_of_cover 7 (res m c) (fun t _ => flushed_eq m c t) cover

/-- The kernel program's run, the result array named and the arguments unchanged. -/
theorem run : θ_run (defs (F := Ideal)) (onTc (τ := τ) (main (F := Ideal))) ⟨m, fun _ => 0, ρ⟩ (fun r => ∀ c : Dev nD,
      r.2.mem ((c.tc : Thread nD τ).loc main_v107) = res m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨((h c).1 7).trans (final m c),
      ((h c).1 0).trans (((KF.dats m 0 c).arrAt_in 0 rfl _).trans ((KF.A_eq m c 0).trans (KF.V_main_arg0 m c))),
      ((h c).2 main_arg1 (Pipeline.mem_restRefs_of main_arg1 (by decide) (by decide))).trans (KF.V_main_arg1 m c),
      ((h c).2 main_arg2 (Pipeline.mem_restRefs_of main_arg2 (by decide) (by decide))).trans (KF.V_main_arg2 m c),
      ((h c).2 main_arg3 (Pipeline.mem_restRefs_of main_arg3 (by decide) (by decide))).trans (KF.V_main_arg3 m c),
      ((h c).2 main_arg4 (Pipeline.mem_restRefs_of main_arg4 (by decide) (by decide))).trans (KF.V_main_arg4 m c),
      ((h c).2 main_arg5 (Pipeline.mem_restRefs_of main_arg5 (by decide) (by decide))).trans (KF.V_main_arg5 m c),
      ((h c).2 main_arg6 (Pipeline.mem_restRefs_of main_arg6 (by decide) (by decide))).trans (KF.V_main_arg6 m c)⟩)
    (KF.run_main m ρ)

end Cert.KernelIdeal.KV

end
-- ==== Proof.GSR.lean ====
/-
  The reference program's gather and scatter-add, read at an index.

  Its signals are laid out [node, batch·channel] and the edge axis replaces the node axis: the gather picks, for
  edge e, the whole node row its start word addresses (read signed, clamped into the node range); the scatter-add
  adds the update's edge row e into the node row its start word names (read signed, NOT clamped: an edge whose word
  is outside the node range adds nothing).
-/
import proofs.«112941_j24421184045264_1_alg».proof.Proof.Gen.ReferenceIdeal
import Idealize.ShloMosaic.PureOps.Ideal.Laws
import Idealize.ShloMosaic.Lib.ValueIdx

noncomputable section

namespace Cert.ReferenceIdeal.GS

open Cert.ReferenceIdeal Idealize.ShloMosaic Idealize.ShloMosaic.ValueIdx

/-- The gather at (e, q): the operand at column q of the node row edge e's start word addresses. -/
theorem gather_apply {α : Type} (t : S49152x512.Idx → α) (ci : IVec S393216x1 32) (e : Fin 393216) (q : Fin 512) :
    Host.gather gather_S49152x512_S393216x1_S393216x512_1_0_n_n_0_1_1512 t ci (ix2 e q)
      = t (ix2 (⟨min (ci (ix2 e (0 : Fin 1))).toInt.toNat 49151, by omega⟩ : Fin 49152) q) := by
  unfold Host.gather
  congr 1
  funext a
  refine Fin.ext ?_
  match a with
  | ⟨0, _⟩ =>
    show gather_S49152x512_S393216x1_S393216x512_1_0_n_n_0_1_1512.start (ix2 e q) ci 0
        + gather_S49152x512_S393216x1_S393216x512_1_0_n_n_0_1_1512.batchCoord (ix2 e q) 0
        + gather_S49152x512_S393216x1_S393216x512_1_0_n_n_0_1_1512.offCoord (ix2 e q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S49152x512_S393216x1_S393216x512_1_0_n_n_0_1_1512.startIndexMap from
      List.mem_singleton.mpr rfl)]
    have hsi : gather_S49152x512_S393216x1_S393216x512_1_0_n_n_0_1_1512.siIdx (ix2 e q)
        ⟨List.idxOf (0 : Fin 2) gather_S49152x512_S393216x1_S393216x512_1_0_n_n_0_1_1512.startIndexMap,
          List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show gather_S49152x512_S393216x1_S393216x512_1_0_n_n_0_1_1512.start (ix2 e q) ci 1
        + gather_S49152x512_S393216x1_S393216x512_1_0_n_n_0_1_1512.batchCoord (ix2 e q) 1
        + gather_S49152x512_S393216x1_S393216x512_1_0_n_n_0_1_1512.offCoord (ix2 e q) 1 = _
    rw [GatherDims.batchCoord_eq_zero _ _ _ List.not_mem_nil]
    unfold GatherDims.start
    rw [dif_neg (show (1 : Fin 2) ∉ gather_S49152x512_S393216x1_S393216x512_1_0_n_n_0_1_1512.startIndexMap from by
      show (1 : Fin 2) ∉ [0]; decide)]
    unfold GatherDims.offCoord
    rw [dif_pos (show (1 : Fin 2) ∈ gather_S49152x512_S393216x1_S393216x512_1_0_n_n_0_1_1512.sKept from by
      rw [GatherDims.mem_sKept]; exact ⟨by show (1 : Fin 2) ∉ [0]; decide, List.not_mem_nil⟩)]
    simp only [Nat.zero_add, Nat.add_zero]
    rfl

/-- On the scattered axis the window's start for update (e, c) is edge e's start word, read signed. -/
private theorem start0 (ri : IVec S393216x1 32) (e : Fin 393216) (c : Fin 512) :
    scatter_S49152x512_S393216x1_S393216x512_1_0_0_1.start (ix2 e c) ri (0 : Fin 2) = (ri (ix2 e (0 : Fin 1))).toInt := by
  unfold ScatterDims.start
  rw [dif_pos (show (0 : Fin 2) ∈ scatter_S49152x512_S393216x1_S393216x512_1_0_0_1.scatterDimsToOperandDims from List.mem_singleton.mpr rfl)]
  have hsi : scatter_S49152x512_S393216x1_S393216x512_1_0_0_1.siIdx (ix2 e c)
      ⟨List.idxOf (0 : Fin 2) scatter_S49152x512_S393216x1_S393216x512_1_0_0_1.scatterDimsToOperandDims, List.idxOf_lt_length_iff.2 (List.mem_singleton.mpr rfl)⟩
        = ix2 e (0 : Fin 1) := by
    funext b; refine Fin.ext ?_
    match b with
    | ⟨0, _⟩ => rfl
    | ⟨1, _⟩ => rfl
  rw [hsi]

/-- Off the scattered axis the window starts at 0. -/
private theorem start1 (ri : IVec S393216x1 32) (e : Fin 393216) (c : Fin 512) :
    scatter_S49152x512_S393216x1_S393216x512_1_0_0_1.start (ix2 e c) ri (1 : Fin 2) = 0 := by
  unfold ScatterDims.start
  rw [dif_neg (show (1 : Fin 2) ∉ scatter_S49152x512_S393216x1_S393216x512_1_0_0_1.scatterDimsToOperandDims from by show (1 : Fin 2) ∉ [0]; decide)]

/-- The scattered axis is inserted: its window coordinate is 0. -/
private theorem window0 (e : Fin 393216) (c : Fin 512) : scatter_S49152x512_S393216x1_S393216x512_1_0_0_1.window (ix2 e c) (0 : Fin 2) = 0 := by
  unfold ScatterDims.window
  rw [dif_neg (show (0 : Fin 2) ∉ scatter_S49152x512_S393216x1_S393216x512_1_0_0_1.sKept from by decide)]

/-- The column axis is the one window axis: its window coordinate is the update's column. -/
private theorem window1 (e : Fin 393216) (c : Fin 512) : scatter_S49152x512_S393216x1_S393216x512_1_0_0_1.window (ix2 e c) (1 : Fin 2) = c.val := by
  unfold ScatterDims.window
  rw [dif_pos (show (1 : Fin 2) ∈ scatter_S49152x512_S393216x1_S393216x512_1_0_0_1.sKept from by decide)]
  rfl

/-- Update (e, c) lands on operand entry (r, q) exactly when the columns agree and edge e's start word, read signed,
    is r: the start is not clamped, so a word outside the node range lands nowhere. -/
private theorem resultIdx?_eq_some_iff (ri : IVec S393216x1 32) (e : Fin 393216) (c q : Fin 512) (r : Fin 49152) :
    scatter_S49152x512_S393216x1_S393216x512_1_0_0_1.resultIdx? (ix2 e c) ri = some (ix2 r q) ↔ c = q ∧ (ri (ix2 e (0 : Fin 1))).toInt = (r.val : Int) := by
  have h0 := start0 ri e c
  have h1 := start1 ri e c
  have w0 := window0 e c
  have w1 := window1 e c
  have hr := r.isLt
  have hc := c.isLt
  have hq := q.isLt
  unfold ScatterDims.resultIdx?
  split
  · rename_i h
    rw [Option.some.injEq]
    constructor
    · intro hf
      have e0 : (scatter_S49152x512_S393216x1_S393216x512_1_0_0_1.start (ix2 e c) ri (0 : Fin 2) + (scatter_S49152x512_S393216x1_S393216x512_1_0_0_1.window (ix2 e c) (0 : Fin 2) : Int)).toNat = r.val :=
        congrArg Fin.val (congrFun hf (0 : Fin 2))
      have e1 : (scatter_S49152x512_S393216x1_S393216x512_1_0_0_1.start (ix2 e c) ri (1 : Fin 2) + (scatter_S49152x512_S393216x1_S393216x512_1_0_0_1.window (ix2 e c) (1 : Fin 2) : Int)).toNat = q.val :=
        congrArg Fin.val (congrFun hf (1 : Fin 2))
      have hh : 0 ≤ scatter_S49152x512_S393216x1_S393216x512_1_0_0_1.start (ix2 e c) ri (0 : Fin 2) + (scatter_S49152x512_S393216x1_S393216x512_1_0_0_1.window (ix2 e c) (0 : Fin 2) : Int) := (h 0).1
      rw [h0, w0] at e0 hh
      rw [h1, w1] at e1
      exact ⟨Fin.ext (by omega), by omega⟩
    · rintro ⟨rfl, hw⟩
      funext a; refine Fin.ext ?_
      match a with
      | ⟨0, _⟩ =>
        show (scatter_S49152x512_S393216x1_S393216x512_1_0_0_1.start (ix2 e c) ri (0 : Fin 2) + (scatter_S49152x512_S393216x1_S393216x512_1_0_0_1.window (ix2 e c) (0 : Fin 2) : Int)).toNat = r.val
        rw [h0, w0]; omega
      | ⟨1, _⟩ =>
        show (scatter_S49152x512_S393216x1_S393216x512_1_0_0_1.start (ix2 e c) ri (1 : Fin 2) + (scatter_S49152x512_S393216x1_S393216x512_1_0_0_1.window (ix2 e c) (1 : Fin 2) : Int)).toNat = c.val
        rw [h1, w1]; omega
  · rename_i h
    constructor
    · intro hn; exact absurd hn (by simp)
    · rintro ⟨rfl, hw⟩
      exfalso; apply h
      intro a
      match a with
      | ⟨0, _⟩ =>
        show 0 ≤ scatter_S49152x512_S393216x1_S393216x512_1_0_0_1.start (ix2 e c) ri (0 : Fin 2) + (scatter_S49152x512_S393216x1_S393216x512_1_0_0_1.window (ix2 e c) (0 : Fin 2) : Int)
          ∧ scatter_S49152x512_S393216x1_S393216x512_1_0_0_1.start (ix2 e c) ri (0 : Fin 2) + (scatter_S49152x512_S393216x1_S393216x512_1_0_0_1.window (ix2 e c) (0 : Fin 2) : Int) < ((49152 : Nat) : Int)
        rw [h0, w0]; omega
      | ⟨1, _⟩ =>
        show 0 ≤ scatter_S49152x512_S393216x1_S393216x512_1_0_0_1.start (ix2 e c) ri (1 : Fin 2) + (scatter_S49152x512_S393216x1_S393216x512_1_0_0_1.window (ix2 e c) (1 : Fin 2) : Int)
          ∧ scatter_S49152x512_S393216x1_S393216x512_1_0_0_1.start (ix2 e c) ri (1 : Fin 2) + (scatter_S49152x512_S393216x1_S393216x512_1_0_0_1.window (ix2 e c) (1 : Fin 2) : Int) < ((512 : Nat) : Int)
        rw [h1, w1]; omega

/-- The scatter-add at (r, q), on the extended reals: the operand's entry plus the sum, over the edges whose start
    word read signed is r, of the update's entry (e, q). -/
theorem scatterAdd_apply (z : FVec Ideal S49152x512 .f32) (ri : IVec S393216x1 32) (u : FVec Ideal S393216x512 .f32)
    (r : Fin 49152) (q : Fin 512) :
    Host.scatterAdd (F := Ideal) scatter_S49152x512_S393216x1_S393216x512_1_0_0_1 z ri u (ix2 r q)
      = z (ix2 r q) + ∑ e ∈ Finset.univ.filter (fun e : Fin 393216 => (ri (ix2 e (0 : Fin 1))).toInt = (r.val : Int)), u (ix2 e q) := by
  unfold Host.scatterAdd
  rw [Ideal.hostScatterAdd_def]
  unfold Ideal.hostScatterAdd
  refine congrArg (fun s => z (ix2 r q) + s) ?_
  -- the updates that land on (r, q) are the (e, q) with edge e's word r: re-index the sum by the edge coordinate
  refine Finset.sum_nbij' (fun j => (j 0 : Fin 393216)) (fun e => ix2 e q) ?_ ?_ ?_ ?_ ?_
  · intro j hj
    obtain ⟨a, b, rfl⟩ : ∃ (a : Fin 393216) (b : Fin 512), j = ix2 a b := ⟨j 0, j 1, eq_ix2 j⟩
    have hab := (resultIdx?_eq_some_iff ri a b q r).1 (Finset.mem_filter.1 hj).2
    exact Finset.mem_filter.2 ⟨Finset.mem_univ _, hab.2⟩
  · intro e he
    exact Finset.mem_filter.2 ⟨Finset.mem_univ _,
      (resultIdx?_eq_some_iff ri e q q r).2 ⟨rfl, (Finset.mem_filter.1 he).2⟩⟩
  · intro j hj
    obtain ⟨a, b, rfl⟩ : ∃ (a : Fin 393216) (b : Fin 512), j = ix2 a b := ⟨j 0, j 1, eq_ix2 j⟩
    have hab := (resultIdx?_eq_some_iff ri a b q r).1 (Finset.mem_filter.1 hj).2
    show ix2 a q = ix2 a b
    rw [hab.1]
  · intro e he
    rfl
  · intro j hj
    obtain ⟨a, b, rfl⟩ : ∃ (a : Fin 393216) (b : Fin 512), j = ix2 a b := ⟨j 0, j 1, eq_ix2 j⟩
    have hab := (resultIdx?_eq_some_iff ri a b q r).1 (Finset.mem_filter.1 hj).2
    show u (ix2 a b) = u (ix2 a q)
    rw [hab.1]

end Cert.ReferenceIdeal.GS

end
-- ==== Proof.RefValue.lean ====
/-
  The reference program's result, as one function of its arguments.

  The reference keeps its signals in the layout [node, batch·channel] (a transpose and a reshape of the argument)
  and applies the same four rounds of gather, product, scatter-add and 2 · (…) − (…); it stacks the five terms,
  brings them to [channel, term, batch·node], contracts the term axis against dk (depthwise), the channel axis
  against pk (pointwise), brings the result back to [batch, node, output], adds the bias and takes the maximum with zero.
  Entry by entry that is the nested arrangement `ChebSpec.outN`.
-/
import proofs.«112941_j24421184045264_1_alg».proof.Proof.Gen.ReferenceIdeal.Read
import proofs.«112941_j24421184045264_1_alg».proof.Proof.GSR
import proofs.«112941_j24421184045264_1_alg».proof.Proof.Spec
import Idealize.ShloMosaic.Lib.ValueIdx
import Idealize.ShloMosaic.Lib.Pipeline.Value
import Idealize.ShloMosaic.Lib.ValueLayout

noncomputable section

namespace Cert.ReferenceIdeal.RV

open Cert.ReferenceIdeal Cert.ReferenceIdeal.Gen Idealize.ShloMosaic Idealize.ShloMosaic.TcCoe Idealize.ShloMosaic.ValueIdx Idealize.SL.Sem

/-! ## The layout [node, batch·channel] -/

/-- The column of batch `n`, channel `f` in a row of 512. -/
private def q (n : Fin 16) (f : Fin 32) : Fin 512 := ⟨n.val * 32 + f.val, by omega⟩

/-- The argument, transposed and reshaped, at (r, n·32 + f) is the signal at (n, r, f). -/
private theorem sig_eq (x0 : FVec Ideal S16x49152x32 .f32) (n : Fin 16) (r : Fin 49152) (f : Fin 32) :
    Read.val_main_v1 (F := Ideal) x0 (ix2 r (q n f)) = ChebSpec.sig3 x0 n r f := by
  rw [Read.val_main_v1_apply, Read.val_main_v0_apply]
  unfold ChebSpec.sig3
  congr 1
  funext a
  apply Fin.ext
  have hn := n.isLt; have hr := r.isLt; have hf := f.isLt
  match a with
  | ⟨0, _⟩ => show (r.val * 512 + (n.val * 32 + f.val)) / 32 % 16 = n.val; omega
  | ⟨1, _⟩ => show (r.val * 512 + (n.val * 32 + f.val)) / 512 = r.val; omega
  | ⟨2, _⟩ => show (r.val * 512 + (n.val * 32 + f.val)) % 32 = f.val; omega

/-! ## One sparse round in this layout -/

/-- Gather along the wrapped column words, multiply by the edge values, scatter-add along the row words into zeros:
    on an array that holds the signal `T` in the layout, the result holds `L T`. -/
private theorem round_eq (x1 : FVec Ideal S393216 .f32) (x5 x6 : IVec S393216 32)
    (z : FVec Ideal S49152x512 .f32) (hz : ∀ i, z i = 0)
    (ri : IVec S393216x1 32) (hri : ∀ e : Fin 393216, ri (ix2 e (0 : Fin 1)) = x5 (ix1 e))
    (ci : IVec S393216x1 32) (hci : ∀ e : Fin 393216, ci (ix2 e (0 : Fin 1)) = ChebSpec.wrapWord (x6 (ix1 e)))
    (ev : FVec Ideal S393216x512 .f32) (hev : ∀ (e : Fin 393216) (c : Fin 512), ev (ix2 e c) = x1 (ix1 e))
    (t : FVec Ideal S49152x512 .f32) (T : ChebSpec.Sig3)
    (ht : ∀ (n : Fin 16) (r : Fin 49152) (f : Fin 32), t (ix2 r (q n f)) = T n r f)
    (n : Fin 16) (r : Fin 49152) (f : Fin 32) :
    Host.scatterAdd (F := Ideal) scatter_S49152x512_S393216x1_S393216x512_1_0_0_1 z ri
        (mulf ev (Host.gather gather_S49152x512_S393216x1_S393216x512_1_0_n_n_0_1_1512 t ci)) (ix2 r (q n f))
      = ChebSpec.L (fun e => x1 (ix1 e)) (ChebSpec.rowOf x5) (ChebSpec.colOf x6) T n r f := by
  rw [GS.scatterAdd_apply, hz, zero_add]
  unfold ChebSpec.L
  refine Finset.sum_congr ?_ fun e _ => ?_
  · refine Finset.filter_congr fun e _ => ?_
    rw [hri e]; rfl
  · rw [mulf_apply, GS.gather_apply, hev]
    have hc : (⟨min (ci (ix2 e (0 : Fin 1))).toInt.toNat 49151, by omega⟩ : Fin 49152) = ChebSpec.colOf x6 e :=
      Fin.ext (by
        show min (ci (ix2 e (0 : Fin 1))).toInt.toNat 49151 = min (ChebSpec.wrapWord (x6 (ix1 e))).toInt.toNat 49151
        rw [hci e])
    rw [hc]
    exact congrArg _ (ht n (ChebSpec.colOf x6 e) f)

/-! ## The index words, edge values and zero operands of the four rounds -/

private theorem idx_e (e : Fin 393216) : (fun a => match a with | ⟨0, _⟩ => ⟨((ix2 e (0 : Fin 1)) 0).val, ((ix2 e (0 : Fin 1)) 0).isLt⟩ : S393216.Idx) = ix1 e :=
  funext fun a => Fin.ext (by match a with | ⟨0, _⟩ => rfl)

/-- The column words after the wrap of negative ones, as the gather of this round reads them. -/
private theorem col_v8 (x6 : IVec S393216 32) (e : Fin 393216) :
    Read.val_main_v8 (F := Ideal) x6 (ix2 e (0 : Fin 1)) = ChebSpec.wrapWord (x6 (ix1 e)) := by
  rw [Read.val_main_v8_apply, Read.val_main_v7_apply, Read.val_main_v4_apply, Read.val_main_v6_apply,
    Read.val_main_v3_apply, Read.val_main_v5_apply, Read.val_main_c_apply, Read.val_main_c_0_apply]
  rw [show Read.idx_main_v8 (ix2 e (0 : Fin 1)) = ix1 e from idx_e e]
  rfl

/-- The row words, as the scatter-add of this round reads them. -/
private theorem row_v13 (x5 : IVec S393216 32) (e : Fin 393216) :
    Read.val_main_v13 (F := Ideal) x5 (ix2 e (0 : Fin 1)) = x5 (ix1 e) := by
  rw [Read.val_main_v13_apply, show Read.idx_main_v13 (ix2 e (0 : Fin 1)) = ix1 e from idx_e e]

/-- The edge values, one per edge, along the row of 512. -/
private theorem ev_v10 (x1 : FVec Ideal S393216 .f32) (e : Fin 393216) (c : Fin 512) :
    Read.val_main_v10 (F := Ideal) x1 (ix2 e c) = x1 (ix1 e) := by
  rw [Read.val_main_v10_apply, Read.val_main_v2_apply]
  exact congrArg x1 (funext fun a => Fin.ext (by match a with | ⟨0, _⟩ => rfl))

/-- The operand the scatter-add adds into is zero. -/
private theorem zero_v12 (i : S49152x512.Idx) : Read.val_main_v12 (F := Ideal) i = 0 := by
  rw [Read.val_main_v12_apply, Read.val_main_cst_apply, Ideal.ofBits_def, Ideal.ofBits_zero_f32]

/-- The column words after the wrap of negative ones, as the gather of this round reads them. -/
private theorem col_v21 (x6 : IVec S393216 32) (e : Fin 393216) :
    Read.val_main_v21 (F := Ideal) x6 (ix2 e (0 : Fin 1)) = ChebSpec.wrapWord (x6 (ix1 e)) := by
  rw [Read.val_main_v21_apply, Read.val_main_v20_apply, Read.val_main_v17_apply, Read.val_main_v19_apply,
    Read.val_main_v16_apply, Read.val_main_v18_apply, Read.val_main_c_1_apply, Read.val_main_c_2_apply]
  rw [show Read.idx_main_v21 (ix2 e (0 : Fin 1)) = ix1 e from idx_e e]
  rfl

/-- The row words, as the scatter-add of this round reads them. -/
private theorem row_v26 (x5 : IVec S393216 32) (e : Fin 393216) :
    Read.val_main_v26 (F := Ideal) x5 (ix2 e (0 : Fin 1)) = x5 (ix1 e) := by
  rw [Read.val_main_v26_apply, show Read.idx_main_v26 (ix2 e (0 : Fin 1)) = ix1 e from idx_e e]

/-- The edge values, one per edge, along the row of 512. -/
private theorem ev_v23 (x1 : FVec Ideal S393216 .f32) (e : Fin 393216) (c : Fin 512) :
    Read.val_main_v23 (F := Ideal) x1 (ix2 e c) = x1 (ix1 e) := by
  rw [Read.val_main_v23_apply, Read.val_main_v15_apply]
  exact congrArg x1 (funext fun a => Fin.ext (by match a with | ⟨0, _⟩ => rfl))

/-- The operand the scatter-add adds into is zero. -/
private theorem zero_v25 (i : S49152x512.Idx) : Read.val_main_v25 (F := Ideal) i = 0 := by
  rw [Read.val_main_v25_apply, Read.val_main_cst_3_apply, Ideal.ofBits_def, Ideal.ofBits_zero_f32]

/-- The column words after the wrap of negative ones, as the gather of this round reads them. -/
private theorem col_v37 (x6 : IVec S393216 32) (e : Fin 393216) :
    Read.val_main_v37 (F := Ideal) x6 (ix2 e (0 : Fin 1)) = ChebSpec.wrapWord (x6 (ix1 e)) := by
  rw [Read.val_main_v37_apply, Read.val_main_v36_apply, Read.val_main_v33_apply, Read.val_main_v35_apply,
    Read.val_main_v32_apply, Read.val_main_v34_apply, Read.val_main_c_5_apply, Read.val_main_c_6_apply]
  rw [show Read.idx_main_v37 (ix2 e (0 : Fin 1)) = ix1 e from idx_e e]
  rfl

/-- The row words, as the scatter-add of this round reads them. -/
private theorem row_v42 (x5 : IVec S393216 32) (e : Fin 393216) :
    Read.val_main_v42 (F := Ideal) x5 (ix2 e (0 : Fin 1)) = x5 (ix1 e) := by
  rw [Read.val_main_v42_apply, show Read.idx_main_v42 (ix2 e (0 : Fin 1)) = ix1 e from idx_e e]

/-- The edge values, one per edge, along the row of 512. -/
private theorem ev_v39 (x1 : FVec Ideal S393216 .f32) (e : Fin 393216) (c : Fin 512) :
    Read.val_main_v39 (F := Ideal) x1 (ix2 e c) = x1 (ix1 e) := by
  rw [Read.val_main_v39_apply, Read.val_main_v31_apply]
  exact congrArg x1 (funext fun a => Fin.ext (by match a with | ⟨0, _⟩ => rfl))

/-- The operand the scatter-add adds into is zero. -/
private theorem zero_v41 (i : S49152x512.Idx) : Read.val_main_v41 (F := Ideal) i = 0 := by
  rw [Read.val_main_v41_apply, Read.val_main_cst_7_apply, Ideal.ofBits_def, Ideal.ofBits_zero_f32]

/-- The column words after the wrap of negative ones, as the gather of this round reads them. -/
private theorem col_v53 (x6 : IVec S393216 32) (e : Fin 393216) :
    Read.val_main_v53 (F := Ideal) x6 (ix2 e (0 : Fin 1)) = ChebSpec.wrapWord (x6 (ix1 e)) := by
  rw [Read.val_main_v53_apply, Read.val_main_v52_apply, Read.val_main_v49_apply, Read.val_main_v51_apply,
    Read.val_main_v48_apply, Read.val_main_v50_apply, Read.val_main_c_9_apply, Read.val_main_c_10_apply]
  rw [show Read.idx_main_v53 (ix2 e (0 : Fin 1)) = ix1 e from idx_e e]
  rfl

/-- The row words, as the scatter-add of this round reads them. -/
private theorem row_v58 (x5 : IVec S393216 32) (e : Fin 393216) :
    Read.val_main_v58 (F := Ideal) x5 (ix2 e (0 : Fin 1)) = x5 (ix1 e) := by
  rw [Read.val_main_v58_apply, show Read.idx_main_v58 (ix2 e (0 : Fin 1)) = ix1 e from idx_e e]

/-- The edge values, one per edge, along the row of 512. -/
private theorem ev_v55 (x1 : FVec Ideal S393216 .f32) (e : Fin 393216) (c : Fin 512) :
    Read.val_main_v55 (F := Ideal) x1 (ix2 e c) = x1 (ix1 e) := by
  rw [Read.val_main_v55_apply, Read.val_main_v47_apply]
  exact congrArg x1 (funext fun a => Fin.ext (by match a with | ⟨0, _⟩ => rfl))

/-- The operand the scatter-add adds into is zero. -/
private theorem zero_v57 (i : S49152x512.Idx) : Read.val_main_v57 (F := Ideal) i = 0 := by
  rw [Read.val_main_v57_apply, Read.val_main_cst_11_apply, Ideal.ofBits_def, Ideal.ofBits_zero_f32]

/-! ## The five terms, one equation each -/

private theorem terms_zero (x0 : FVec Ideal S16x49152x32 .f32) (x1 : FVec Ideal S393216 .f32) (x5 x6 : IVec S393216 32) : ChebSpec.terms x0 x1 x5 x6 0 = ChebSpec.sig3 x0 := by
  unfold ChebSpec.terms ChebSpec.cheb
  simp only [Matrix.cons_val]

private theorem terms_one (x0 : FVec Ideal S16x49152x32 .f32) (x1 : FVec Ideal S393216 .f32) (x5 x6 : IVec S393216 32) : ChebSpec.terms x0 x1 x5 x6 1 = ChebSpec.L (fun e => x1 (ix1 e)) (ChebSpec.rowOf x5) (ChebSpec.colOf x6) (ChebSpec.sig3 x0) := by
  unfold ChebSpec.terms ChebSpec.cheb
  simp only [Matrix.cons_val]

private theorem terms_two (x0 : FVec Ideal S16x49152x32 .f32) (x1 : FVec Ideal S393216 .f32) (x5 x6 : IVec S393216 32) : ChebSpec.terms x0 x1 x5 x6 2 = ChebSpec.step (fun e => x1 (ix1 e)) (ChebSpec.rowOf x5) (ChebSpec.colOf x6) (ChebSpec.terms x0 x1 x5 x6 1) (ChebSpec.sig3 x0) := by
  rw [terms_one]
  unfold ChebSpec.terms ChebSpec.cheb
  simp only [Matrix.cons_val]

private theorem terms_three (x0 : FVec Ideal S16x49152x32 .f32) (x1 : FVec Ideal S393216 .f32) (x5 x6 : IVec S393216 32) : ChebSpec.terms x0 x1 x5 x6 3 = ChebSpec.step (fun e => x1 (ix1 e)) (ChebSpec.rowOf x5) (ChebSpec.colOf x6) (ChebSpec.terms x0 x1 x5 x6 2) (ChebSpec.terms x0 x1 x5 x6 1) := by
  rw [terms_two, terms_one]
  unfold ChebSpec.terms ChebSpec.cheb
  simp only [Matrix.cons_val]

private theorem terms_four (x0 : FVec Ideal S16x49152x32 .f32) (x1 : FVec Ideal S393216 .f32) (x5 x6 : IVec S393216 32) : ChebSpec.terms x0 x1 x5 x6 4 = ChebSpec.step (fun e => x1 (ix1 e)) (ChebSpec.rowOf x5) (ChebSpec.colOf x6) (ChebSpec.terms x0 x1 x5 x6 3) (ChebSpec.terms x0 x1 x5 x6 2) := by
  rw [terms_three, terms_two, terms_one]
  unfold ChebSpec.terms ChebSpec.cheb
  simp only [Matrix.cons_val]

/-- One step of the recursion as the reference writes it. -/
private theorem step_apply (ev : Fin 393216 → EReal) (row : Fin 393216 → Int) (col : Fin 393216 → Fin 49152) (a b : ChebSpec.Sig3)
    (n : Fin 16) (r : Fin 49152) (f : Fin 32) :
    ChebSpec.step ev row col a b n r f
      = FloatOps.subf (F := Ideal) (φ := .f32) (FloatOps.mulf (FloatOps.ofBits .f32 0x40000000#32) (ChebSpec.L ev row col a n r f)) (b n r f) := rfl

/-! ## The five terms in the layout -/

/-- T₁ = L x. -/
private theorem t1_eq (x0 : FVec Ideal S16x49152x32 .f32) (x1 : FVec Ideal S393216 .f32) (x5 x6 : IVec S393216 32)
    (n : Fin 16) (r : Fin 49152) (f : Fin 32) :
    Read.val_main_v14 (F := Ideal) x0 x1 x5 x6 (ix2 r (q n f)) = ChebSpec.terms x0 x1 x5 x6 1 n r f := by
  rw [terms_one]
  unfold Read.val_main_v14 Read.val_main_v11 Read.val_main_v9
  exact round_eq x1 x5 x6 _ zero_v12 _ (row_v13 x5) _ (col_v8 x6) _ (ev_v10 x1) _ (ChebSpec.sig3 x0) (sig_eq x0) n r f

/-- T₂ = 2 · L T₁ − x. -/
private theorem t2_eq (x0 : FVec Ideal S16x49152x32 .f32) (x1 : FVec Ideal S393216 .f32) (x5 x6 : IVec S393216 32)
    (n : Fin 16) (r : Fin 49152) (f : Fin 32) :
    Read.val_main_v30 (F := Ideal) x0 x1 x5 x6 (ix2 r (q n f)) = ChebSpec.terms x0 x1 x5 x6 2 n r f := by
  rw [terms_two, step_apply]
  rw [Read.val_main_v30_apply, Read.val_main_v29_apply, Read.val_main_v28_apply, Read.val_main_cst_4_apply, sig_eq]
  unfold Read.val_main_v27 Read.val_main_v24 Read.val_main_v22
  rw [round_eq x1 x5 x6 _ zero_v25 _ (row_v26 x5) _ (col_v21 x6) _ (ev_v23 x1) _ (ChebSpec.terms x0 x1 x5 x6 1)
    (t1_eq x0 x1 x5 x6) n r f]

/-- T₃ = 2 · L T₂ − T₁. -/
private theorem t3_eq (x0 : FVec Ideal S16x49152x32 .f32) (x1 : FVec Ideal S393216 .f32) (x5 x6 : IVec S393216 32)
    (n : Fin 16) (r : Fin 49152) (f : Fin 32) :
    Read.val_main_v46 (F := Ideal) x0 x1 x5 x6 (ix2 r (q n f)) = ChebSpec.terms x0 x1 x5 x6 3 n r f := by
  rw [terms_three, step_apply]
  rw [Read.val_main_v46_apply, Read.val_main_v45_apply, Read.val_main_v44_apply, Read.val_main_cst_8_apply, t1_eq]
  unfold Read.val_main_v43 Read.val_main_v40 Read.val_main_v38
  rw [round_eq x1 x5 x6 _ zero_v41 _ (row_v42 x5) _ (col_v37 x6) _ (ev_v39 x1) _ (ChebSpec.terms x0 x1 x5 x6 2)
    (t2_eq x0 x1 x5 x6) n r f]

/-- T₄ = 2 · L T₃ − T₂. -/
private theorem t4_eq (x0 : FVec Ideal S16x49152x32 .f32) (x1 : FVec Ideal S393216 .f32) (x5 x6 : IVec S393216 32)
    (n : Fin 16) (r : Fin 49152) (f : Fin 32) :
    Read.val_main_v62 (F := Ideal) x0 x1 x5 x6 (ix2 r (q n f)) = ChebSpec.terms x0 x1 x5 x6 4 n r f := by
  rw [terms_four, step_apply]
  rw [Read.val_main_v62_apply, Read.val_main_v61_apply, Read.val_main_v60_apply, Read.val_main_cst_12_apply, t2_eq]
  unfold Read.val_main_v59 Read.val_main_v56 Read.val_main_v54
  rw [round_eq x1 x5 x6 _ zero_v57 _ (row_v58 x5) _ (col_v53 x6) _ (ev_v55 x1) _ (ChebSpec.terms x0 x1 x5 x6 3)
    (t3_eq x0 x1 x5 x6) n r f]

/-! ## The stack of the five terms -/

/-- Five arrays [1, 49152, 512] joined along the first axis, read at (k, r, c): the k-th array at (0, r, c). -/
private theorem stack5_apply {α : Type} (p0 p1 p2 p3 p4 : S1x49152x512.Idx → α)
    (h : Shape.Concatenates (([⟨S1x49152x512, p0⟩, ⟨S1x49152x512, p1⟩, ⟨S1x49152x512, p2⟩, ⟨S1x49152x512, p3⟩, ⟨S1x49152x512, p4⟩] : List ((s : Shape) × (s.Idx → α))).map (·.1)) S5x49152x512 0)
    (k : Fin 5) (r : Fin 49152) (c : Fin 512) :
    concatenate S5x49152x512 0 [⟨S1x49152x512, p0⟩, ⟨S1x49152x512, p1⟩, ⟨S1x49152x512, p2⟩, ⟨S1x49152x512, p3⟩, ⟨S1x49152x512, p4⟩] h (ix3 k r c) = (![p0, p1, p2, p3, p4] k) (ix3 (0 : Fin 1) r c) := by
  have hl : ([⟨S1x49152x512, p0⟩, ⟨S1x49152x512, p1⟩, ⟨S1x49152x512, p2⟩, ⟨S1x49152x512, p3⟩, ⟨S1x49152x512, p4⟩] : List ((s : Shape) × (s.Idx → α)))
      = List.ofFn fun n : Fin 5 => (⟨S1x49152x512, ![p0, p1, p2, p3, p4] n⟩ : (s : Shape) × (s.Idx → α)) := rfl
  revert h
  rw [hl]
  intro h
  exact concatenate_ofFn_unit_apply (0 : Fin S5x49152x512.rank) _ h rfl rfl (ix3 k r c) k rfl (ix3 (0 : Fin 1) r c)
    (fun b hb => by
      match b with
      | ⟨0, _⟩ => exact absurd rfl hb
      | ⟨1, _⟩ => rfl
      | ⟨2, _⟩ => rfl)

/-- A term array [49152, 512] with a unit axis in front, read at (0, r, c). -/
private theorem unit_front (r : Fin 49152) (c : Fin 512) :
    (fun a => match a with
      | ⟨0, _⟩ => ⟨((ix3 (0 : Fin 1) r c) 1).val, ((ix3 (0 : Fin 1) r c) 1).isLt⟩
      | ⟨1, _⟩ => ⟨((ix3 (0 : Fin 1) r c) 2).val, ((ix3 (0 : Fin 1) r c) 2).isLt⟩ : S49152x512.Idx) = ix2 r c :=
  funext fun a => Fin.ext (by match a with | ⟨0, _⟩ => rfl | ⟨1, _⟩ => rfl)

/-- The stacked array at (k, r, n·32 + f) is the k-th term at (n, r, f). -/
private theorem stack_eq (x0 : FVec Ideal S16x49152x32 .f32) (x1 : FVec Ideal S393216 .f32) (x5 x6 : IVec S393216 32)
    (k : Fin 5) (n : Fin 16) (r : Fin 49152) (f : Fin 32) :
    Read.val_main_v68 (F := Ideal) x0 x1 x5 x6 (ix3 k r (q n f)) = ChebSpec.terms x0 x1 x5 x6 k n r f := by
  unfold Read.val_main_v68
  rw [stack5_apply]
  match k with
  | ⟨0, _⟩ =>
    show Read.val_main_v63 (F := Ideal) x0 (ix3 (0 : Fin 1) r (q n f)) = ChebSpec.terms x0 x1 x5 x6 0 n r f
    rw [Read.val_main_v63_apply, show Read.idx_main_v63 (ix3 (0 : Fin 1) r (q n f)) = ix2 r (q n f) from unit_front r (q n f),
      sig_eq, terms_zero]
  | ⟨1, _⟩ =>
    show Read.val_main_v64 (F := Ideal) x0 x1 x5 x6 (ix3 (0 : Fin 1) r (q n f)) = ChebSpec.terms x0 x1 x5 x6 1 n r f
    rw [Read.val_main_v64_apply, show Read.idx_main_v64 (ix3 (0 : Fin 1) r (q n f)) = ix2 r (q n f) from unit_front r (q n f), t1_eq]
  | ⟨2, _⟩ =>
    show Read.val_main_v65 (F := Ideal) x0 x1 x5 x6 (ix3 (0 : Fin 1) r (q n f)) = ChebSpec.terms x0 x1 x5 x6 2 n r f
    rw [Read.val_main_v65_apply, show Read.idx_main_v65 (ix3 (0 : Fin 1) r (q n f)) = ix2 r (q n f) from unit_front r (q n f), t2_eq]
  | ⟨3, _⟩ =>
    show Read.val_main_v66 (F := Ideal) x0 x1 x5 x6 (ix3 (0 : Fin 1) r (q n f)) = ChebSpec.terms x0 x1 x5 x6 3 n r f
    rw [Read.val_main_v66_apply, show Read.idx_main_v66 (ix3 (0 : Fin 1) r (q n f)) = ix2 r (q n f) from unit_front r (q n f), t3_eq]
  | ⟨4, _⟩ =>
    show Read.val_main_v67 (F := Ideal) x0 x1 x5 x6 (ix3 (0 : Fin 1) r (q n f)) = ChebSpec.terms x0 x1 x5 x6 4 n r f
    rw [Read.val_main_v67_apply, show Read.idx_main_v67 (ix3 (0 : Fin 1) r (q n f)) = ix2 r (q n f) from unit_front r (q n f), t4_eq]

/-! ## From the stack to [channel, term, batch·node] -/

/-- The position of batch `n`, node `r` on the joined axis of 786432. -/
private def p (n : Fin 16) (r : Fin 49152) : Fin 786432 := ⟨n.val * 49152 + r.val, by omega⟩

/-- The stack reshaped to [5, 49152, 16, 32], transposed to [32, 5, 16, 49152] and reshaped to [32, 5, 786432],
    at (f, k, n·49152 + r), is the k-th term at (n, r, f). -/
private theorem v71_eq (x0 : FVec Ideal S16x49152x32 .f32) (x1 : FVec Ideal S393216 .f32) (x5 x6 : IVec S393216 32)
    (f : Fin 32) (k : Fin 5) (n : Fin 16) (r : Fin 49152) :
    Read.val_main_v71 (F := Ideal) x0 x1 x5 x6 (ix3 f k (p n r)) = ChebSpec.terms x0 x1 x5 x6 k n r f := by
  have hn := n.isLt; have hr := r.isLt; have hf := f.isLt; have hk := k.isLt
  have e71 : Read.idx_main_v71 (ix3 f k (p n r)) = ix4 f k n r := funext fun a => Fin.ext (by
    match a with
    | ⟨0, _⟩ => show ((f.val * 5 + k.val) * 786432 + (n.val * 49152 + r.val)) / 3932160 = f.val; omega
    | ⟨1, _⟩ => show ((f.val * 5 + k.val) * 786432 + (n.val * 49152 + r.val)) / 786432 % 5 = k.val; omega
    | ⟨2, _⟩ => show ((f.val * 5 + k.val) * 786432 + (n.val * 49152 + r.val)) / 49152 % 16 = n.val; omega
    | ⟨3, _⟩ => show ((f.val * 5 + k.val) * 786432 + (n.val * 49152 + r.val)) % 49152 = r.val; omega)
  have e70 : Read.idx_main_v70 (ix4 f k n r) = ix4 k r n f := funext fun a => Fin.ext (by
    match a with
    | ⟨0, _⟩ => rfl
    | ⟨1, _⟩ => rfl
    | ⟨2, _⟩ => rfl
    | ⟨3, _⟩ => rfl)
  have e69 : Read.idx_main_v69 (ix4 k r n f) = ix3 k r (q n f) := funext fun a => Fin.ext (by
    match a with
    | ⟨0, _⟩ => show (((k.val * 49152 + r.val) * 16 + n.val) * 32 + f.val) / 25165824 = k.val; omega
    | ⟨1, _⟩ => show (((k.val * 49152 + r.val) * 16 + n.val) * 32 + f.val) / 512 % 49152 = r.val; omega
    | ⟨2, _⟩ => show (((k.val * 49152 + r.val) * 16 + n.val) * 32 + f.val) % 512 = n.val * 32 + f.val; omega)
  rw [Read.val_main_v71_apply, e71, Read.val_main_v70_apply, e70, Read.val_main_v69_apply, e69, stack_eq]

/-! ## The result -/

/-- The nested arrangement at (n, r, o). -/
private theorem outN_apply (x0 : FVec Ideal S16x49152x32 .f32) (x1 : FVec Ideal S393216 .f32) (x2 : FVec Ideal S32x1x5 .f32)
    (x3 : FVec Ideal S64x32 .f32) (x4 : FVec Ideal S1x1x64 .f32) (x5 x6 : IVec S393216 32)
    (n : Fin 16) (r : Fin 49152) (o : Fin 64) :
    ChebSpec.outN x0 x1 x2 x3 x4 x5 x6 (ix3 n r o)
      = max ((∑ f : Fin 32, x3 (ix2 o f) * ∑ k : Fin 5, x2 (ix3 f (0 : Fin 1) k) * ChebSpec.terms x0 x1 x5 x6 k n r f)
          + x4 (ix3 (0 : Fin 1) (0 : Fin 1) o)) 0 := rfl

/-- The reference's result is the nested arrangement of the graph convolution. -/
theorem result_eq (x0 : FVec Ideal S16x49152x32 .f32) (x1 : FVec Ideal S393216 .f32) (x2 : FVec Ideal S32x1x5 .f32)
    (x3 : FVec Ideal S64x32 .f32) (x4 : FVec Ideal S1x1x64 .f32) (x5 x6 : IVec S393216 32) :
    Read.val_main_v79 (F := Ideal) x0 x1 x2 x3 x4 x5 x6 = ChebSpec.outN x0 x1 x2 x3 x4 x5 x6 := by
  funext i
  obtain ⟨n, r, o, rfl⟩ : ∃ (n : Fin 16) (r : Fin 49152) (o : Fin 64), i = ix3 n r o := ⟨i 0, i 1, i 2, eq_ix3 i⟩
  have hn := n.isLt; have hr := r.isLt; have ho := o.isLt
  rw [outN_apply, Read.val_main_v79_apply, Read.val_main_v78_apply, Read.val_main_call0_v0_apply,
    Read.val_main_call0_cst_apply, Read.val_main_v77_apply, Read.val_main_v76_apply, Read.val_main_v75_apply,
    Read.val_main_v74_apply, Ideal.maximumf_def, Ideal.addf_def, Ideal.ofBits_def, Ideal.ofBits_zero_f32]
  have e77 : Read.idx_main_v77 (ix3 n r o) = ix3 (0 : Fin 1) (0 : Fin 1) o := funext fun a => Fin.ext (by
    match a with
    | ⟨0, _⟩ => rfl
    | ⟨1, _⟩ => rfl
    | ⟨2, _⟩ => rfl)
  rw [e77]
  congr 2
  refine Finset.sum_congr rfl fun f _ => ?_
  have hf := f.isLt
  have el : Read.lidx_main_v74 (Read.idx_main_v75 (Read.idx_main_v76 (ix3 n r o))) f = ix2 o f := funext fun a => Fin.ext (by
    match a with
    | ⟨0, _⟩ => show ((n.val * 49152 + r.val) * 64 + o.val) % 64 = o.val; omega
    | ⟨1, _⟩ => rfl)
  have er : Read.ridx_main_v74 (Read.idx_main_v75 (Read.idx_main_v76 (ix3 n r o))) f = ix2 f (p n r) := funext fun a => Fin.ext (by
    match a with
    | ⟨0, _⟩ => rfl
    | ⟨1, _⟩ => show ((n.val * 49152 + r.val) * 64 + o.val) / 64 = n.val * 49152 + r.val; omega)
  rw [el, er, Read.val_main_v73_apply, Read.val_main_v72_apply]
  congr 1
  refine Finset.sum_congr rfl fun k _ => ?_
  have e2 : Read.lidx_main_v72 (Read.idx_main_v73 (ix2 f (p n r))) k = ix3 f (0 : Fin 1) k := funext fun a => Fin.ext (by
    match a with
    | ⟨0, _⟩ => show (f.val * 786432 + (n.val * 49152 + r.val)) / 786432 = f.val; omega
    | ⟨1, _⟩ => rfl
    | ⟨2, _⟩ => rfl)
  have e3 : Read.ridx_main_v72 (Read.idx_main_v73 (ix2 f (p n r))) k = ix3 f k (p n r) := funext fun a => Fin.ext (by
    match a with
    | ⟨0, _⟩ => show (f.val * 786432 + (n.val * 49152 + r.val)) / 786432 = f.val; omega
    | ⟨1, _⟩ => rfl
    | ⟨2, _⟩ => show (f.val * 786432 + (n.val * 49152 + r.val)) % 786432 = n.val * 49152 + r.val; omega)
  rw [e2, e3, v71_eq]

end Cert.ReferenceIdeal.RV

end
-- ==== Proof.Algebra.lean ====
/-
  The two arrangements of the graph convolution agree on real inputs.

  When the signal and the edge values are real numbers so is every Chebyshev term (a finite sum of products of
  reals, and twice a real minus a real); with real weights the nested arrangement
  ∑_f pk o f · (∑_k dk f k · T_k) is then, by distributivity and the exchange of the two finite sums, the flat one
  ∑_k ∑_f T_k · (pk o f · dk f k).  The bias may be any extended real.
-/
import proofs.«112941_j24421184045264_1_alg».proof.Proof.Spec
import Mathlib.Data.EReal.Basic
import Mathlib.Data.EReal.Operations
import Mathlib.Algebra.BigOperators.Group.Finset.Basic
import Mathlib.Algebra.BigOperators.Group.Finset.Sigma
import Mathlib.Algebra.BigOperators.Ring.Finset
import Mathlib.Tactic.Ring
import Mathlib.Tactic.NormNum
import Mathlib.Data.Fin.VecNotation

noncomputable section

namespace Cert.ChebSpec

open Idealize.ShloMosaic Idealize.ShloMosaic.ValueIdx

/-! ## Real numbers inside the extended reals -/

/-- An extended real that is (the image of) a real number. -/
private def IsR (a : EReal) : Prop := ∃ r : ℝ, a = (r : EReal)

/-- Neither infinity: a real number. -/
private theorem isR_of_ne {a : EReal} (h : a ≠ ⊤ ∧ a ≠ ⊥) : IsR a :=
  ⟨a.toReal, (EReal.coe_toReal h.1 h.2).symm⟩

/-- A product of reals is real. -/
private theorem IsR.mul {a b : EReal} (ha : IsR a) (hb : IsR b) : IsR (a * b) := by
  obtain ⟨x, rfl⟩ := ha
  obtain ⟨y, rfl⟩ := hb
  exact ⟨x * y, (EReal.coe_mul x y).symm⟩

/-- A difference of reals is real. -/
private theorem IsR.sub {a b : EReal} (ha : IsR a) (hb : IsR b) : IsR (a - b) := by
  obtain ⟨x, rfl⟩ := ha
  obtain ⟨y, rfl⟩ := hb
  exact ⟨x - y, (EReal.coe_sub x y).symm⟩

/-- A finite sum of reals is real. -/
private theorem IsR.sum {ι : Type} (s : Finset ι) (g : ι → EReal) (h : ∀ i ∈ s, IsR (g i)) :
    IsR (∑ i ∈ s, g i) := by
  classical
  induction s using Finset.induction_on with
  | empty => exact ⟨0, by simp⟩
  | insert a s ha ih =>
    rw [Finset.sum_insert ha]
    obtain ⟨x, hx⟩ := h a (Finset.mem_insert_self a s)
    obtain ⟨y, hy⟩ := ih (fun i hi => h i (Finset.mem_insert_of_mem hi))
    exact ⟨x + y, by rw [hx, hy, EReal.coe_add]⟩

/-- The inclusion of the reals commutes with finite sums. -/
private theorem coe_sum {ι : Type} (s : Finset ι) (g : ι → ℝ) :
    ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

/-! ## The Chebyshev terms of a real signal are real -/

/-- A signal all of whose entries are real. -/
private def RealSig (v : Sig3) : Prop := ∀ n c f, IsR (v n c f)

/-- The word 0x40000000 denotes the real number 2 (sign +, exponent 128 − 127 = 1, significand 1). -/
private theorem two_isR : IsR two := by
  refine ⟨2, ?_⟩
  unfold two
  simp [Ideal.ofBits, Ideal.ieee, -EReal.coe_mul]
  norm_num

/-- The sparse operator sends real signals to real signals when the edge values are real. -/
private theorem L_real {ev : Fin 393216 → EReal} {row : Fin 393216 → Int} {col : Fin 393216 → Fin 49152} {v : Sig3}
    (hev : ∀ e, IsR (ev e)) (hv : RealSig v) : RealSig (L ev row col v) := by
  intro n r f
  unfold L
  exact IsR.sum _ _ (fun e _ => (hev e).mul (hv n (col e) f))

/-- One step of the recursion keeps signals real. -/
private theorem step_real {ev : Fin 393216 → EReal} {row : Fin 393216 → Int} {col : Fin 393216 → Fin 49152} {a b : Sig3}
    (hev : ∀ e, IsR (ev e)) (ha : RealSig a) (hb : RealSig b) : RealSig (step ev row col a b) := by
  intro n r f
  unfold step
  exact (two_isR.mul (L_real hev ha n r f)).sub (hb n r f)

/-- A property of the head and of every later entry of a finite list holds of every entry. -/
private theorem forall_vecCons {α : Type} {P : α → Prop} {m : Nat} {a : α} {v : Fin m → α}
    (ha : P a) (hv : ∀ j, P (v j)) : ∀ k, P (Matrix.vecCons a v k) := by
  intro k
  refine Fin.cases ?_ (fun j => ?_) k
  · rw [Matrix.cons_val_zero]; exact ha
  · rw [Matrix.cons_val_succ]; exact hv j

/-- All five Chebyshev terms of a real signal are real. -/
private theorem cheb_real {ev : Fin 393216 → EReal} {row : Fin 393216 → Int} {col : Fin 393216 → Fin 49152} {x : Sig3}
    (hev : ∀ e, IsR (ev e)) (hx : RealSig x) : ∀ k, RealSig (cheb ev row col x k) := by
  have h1 : RealSig (L ev row col x) := L_real hev hx
  have h2 : RealSig (step ev row col (L ev row col x) x) := step_real hev h1 hx
  have h3 : RealSig (step ev row col (step ev row col (L ev row col x) x) (L ev row col x)) := step_real hev h2 h1
  have h4 := step_real (row := row) (col := col) hev h3 h2
  intro k
  simp only [cheb]
  exact forall_vecCons (P := RealSig) hx (forall_vecCons h1 (forall_vecCons h2 (forall_vecCons h3
    (forall_vecCons h4 (fun j => j.elim0))))) k

/-! ## The exchange of the two sums -/

/-- Over the reals: distribute the outer factor and exchange the two finite sums. -/
private theorem real_swap (t : Fin 5 → Fin 32 → ℝ) (p : Fin 32 → ℝ) (d : Fin 32 → Fin 5 → ℝ) :
    ∑ f : Fin 32, p f * ∑ k : Fin 5, d f k * t k f = ∑ k : Fin 5, ∑ f : Fin 32, t k f * (p f * d f k) := by
  calc ∑ f : Fin 32, p f * ∑ k : Fin 5, d f k * t k f
      = ∑ f : Fin 32, ∑ k : Fin 5, t k f * (p f * d f k) := by
        refine Finset.sum_congr rfl (fun f _ => ?_)
        rw [Finset.mul_sum]
        refine Finset.sum_congr rfl (fun k _ => ?_)
        ring
    _ = ∑ k : Fin 5, ∑ f : Fin 32, t k f * (p f * d f k) := Finset.sum_comm

/-- The same on extended reals every one of which is a real number. -/
private theorem ereal_swap (t : Fin 5 → Fin 32 → EReal) (p : Fin 32 → EReal) (d : Fin 32 → Fin 5 → EReal)
    (ht : ∀ k f, IsR (t k f)) (hp : ∀ f, IsR (p f)) (hd : ∀ f k, IsR (d f k)) :
    ∑ f : Fin 32, p f * ∑ k : Fin 5, d f k * t k f = ∑ k : Fin 5, ∑ f : Fin 32, t k f * (p f * d f k) := by
  choose tr htr using ht
  choose pr hpr using hp
  choose dr hdr using hd
  simp only [htr, hpr, hdr, ← EReal.coe_mul, ← coe_sum]
  exact congrArg _ (real_swap tr pr dr)

/-- The two arrangements agree on real terms and real weights, whatever the bias. -/
private theorem GN_eq_G (t : Fin 5 → Sig3) (pk : Fin 64 → Fin 32 → EReal) (dk : Fin 32 → Fin 5 → EReal)
    (b : Fin 64 → EReal) (ht : ∀ k, RealSig (t k)) (hp : ∀ o f, IsR (pk o f)) (hd : ∀ f k, IsR (dk f k)) :
    GN t pk dk b = G t pk dk b := by
  funext n r o
  show max ((∑ f : Fin 32, pk o f * ∑ k : Fin 5, dk f k * t k n r f) + b o) 0
     = max ((∑ k : Fin 5, ∑ f : Fin 32, t k n r f * (pk o f * dk f k)) + b o) 0
  rw [ereal_swap (fun k f => t k n r f) (pk o) dk (fun k f => ht k n r f) (hp o) hd]

/-- The nested arrangement is the flat one when the signal, the edge values and the two weight arrays are real. -/
theorem outN_eq_out (x : SX.Idx → EReal) (ev : SE.Idx → EReal) (dk : SD.Idx → EReal) (pk : SP.Idx → EReal) (b : SB.Idx → EReal)
    (rows cols : SE.Idx → BitVec 32) (hx : AllReal x) (hev : AllReal ev) (hdk : AllReal dk) (hpk : AllReal pk) :
    outN x ev dk pk b rows cols = out x ev dk pk b rows cols := by
  have ht : ∀ k, RealSig (terms x ev rows cols k) :=
    cheb_real (fun e => isR_of_ne (hev (ix1 e))) (fun n r f => isR_of_ne (hx (ix3 n r f)))
  funext i
  unfold outN out
  rw [GN_eq_G _ _ _ _ ht (fun o f => isR_of_ne (hpk (ix2 o f))) (fun f k => isR_of_ne (hdk (ix3 f 0 k)))]

end Cert.ChebSpec

end
-- ==== Proof.Finite.lean ====
/-
  The precondition read: every float argument holds real numbers.

  The precondition says that the absolute value of every entry of each float argument is below +∞; an extended real
  whose absolute value is below +∞ is neither +∞ nor −∞.
-/
import proofs.«112941_j24421184045264_1_alg».proof.Defs
import proofs.«112941_j24421184045264_1_alg».proof.Proof.Gen.Pre_finite_inputs
import proofs.«112941_j24421184045264_1_alg».proof.Proof.Gen.KernelIdeal
import proofs.«112941_j24421184045264_1_alg».proof.Proof.Spec
import Idealize.ShloMosaic.Lib.ReduceAll
import Idealize.ShloMosaic.Lib.StableHlo.Predicate

noncomputable section

namespace Cert.Proof.Finite

open Cert.KernelIdeal Idealize.ShloMosaic Idealize.ShloMosaic.TcCoe Idealize.SL.Sem

/-- An extended real whose absolute value max x (−x) is below +∞ is neither +∞ nor −∞: the 32-bit pattern
    0x7F800000 is +∞, and at either infinity the absolute value is +∞ itself. -/
private theorem real_of_abs_lt_top (x : Ideal .f32)
    (h : FloatOps.cmpf .olt (FloatOps.hostAbsf x) (FloatOps.ofBits (F := Ideal) .f32 0x7F800000#32) = 1#1) :
    (x : EReal) ≠ ⊤ ∧ (x : EReal) ≠ ⊥ := by
  have htop : Ideal.ofBits .f32 0x7F800000#32 = ⊤ := by simp [Ideal.ofBits, Ideal.ieee]
  change Ideal.cmp .olt (max (x : EReal) (-(x : EReal))) (Ideal.ofBits .f32 0x7F800000#32) = 1#1 at h
  rw [htop] at h
  unfold Ideal.cmp at h
  induction x using EReal.rec with
  | bot => simp at h
  | top => simp at h
  | coe r => exact ⟨EReal.coe_ne_top r, EReal.coe_ne_bot r⟩

/-- One argument of any shape: if the conjunction over all entries of "|x| < +∞" came out 1, every entry is real.
    The conjunction over all axes has a single result index, so each entry's comparison is 1; the scalar +∞ broadcast
    to the argument's shape reads +∞ at every index. -/
private theorem allReal_of_all {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (h0 : 0 < Cert.Pre_finite_inputs.S_.numel)
    (init : IVec Cert.Pre_finite_inputs.S_ 1)
    (e : Host.reduce IntOp.andi
          (cmpf .olt (Host.absf x) (broadcastInDim s ![] hb (constant (F := Ideal) Cert.Pre_finite_inputs.S_ .f32 0x7F800000#32)))
          init hr h0 ValueIdx.ix0 = 1#1) :
    ChebSpec.AllReal x := by
  haveI : Subsingleton Cert.Pre_finite_inputs.S_.Idx := ⟨fun a b => funext fun d => d.elim0⟩
  intro i
  have hi := Host.reduce_andi_all _ init hr h0 ValueIdx.ix0 e i
  refine real_of_abs_lt_top (x i) ?_
  rw [← hi]
  show _ = FloatOps.cmpf .olt (FloatOps.hostAbsf (x i))
    (broadcastInDim s ![] hb (constant (F := Ideal) Cert.Pre_finite_inputs.S_ .f32 0x7F800000#32) i)
  rw [StableHlo.Predicate.bcast_scalar hb h0]
  rfl

/-- Under the precondition the five float arguments are real-valued, on every core. -/
theorem real_of_pre (m : (ℓ : Loc nD τ sig) → Buf (Elt Ideal) ℓ)
    (h : Cert.Pre_KernelIdeal (hPre_finite_inputs := Cert.Pre_finite_inputs.Gen.facts) m) (c : Dev nD) :
    ChebSpec.AllReal (m ((c.tc : Thread nD τ).loc main_arg0)) ∧ ChebSpec.AllReal (m ((c.tc : Thread nD τ).loc main_arg1))
      ∧ ChebSpec.AllReal (m ((c.tc : Thread nD τ).loc main_arg2)) ∧ ChebSpec.AllReal (m ((c.tc : Thread nD τ).loc main_arg3))
      ∧ ChebSpec.AllReal (m ((c.tc : Thread nD τ).loc main_arg4)) := by
  have h0 := congrFun (h c) ValueIdx.ix0
  dsimp only [Cert.Pre_finite_inputs.fn, Cert.Pre_finite_inputs.fn_part1] at h0
  obtain ⟨h0123, h4⟩ := IntOp.andi_eq_one.1 h0
  obtain ⟨h012, h3⟩ := IntOp.andi_eq_one.1 h0123
  obtain ⟨h01, h2⟩ := IntOp.andi_eq_one.1 h012
  obtain ⟨h0', h1⟩ := IntOp.andi_eq_one.1 h01
  exact ⟨allReal_of_all _ _ _ _ _ h0', allReal_of_all _ _ _ _ _ h1, allReal_of_all _ _ _ _ _ h2,
    allReal_of_all _ _ _ _ _ h3, allReal_of_all _ _ _ _ _ h4⟩

end Cert.Proof.Finite

end
-- ==== Proof.lean ====
/-
  A graph convolution by Chebyshev terms: a Pallas kernel program against its jnp reference, on the extended reals.

  Both programs build the five Chebyshev terms T₀ = x, T₁ = L x, T_{k+1} = 2 · L T_k − T_{k−1} of the signal under the
  sparse operator L given by the edge list (gather at the column nodes, product with the edge values, sum into the row
  nodes), the kernel program in the layout [batch, node, channel], the reference in [node, batch·channel].  The kernel
  region then computes, block of 8192 nodes by block, max (∑_k T_k · W_k + b) 0 with the combined weights
  W_k[f, o] = pk[o, f] · dk[f, 0, k]; the reference contracts the term axis against dk first and the channel axis against
  pk second.  On real inputs the two arrangements are one number (distributivity and the exchange of two finite
  sums), and the precondition makes every float input real.

  The frames: the kernel program is host operations and one pipelined region whose body loads whole blocks, computes
  and stores one whole block (module KFrame, at any float instance; KFrameBits is the same text at the word-level
  program); the reference is host operations only (its generated run).  The ideal pass rewrote nothing, so
  `preserves` asks nothing.
-/
import proofs.«112941_j24421184045264_1_alg».proof.Defs
import proofs.«112941_j24421184045264_1_alg».proof.Proof.Gen.Kernel
import proofs.«112941_j24421184045264_1_alg».proof.Proof.Gen.Kernel.Skeleton
import proofs.«112941_j24421184045264_1_alg».proof.Proof.Gen.Kernel.Launch
import proofs.«112941_j24421184045264_1_alg».proof.Proof.Gen.Kernel.Points
import proofs.«112941_j24421184045264_1_alg».proof.Proof.Gen.KernelIdeal
import proofs.«112941_j24421184045264_1_alg».proof.Proof.Gen.KernelIdeal.Skeleton
import proofs.«112941_j24421184045264_1_alg».proof.Proof.Gen.KernelIdeal.Launch
import proofs.«112941_j24421184045264_1_alg».proof.Proof.Gen.KernelIdeal.Points
import proofs.«112941_j24421184045264_1_alg».proof.Proof.Gen.ReferenceIdeal
import proofs.«112941_j24421184045264_1_alg».proof.Proof.Gen.Pre_finite_inputs
import proofs.«112941_j24421184045264_1_alg».proof.Proof.Gen.ReferenceIdeal.Run
import proofs.«112941_j24421184045264_1_alg».proof.Proof.Gen.ReferenceIdeal.Read
import proofs.«112941_j24421184045264_1_alg».proof.Proof.Spec
import proofs.«112941_j24421184045264_1_alg».proof.Proof.KFrame
import proofs.«112941_j24421184045264_1_alg».proof.Proof.KFrameBits
import proofs.«112941_j24421184045264_1_alg».proof.Proof.KHost
import proofs.«112941_j24421184045264_1_alg».proof.Proof.KFinal
import proofs.«112941_j24421184045264_1_alg».proof.Proof.RefValue
import proofs.«112941_j24421184045264_1_alg».proof.Proof.Algebra
import proofs.«112941_j24421184045264_1_alg».proof.Proof.Finite
import Idealize.ShloMosaic.Adequacy
import Idealize.ShloMosaic.Init

noncomputable section

namespace Cert.Proof

open Idealize.ShloMosaic Idealize.ShloMosaic.TcCoe Idealize.ShloMosaic.ValueIdx Idealize.SL.Sem

/-! ## The kernel program's result is the graph convolution of its arguments -/

/-- What the region computes from the arrays it finds is the flat arrangement of the convolution of the program's
    arguments: the five signals it finds are the five Chebyshev terms, the stacked weights the products
    pk[o, f] · dk[f, 0, k], the bias row the bias. -/
theorem res_eq_out (m : (ℓ : Loc Cert.KernelIdeal.nD Cert.KernelIdeal.τ Cert.KernelIdeal.sig) → Buf (Elt Ideal) ℓ)
    (c : Dev Cert.KernelIdeal.nD) :
    Cert.KernelIdeal.KV.res m c
      = ChebSpec.out (Cert.KernelIdeal.KH.a0 m c) (Cert.KernelIdeal.KH.a1 m c) (Cert.KernelIdeal.KH.a2 m c)
          (Cert.KernelIdeal.KH.a3 m c) (Cert.KernelIdeal.KH.a4 m c) (Cert.KernelIdeal.KH.a5 m c) (Cert.KernelIdeal.KH.a6 m c) := by
  funext i
  obtain ⟨n, r, o, rfl⟩ : ∃ (n : Fin 16) (r : Fin 49152) (o : Fin 64), i = ix3 n r o := ⟨i 0, i 1, i 2, eq_ix3 i⟩
  unfold Cert.KernelIdeal.KV.res ChebSpec.conv ChebSpec.out ChebSpec.G
  show max ((∑ k : Fin 5, ∑ f : Fin 32, _ * _) + _) 0 = max ((∑ k : Fin 5, ∑ f : Fin 32, _ * _) + _) 0
  refine congrArg (fun s => max s 0) (congrArg₂ (· + ·) ?_ (Cert.KernelIdeal.KH.V_v106 m c o))
  refine Finset.sum_congr rfl fun k _ => Finset.sum_congr rfl fun f _ => ?_
  refine congrArg₂ (· * ·) ?_ (Cert.KernelIdeal.KH.V_v105 m c k f o)
  match k with
  | ⟨0, _⟩ => exact Cert.KernelIdeal.KH.V_arg0 m c n r f
  | ⟨1, _⟩ => exact Cert.KernelIdeal.KH.V_v14 m c n r f
  | ⟨2, _⟩ => exact Cert.KernelIdeal.KH.V_v32 m c n r f
  | ⟨3, _⟩ => exact Cert.KernelIdeal.KH.V_v50 m c n r f
  | ⟨4, _⟩ => exact Cert.KernelIdeal.KH.V_v68 m c n r f

/-! ## The claims -/

theorem frame_k : Cert.frame_Kernel (hKernel := Cert.Kernel.Gen.facts) (hPre_finite_inputs := Cert.Pre_finite_inputs.Gen.facts) :=
  fun m ρ _ => Cert.Kernel.KF.frame m ρ

theorem frame_ki : Cert.frame_KernelIdeal (hKernelIdeal := Cert.KernelIdeal.Gen.facts) (hPre_finite_inputs := Cert.Pre_finite_inputs.Gen.facts) :=
  fun m ρ _ => Cert.KernelIdeal.KF.frame m ρ

/-- The reference is host operations only: its generated run, the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both programs end with the graph convolution of the arguments in their result array: the kernel program by its run
    with the result named, the reference by its generated run read entry by entry (the nested arrangement), the two
    arrangements one function because the precondition makes the float arguments real. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => ChebSpec.out (Cert.KernelIdeal.KH.a0 m c) (Cert.KernelIdeal.KH.a1 m c) (Cert.KernelIdeal.KH.a2 m c)
      (Cert.KernelIdeal.KH.a3 m c) (Cert.KernelIdeal.KH.a4 m c) (Cert.KernelIdeal.KH.a5 m c) (Cert.KernelIdeal.KH.a6 m c), ?_, ?_⟩
  · exact (θ_run Cert.KernelIdeal.defs _ _).mono (fun _ h c => ⟨(h c).1.trans (res_eq_out m c), (h c).2⟩)
      (Cert.KernelIdeal.KV.run m ρ)
  · refine (θ_run Cert.ReferenceIdeal.defs _ _).mono (fun _ h c => ⟨?_, (h c).2⟩)
      (Cert.ReferenceIdeal.Value.run (F := Ideal) m' ρ')
    obtain ⟨h0, h1, h2, h3, _⟩ := Cert.Proof.Finite.real_of_pre m hpre c
    rw [(h c).1, Cert.ReferenceIdeal.Read.val_main_v79_eq, (hagree c).1, (hagree c).2.1, (hagree c).2.2.1, (hagree c).2.2.2.1,
      (hagree c).2.2.2.2.1, (hagree c).2.2.2.2.2.1, (hagree c).2.2.2.2.2.2, Cert.ReferenceIdeal.RV.result_eq]
    exact ChebSpec.outN_eq_out _ _ _ _ _ _ _ h0 h1 h2 h3

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
